-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x512 : Shape := ⟨2, ![256, 512]⟩
abbrev S512 : Shape := ⟨1, ![512]⟩
abbrev S512x512 : Shape := ⟨2, ![512, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512 .f32) (main_arg6 : FVec F S512 .f32) (main_arg7 : FVec F S512x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x512 .f32) (main_arg4 : FVec F S512 .f32) (main_arg5 : FVec F S512 .f32) (main_arg6 : FVec F S512 .f32) (main_arg7 : FVec F S512x512 .f32) (main_arg8 : FVec F S512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x512 : Shape := ⟨2, ![256, 512]⟩
abbrev S512 : Shape := ⟨1, ![512]⟩
abbrev S512x512 : Shape := ⟨2, ![512, 512]⟩
abbrev S1x800000 : Shape := ⟨2, ![1, 800000]⟩
abbrev S800000x1 : Shape := ⟨2, ![800000, 1]⟩
abbrev S_ : Shape := ⟨0, ![]⟩
abbrev S800000x256 : Shape := ⟨2, ![800000, 256]⟩
abbrev S1x512 : Shape := ⟨2, ![1, 512]⟩
abbrev S50000x512 : Shape := ⟨2, ![50000, 512]⟩
abbrev S2000x256 : Shape := ⟨2, ![2000, 256]⟩
abbrev S2000x512 : Shape := ⟨2, ![2000, 512]⟩

abbrev nBuf : Space → Nat
  | .hbm => 39
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S256x512, .bf16⟩
  | .hbm, ⟨30, _⟩ => ⟨S512x512, .bf16⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S50000x512, .f32⟩
  | .hbm, ⟨36, _⟩ => ⟨S1x512, .f32⟩
  | .hbm, ⟨37, _⟩ => ⟨S1x512, .f32⟩
  | .hbm, ⟨38, _⟩ => ⟨S50000x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .bf16⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2000x512, .f32⟩
  | .local _ .vmem, ⟨13, _⟩ => ⟨S2000x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S2000x512, .f32⟩
  | .local _ .vmem, ⟨21, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bitsLt_bf16_f32 : FTy.bits .bf16 < FTy.bits .f32
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x512.size a ≤ S50000x512.size a
  hwx1_7 : ∀ i : grid1.Coords, EltTy.bits .f32 = 32 ∨ (Rect.block (s := S50000x512) S2000x512.size (cc1_transform_7 i) (hinb1_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1x512.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v23_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_1) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S2000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x512 : Shape := ⟨2, ![256, 512]⟩
abbrev S512 : Shape := ⟨1, ![512]⟩
abbrev S512x512 : Shape := ⟨2, ![512, 512]⟩
abbrev S1x800000 : Shape := ⟨2, ![1, 800000]⟩
abbrev S800000x1 : Shape := ⟨2, ![800000, 1]⟩
abbrev S_ : Shape := ⟨0, ![]⟩
abbrev S800000x256 : Shape := ⟨2, ![800000, 256]⟩
abbrev S50000x512 : Shape := ⟨2, ![50000, 512]⟩
abbrev S1x512 : Shape := ⟨2, ![1, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S_, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S50000x512, .f32⟩
  | .hbm, ⟨34, _⟩ => ⟨S1x512, .f32⟩
  | .hbm, ⟨35, _⟩ => ⟨S50000x512, .f32⟩
  | .hbm, ⟨36, _⟩ => ⟨S50000x512, .f32⟩
  | .hbm, ⟨37, _⟩ => ⟨S_, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .i32⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S_, .f32⟩
  | .hbm, ⟨47, _⟩ => ⟨S1x512, .f32⟩
  | .hbm, ⟨48, _⟩ => ⟨S1x512, .f32⟩
  | .hbm, ⟨49, _⟩ => ⟨S50000x512, .f32⟩
  | .hbm, ⟨50, _⟩ => ⟨S50000x512, .f32⟩
  | .hbm, ⟨51, _⟩ => ⟨S50000x512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S1x512, .f32⟩
  | .hbm, ⟨66, _⟩ => ⟨S50000x512, .f32⟩
  | .hbm, ⟨67, _⟩ => ⟨S50000x512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S1x512, .f32⟩
  | .hbm, ⟨76, _⟩ => ⟨S50000x512, .f32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .f32⟩
  | .hbm, ⟨84, _⟩ => ⟨S50000x512, .f32⟩
  | .hbm, ⟨85, _⟩ => ⟨S1x512, .f32⟩
  | .hbm, ⟨86, _⟩ => ⟨S50000x512, .f32⟩
  | .hbm, ⟨87, _⟩ => ⟨S50000x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S50000x512 : S_.BroadcastsInDim S50000x512 (![] : Fin 0 → Fin S50000x512.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x512_S50000x512_1_0_0_1_n_n_wf : DotDims.WF S50000x512 S512x512 S50000x512 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.BitsRegion0.lean ====
/-
  The first kernel region: at each of the 25 row tiles it forms h1 = (1·x + agg)·W1 + b1 on a 2000 × 512 block and
  writes it out, and it keeps two 1 × 512 rows between tiles: the running column sums of h1 and of h1². Both are reset to
  zero at the first tile; at the last tile the batch mean (sum / 50000) and variance (sum of squares / 50000 − mean²)
  are stored into their own 1 × 512 output blocks, which are left untouched, and not written back, at every other tile.
  Stated here, at any float instance and any entry contents `V`: the windows' blocks; what each tile leaves in the h1
  block; the two running rows by recursion on the tile; the region's proof data with the two rows carried in its
  invariant; the body obligation; the invariant's entry and exit; and what the three output arrays' buffers hold.
-/
import proofs.«133134_j51762945852037_1_alg».proof.Proof.Gen.Kernel.Launch
import proofs.«133134_j51762945852037_1_alg».proof.Proof.Gen.Kernel.Skeleton
import proofs.«133134_j51762945852037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the branch conditions -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The reset branch's condition as the body computes it from the grid coordinate: taken at the first tile. -/
abbrev condFirst (i : grid0.Coords) : Prop :=
  (Scalar.cmpi .ne (Scalar.extui (Scalar.cmpi .eq (BitVec.ofNat 32 (i 0).val) 0#32)) 0#32) = 1#1
/-- The closing branch's condition: taken at the last tile. -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 24 :=
  (by decide +kernel : ∀ t : Fin grid0.N, condLast (grid0.coords t) ↔ t.val = 24)

/-! ## Whole-block loads and stores -/

/-- The whole-block rectangle's offsets are all zero. -/
private theorem off0 : (![0, 0] : Fin 2 → ℕ) = fun _ => 0 := funext fun a => by fin_cases a <;> rfl

section Whole
variable {κ : Kind} {sp : Space} {S : Shape} {e : EltTy} (v : View sig κ sp S e)
  {off : Fin S.rank → ℕ} (h0 : off = fun _ => 0)
include h0

/-- A load of the whole block reads the block's contents. -/
private theorem readAt_whole (inb : ∀ a, off a + S.size a ≤ S.size a) (f : v.ty.Contents (Elt F)) :
    View.readAt (Elt F) v (Rect.unit off S.size inb).toLoadRect f = v.read (Elt F) f := by
  rw [View.readAt_eq_ld, View.ld_unit_zero h0]

/-- One store of the whole block leaves its payload, whatever was there. -/
private theorem read_store1 (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h0 inb y⟩),
    View.canon_unit_zero h0]

/-- Two stores of the whole block leave the later one's payload. -/
private theorem read_store2 (inb inb' : ∀ a, off a + S.size a ≤ S.size a) (f : v.ty.Contents (Elt F)) (w w' : S.Idx → Elt F e) :
    v.read (Elt F) (v.writes (Elt F) f [(⟨Rect.unit off S.size inb, w⟩ : View.Piece (Elt F) S e), ⟨Rect.unit off S.size inb', w'⟩]) = w := by
  rw [View.read_writes_eq_canon _ _ _ (fun y => ⟨_, List.mem_cons_self, View.mem_set_unit_zero h0 inb y⟩),
    View.canon_cons_unit_zero h0]

end Whole

/-! ## The body on whole memrefs, case by case -/

/-- The first tile. On whole memrefs — the four inputs at read contents, the h1 block at anything, the mean and variance
    blocks at contents handed back untouched, the two rows at anything — the body runs to the continuation holding the
    inputs as they were, the h1 block at the tile's h1, and the two rows at the tile's column sums over the zero rows
    (both rows are zeroed before they are read). -/
private theorem runFirst (c : Dev nD) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x512 .bf16) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole)
    (hc0 : condFirst i) (hc1 : ¬condLast i)
    (x0 x1 : Vec F S2000x256 .f32) (x2 : Vec F S256x512 .bf16) (x3 : Vec F S1x512 .f32) (x5 x6 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay6 x0 x1 x2 x3)
            ∗ owns (c : Thread nD τ) arg6 fullShare x5 ∗ owns (c : Thread nD τ) arg7 fullShare x6
            ∗ owns (c : Thread nD τ) arg8 fullShare (k0_pay7 x0 x1 x2 x3 k0_pay4)
            ∗ owns (c : Thread nD τ) arg9 fullShare (k0_pay1 (k0_pay8 x0 x1 x2 x3 k0_pay5))) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0 hf1 hf2 hf3 hf5 hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (read_store1 _ off0 _ _ _).trans ?_
    simp only [readAt_whole (S := S2000x256) _ off0, readAt_whole (S := S256x512) _ off0, readAt_whole (S := S1x512) _ off0]
  isplitl [H5]
  · iexists _; isplitr; · ipureintro; rfl
    iexact H5
  isplitl [H6]
  · iexists _; isplitr; · ipureintro; rfl
    iexact H6
  isplitl [H8]
  · iexists _; isplitr
    swap; · iexact H8
    ipureintro
    refine (read_store2 _ off0 _ _ _ _ _).trans ?_
    sl_unfold_run_names
    simp only [readAt_whole (S := S2000x256) _ off0, readAt_whole (S := S256x512) _ off0, readAt_whole (S := S1x512) _ off0]
    rw [View.readCov_unit_zero _ off0]
  iexists _; isplitr
  swap; · iexact H9
  ipureintro
  refine (read_store2 _ off0 _ _ _ _ _).trans ?_
  sl_unfold_run_names
  simp only [readAt_whole (S := S2000x256) _ off0, readAt_whole (S := S256x512) _ off0, readAt_whole (S := S1x512) _ off0]
  rw [View.readCov_unit_zero _ off0]

/-- A middle tile: as the first, but the two rows come in at the rows the tile before left and go out at the tile's
    column sums over those. -/
private theorem runMid (c : Dev nD) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x512 .bf16) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole)
    (hc0 : ¬condFirst i) (hc1 : ¬condLast i)
    (x0 x1 : Vec F S2000x256 .f32) (x2 : Vec F S256x512 .bf16) (x3 : Vec F S1x512 .f32) (x5 x6 s8 s9 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare x5 ∗ owns (c : Thread nD τ) arg7 fullShare x6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay6 x0 x1 x2 x3)
            ∗ owns (c : Thread nD τ) arg6 fullShare x5 ∗ owns (c : Thread nD τ) arg7 fullShare x6
            ∗ owns (c : Thread nD τ) arg8 fullShare (k0_pay7 x0 x1 x2 x3 s8)
            ∗ owns (c : Thread nD τ) arg9 fullShare (k0_pay1 (k0_pay8 x0 x1 x2 x3 s9))) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0 hf1 hf2 hf3 hf5 hf6 hf8 hf9
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (read_store1 _ off0 _ _ _).trans ?_
    simp only [readAt_whole (S := S2000x256) _ off0, readAt_whole (S := S256x512) _ off0, readAt_whole (S := S1x512) _ off0]
  isplitl [H5]
  · iexists _; isplitr; · ipureintro; rfl
    iexact H5
  isplitl [H6]
  · iexists _; isplitr; · ipureintro; rfl
    iexact H6
  isplitl [H8]
  · iexists _; isplitr
    swap; · iexact H8
    ipureintro
    refine (read_store1 _ off0 _ _ _).trans ?_
    simp only [readAt_whole (S := S2000x256) _ off0, readAt_whole (S := S256x512) _ off0, readAt_whole (S := S1x512) _ off0]
  iexists _; isplitr
  swap; · iexact H9
  ipureintro
  refine (read_store1 _ off0 _ _ _).trans ?_
  sl_unfold_run_names
  simp only [readAt_whole (S := S2000x256) _ off0, readAt_whole (S := S256x512) _ off0, readAt_whole (S := S1x512) _ off0]

/-- The last tile: the two rows as at a middle tile; the mean and variance blocks come in at anything and go out at the
    mean and variance computed from the rows this tile leaves. -/
private theorem runLast (c : Dev nD) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x512 .bf16) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole)
    (hc0 : ¬condFirst i) (hc1 : condLast i)
    (x0 x1 : Vec F S2000x256 .f32) (x2 : Vec F S256x512 .bf16) (x3 : Vec F S1x512 .f32) (s8 s9 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay6 x0 x1 x2 x3)
            ∗ owns (c : Thread nD τ) arg6 fullShare (k0_pay2 (k0_pay7 x0 x1 x2 x3 s8)) ∗ owns (c : Thread nD τ) arg7 fullShare (k0_pay3 (k0_pay7 x0 x1 x2 x3 s8) (k0_pay1 (k0_pay8 x0 x1 x2 x3 s9)))
            ∗ owns (c : Thread nD τ) arg8 fullShare (k0_pay7 x0 x1 x2 x3 s8)
            ∗ owns (c : Thread nD τ) arg9 fullShare (k0_pay1 (k0_pay8 x0 x1 x2 x3 s9))) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0 hf1 hf2 hf3 hf8 hf9
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (read_store1 _ off0 _ _ _).trans ?_
    simp only [readAt_whole (S := S2000x256) _ off0, readAt_whole (S := S256x512) _ off0, readAt_whole (S := S1x512) _ off0]
  isplitl [H5]
  · iexists _; isplitr
    swap; · iexact H5
    ipureintro
    refine (read_store1 _ off0 _ _ _).trans ?_
    sl_unfold_run_names
    rw [View.readCov_unit_zero _ off0]
    simp only [readAt_whole (S := S2000x256) _ off0, readAt_whole (S := S256x512) _ off0, readAt_whole (S := S1x512) _ off0]
  isplitl [H6]
  · iexists _; isplitr
    swap; · iexact H6
    ipureintro
    refine (read_store1 _ off0 _ _ _).trans ?_
    sl_unfold_run_names
    rw [View.readCov_unit_zero _ off0, View.readCov_unit_zero _ off0]
    simp only [readAt_whole (S := S2000x256) _ off0, readAt_whole (S := S256x512) _ off0, readAt_whole (S := S1x512) _ off0]
  isplitl [H8]
  · iexists _; isplitr
    swap; · iexact H8
    ipureintro
    refine (read_store1 _ off0 _ _ _).trans ?_
    sl_unfold_run_names
    simp only [readAt_whole (S := S2000x256) _ off0, readAt_whole (S := S256x512) _ off0, readAt_whole (S := S1x512) _ off0]
  iexists _; isplitr
  swap; · iexact H9
  ipureintro
  refine (read_store1 _ off0 _ _ _).trans ?_
  sl_unfold_run_names
  simp only [readAt_whole (S := S2000x256) _ off0, readAt_whole (S := S256x512) _ off0, readAt_whole (S := S1x512) _ off0]

/-! ## What a tile leaves -/

/-- The h1 block of tile `t`: the body's matmul payload of the tile's x block, agg block, W1 and b1. -/
def tileH (c : Dev nD) (t : Fin cfg0.N) : Vec F S2000x512 .f32 :=
  k0_pay6 (iblk0 V c 0 t) (iblk0 V c 1 t) (iblk0 V c 2 t) (iblk0 V c 3 t)

/-- The running column sums of h1 after tile `n`: from the zero row at the first tile, then over what the tile before left. -/
def sumAt (c : Dev nD) : (n : ℕ) → n < cfg0.N → Vec F S1x512 .f32
  | 0, h => k0_pay7 (iblk0 V c 0 ⟨0, h⟩) (iblk0 V c 1 ⟨0, h⟩) (iblk0 V c 2 ⟨0, h⟩) (iblk0 V c 3 ⟨0, h⟩) (k0_pay4 (F := F))
  | n + 1, h => k0_pay7 (iblk0 V c 0 ⟨n + 1, h⟩) (iblk0 V c 1 ⟨n + 1, h⟩) (iblk0 V c 2 ⟨n + 1, h⟩) (iblk0 V c 3 ⟨n + 1, h⟩)
      (sumAt c n (Nat.lt_of_succ_lt h))

/-- The running column sums of h1² after tile `n`, likewise. -/
def sqAt (c : Dev nD) : (n : ℕ) → n < cfg0.N → Vec F S1x512 .f32
  | 0, h => k0_pay1 (k0_pay8 (iblk0 V c 0 ⟨0, h⟩) (iblk0 V c 1 ⟨0, h⟩) (iblk0 V c 2 ⟨0, h⟩) (iblk0 V c 3 ⟨0, h⟩) (k0_pay5 (F := F)))
  | n + 1, h => k0_pay1 (k0_pay8 (iblk0 V c 0 ⟨n + 1, h⟩) (iblk0 V c 1 ⟨n + 1, h⟩) (iblk0 V c 2 ⟨n + 1, h⟩) (iblk0 V c 3 ⟨n + 1, h⟩)
      (sqAt c n (Nat.lt_of_succ_lt h)))

theorem lastLt : 24 < cfg0.N := by decide

/-- The batch mean row the last tile stores. -/
def meanRow (c : Dev nD) : Vec F S1x512 .f32 := k0_pay2 (sumAt V c 24 lastLt)
/-- The batch variance row the last tile stores. -/
def varRow (c : Dev nD) : Vec F S1x512 .f32 := k0_pay3 (sumAt V c 24 lastLt) (sqAt V c 24 lastLt)

/-! ## The proof data -/

/-- The two carried rows as whole scoped buffers of the kernel's own. -/
abbrev scSum : Memref sig .tc .vmem S1x512 .f32 := Memref.whole cc0_scratch0
abbrev scSq : Memref sig .tc .vmem S1x512 .f32 := Memref.whole cc0_scratch1

/-- The scoped buffers of the core that are neither a staging buffer of this region nor one of its two carried rows
    (the second region's ten staging buffers), each whole at some contents. -/
def restOthers (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- The region invariant before tile `n`: before the first tile the class's (every scoped buffer at anything); afterwards
    the two carried rows at what the tile before left, every other scoped buffer no window stages at anything, and the
    generator register at some state. -/
def PhiRows (c : Dev nD) : (n : ℕ) → n ≤ cfg0.N → sProp 𝕄
  | 0, _ => Pipeline.ΦA spec0 c
  | n + 1, hn => iprop(owns (c : Thread nD τ) scSum fullShare (sumAt V c n hn) ∗ owns (c : Thread nD τ) scSq fullShare (sqAt V c n hn)
      ∗ restOthers c ∗ (∃ r, prngReg c r))

/-- The proof data of the first region on core `c`. Windows 0–3 are inputs (their buffers at their blocks); window 4 holds
    the tile's h1 block; windows 5 and 6 hold the mean and variance rows (consulted only at the last tile, where they are
    stored and written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => tileH V c t
    | ⟨5, _⟩ => meanRow V c
    | ⟨6, _⟩ => varRow V c
  Φ t := PhiRows V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_4 (c : Dev nD) (t : Fin cfg0.N) : (dat0 V c).after 4 t = tileH V c t := by dsimp only [dat0]
theorem after0_5 (c : Dev nD) (t : Fin cfg0.N) : (dat0 V c).after 5 t = meanRow V c := by dsimp only [dat0]
theorem after0_6 (c : Dev nD) (t : Fin cfg0.N) : (dat0 V c).after 6 t = varRow V c := by dsimp only [dat0]

private theorem after0_0 (c : Dev nD) (t : Fin cfg0.N) : (dat0 V c).after 0 t = iblk0 V c 0 t := by dsimp only [dat0]
private theorem after0_1 (c : Dev nD) (t : Fin cfg0.N) : (dat0 V c).after 1 t = iblk0 V c 1 t := by dsimp only [dat0]
private theorem after0_2 (c : Dev nD) (t : Fin cfg0.N) : (dat0 V c).after 2 t = iblk0 V c 2 t := by dsimp only [dat0]
private theorem after0_3 (c : Dev nD) (t : Fin cfg0.N) : (dat0 V c).after 3 t = iblk0 V c 3 t := by dsimp only [dat0]

/-! ## What the body finds in the inputs' buffers

Each of the four inputs is only read, so its current buffer holds its block at every tile, whether the tile fetched it
(x and agg, at every tile) or not (W1 and b1, after the first tile: their block index does not move). -/

private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
private theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
private theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
private theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## Where the mean and variance windows are idle -/

/-- The inputs and the h1 window are never idle. -/
private theorem live0_0 (i : grid0.Coords) : cfg0.idle 0 i = false := rfl
private theorem live0_1 (i : grid0.Coords) : cfg0.idle 1 i = false := rfl
private theorem live0_2 (i : grid0.Coords) : cfg0.idle 2 i = false := rfl
private theorem live0_3 (i : grid0.Coords) : cfg0.idle 3 i = false := rfl
private theorem live0_4 (i : grid0.Coords) : cfg0.idle 4 i = false := rfl
/-- Away from the last tile the mean and variance windows are idle, and not written back. -/
private theorem idle0_5 : ∀ t : Fin cfg0.N, ¬condLast (grid0.coords t) → cfg0.idle 5 (grid0.coords t) = true := by decide +kernel
private theorem idle0_6 : ∀ t : Fin cfg0.N, ¬condLast (grid0.coords t) → cfg0.idle 6 (grid0.coords t) = true := by decide +kernel
private theorem noFlush0_5 : ∀ t : Fin cfg0.N, ¬condLast (grid0.coords t) → (cfg0.win 5).flush t = false := by decide +kernel
private theorem noFlush0_6 : ∀ t : Fin cfg0.N, ¬condLast (grid0.coords t) → (cfg0.win 6).flush t = false := by decide +kernel
/-- At the last tile they are live. -/
private theorem live0_5 : ∀ t : Fin cfg0.N, condLast (grid0.coords t) → cfg0.idle 5 (grid0.coords t) = false := by decide +kernel
private theorem live0_6 : ∀ t : Fin cfg0.N, condLast (grid0.coords t) → cfg0.idle 6 (grid0.coords t) = false := by decide +kernel

/-- At a tile live for window `w` the body leaves the window's buffer at the proof data's contents. -/
private theorem leavesExact_live (c : Dev nD) (w : Fin cfg0.W) (t : Fin cfg0.N) (h : cfg0.idle w (cfg0.grid.coords t) = false) :
    (dat0 V c).leavesExact w t
      = owns (c : Thread nD τ) ((cfg0.win w).stage (cfg0.slots t w)) fullShare ((dat0 V c).after w t) := by
  unfold Dat.leavesExact; rw [h]

/-! ## The running rows and the invariant, tile by tile -/

private theorem sumAt_first (c : Dev nD) (t : Fin cfg0.N) (h : t.val = 0) :
    sumAt V c t.val t.isLt = k0_pay7 (iblk0 V c 0 t) (iblk0 V c 1 t) (iblk0 V c 2 t) (iblk0 V c 3 t) (k0_pay4 (F := F)) := by
  obtain ⟨n, hn⟩ := t
  cases n with
  | zero => rfl
  | succ n => exact absurd h (Nat.succ_ne_zero n)

private theorem sumAt_next (c : Dev nD) (t : Fin cfg0.N) (h : t.val ≠ 0) :
    sumAt V c t.val t.isLt = k0_pay7 (iblk0 V c 0 t) (iblk0 V c 1 t) (iblk0 V c 2 t) (iblk0 V c 3 t)
      (sumAt V c (t.val - 1) (Nat.lt_of_le_of_lt (Nat.sub_le _ _) t.isLt)) := by
  obtain ⟨n, hn⟩ := t
  cases n with
  | zero => exact absurd rfl h
  | succ n => rfl

private theorem sqAt_first (c : Dev nD) (t : Fin cfg0.N) (h : t.val = 0) :
    sqAt V c t.val t.isLt = k0_pay1 (k0_pay8 (iblk0 V c 0 t) (iblk0 V c 1 t) (iblk0 V c 2 t) (iblk0 V c 3 t) (k0_pay5 (F := F))) := by
  obtain ⟨n, hn⟩ := t
  cases n with
  | zero => rfl
  | succ n => exact absurd h (Nat.succ_ne_zero n)

private theorem sqAt_next (c : Dev nD) (t : Fin cfg0.N) (h : t.val ≠ 0) :
    sqAt V c t.val t.isLt = k0_pay1 (k0_pay8 (iblk0 V c 0 t) (iblk0 V c 1 t) (iblk0 V c 2 t) (iblk0 V c 3 t)
      (sqAt V c (t.val - 1) (Nat.lt_of_le_of_lt (Nat.sub_le _ _) t.isLt))) := by
  obtain ⟨n, hn⟩ := t
  cases n with
  | zero => exact absurd rfl h
  | succ n => rfl

/-- The mean and variance rows are computed from the rows the last tile leaves. -/
private theorem meanRow_last (c : Dev nD) (t : Fin cfg0.N) (h : t.val = 24) : meanRow V c = k0_pay2 (sumAt V c t.val t.isLt) := by
  obtain ⟨n, hn⟩ := t
  dsimp only at h; subst h; rfl
private theorem varRow_last (c : Dev nD) (t : Fin cfg0.N) (h : t.val = 24) :
    varRow V c = k0_pay3 (sumAt V c t.val t.isLt) (sqAt V c t.val t.isLt) := by
  obtain ⟨n, hn⟩ := t
  dsimp only at h; subst h; rfl

private theorem PhiRows_zero (c : Dev nD) (n : ℕ) (h : n ≤ cfg0.N) (hz : n = 0) : PhiRows V c n h = Pipeline.ΦA spec0 c := by
  subst hz; rfl

private theorem PhiRows_succ (c : Dev nD) (n : ℕ) (hn : n < cfg0.N) :
    PhiRows V c (n + 1) hn = iprop(owns (c : Thread nD τ) scSum fullShare (sumAt V c n hn) ∗ owns (c : Thread nD τ) scSq fullShare (sqAt V c n hn)
      ∗ restOthers c ∗ (∃ r, prngReg c r)) := rfl

private theorem PhiRows_pos (c : Dev nD) (n : ℕ) (h : n ≤ cfg0.N) (hz : n ≠ 0) :
    PhiRows V c n h = iprop(owns (c : Thread nD τ) scSum fullShare (sumAt V c (n - 1) (by omega))
      ∗ owns (c : Thread nD τ) scSq fullShare (sqAt V c (n - 1) (by omega)) ∗ restOthers c ∗ (∃ r, prngReg c r)) := by
  cases n with
  | zero => exact absurd rfl hz
  | succ n => rfl

/-- The class's invariant with the two carried rows as memrefs owned at some contents. -/
private theorem PhiA0_eq (c : Dev nD) :
    (Pipeline.ΦA spec0 c : sProp 𝕄)
      = iprop(((∃ d, owns (c : Thread nD τ) scSum fullShare d) ∗ (∃ d, owns (c : Thread nD τ) scSq fullShare d) ∗ restOthers c)
          ∗ (∃ r, prngReg c r)) := by
  unfold Pipeline.ΦA restOthers; rw [scopedRest0_eq]; simp only [scSum, scSq, owns_whole]; try rfl

private theorem Phi_castSucc (c : Dev nD) (t : Fin cfg0.N) :
    (dat0 V c).Φ t.castSucc = PhiRows V c t.val (Nat.le_of_lt t.isLt) := by
  dsimp only [dat0]; simp only [Fin.coe_castSucc]

private theorem Phi_succ (c : Dev nD) (t : Fin cfg0.N) : (dat0 V c).Φ t.succ = PhiRows V c (t.val + 1) t.isLt := rfl

/-! ## The body obligation, at a generic tile -/

/-- What the body is called with at tile `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d)))

/-- and what it returns. -/
private def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 1600000 in
/-- The body at any tile. The inputs' buffers hold their blocks; the tile is the first, a middle one or the last
    (the two conditions in closed form), and that case's run applies: the invariant hands the body the two carried rows
    (at anything at the first tile, else at what the tile before left) and takes them back at this tile's rows; away
    from the last tile the mean and variance buffers come back as they were found. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi_succ, PhiRows_succ, Phi_castSucc]
  rw [leavesExact_live V c 0 t (live0_0 _), leavesExact_live V c 1 t (live0_1 _), leavesExact_live V c 2 t (live0_2 _),
    leavesExact_live V c 3 t (live0_3 _), leavesExact_live V c 4 t (live0_4 _)]
  rw [after0_0, after0_1, after0_2, after0_3, after0_4]
  have hN : t.val < 25 := lt_of_lt_of_eq t.isLt N_0
  by_cases h0 : t.val = 0
  · have hc0 : condFirst (grid0.coords t) := (hcondFirst t).mpr h0
    have hc1 : ¬condLast (grid0.coords t) := fun h => by have := (hcondLast t).mp h; omega
    rw [Dat.leavesExact_idle (dat0 V c) 5 t (idle0_5 t hc1) (noFlush0_5 t hc1),
      Dat.leavesExact_idle (dat0 V c) 6 t (idle0_6 t hc1) (noFlush0_6 t hc1)]
    rw [PhiRows_zero V c _ _ h0, PhiA0_eq, sumAt_first V c t h0, sqAt_first V c t h0]
    unfold tileH
    iintro ⟨⟨⟨⟨%d8, HS8⟩, ⟨%d9, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (runFirst c (grid0.coords t) _ _ _ _ _ _ _ _ _ _ _ _ _ _ _ _ _ _ hc0 hc1 (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexists _; iexact HS8
    isplitl [HS9]; · iexists _; iexact HS9
    iintro ⟨H0, H1, H2, H3, H4, H5, H6, HS8, HS9⟩
    isplitl [HS8 HS9 HR Hg]
    · isplitl [HS8]; · iexact HS8
      isplitl [HS9]; · iexact HS9
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc0 : ¬condFirst (grid0.coords t) := fun h => h0 ((hcondFirst t).mp h)
    rw [PhiRows_pos V c _ _ h0]
    by_cases h1 : t.val = 24
    · have hc1 : condLast (grid0.coords t) := (hcondLast t).mpr h1
      rw [leavesExact_live V c 5 t (live0_5 t hc1), leavesExact_live V c 6 t (live0_6 t hc1), after0_5, after0_6,
        meanRow_last V c t h1, varRow_last V c t h1]
      rw [sumAt_next V c t h0, sqAt_next V c t h0]
      unfold tileH
      iintro ⟨⟨HS8, HS9, HR, Hg⟩, Ho, ⟨%d0, H0⟩, ⟨%d1, H1⟩, ⟨%d2, H2⟩, ⟨%d3, H3⟩, ⟨%d4, H4⟩, ⟨%d5, H5⟩, ⟨%d6, H6⟩⟩
      iapply (runLast c (grid0.coords t) _ _ _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 HR Hg]
      · isplitl [HS8]; · iexact HS8
        isplitl [HS9]; · iexact HS9
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬condLast (grid0.coords t) := fun h => h1 ((hcondLast t).mp h)
      rw [Dat.leavesExact_idle (dat0 V c) 5 t (idle0_5 t hc1) (noFlush0_5 t hc1),
        Dat.leavesExact_idle (dat0 V c) 6 t (idle0_6 t hc1) (noFlush0_6 t hc1)]
      rw [sumAt_next V c t h0, sqAt_next V c t h0]
      unfold tileH
      iintro ⟨⟨HS8, HS9, HR, Hg⟩, Ho, ⟨%d0, H0⟩, ⟨%d1, H1⟩, ⟨%d2, H2⟩, ⟨%d3, H3⟩, ⟨%d4, H4⟩, ⟨%d5, H5⟩, ⟨%d6, H6⟩⟩
      iapply (runMid c (grid0.coords t) _ _ _ _ _ _ _ _ _ _ _ _ _ _ _ _ _ _ hc0 hc1 (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 HR Hg]
      · isplitl [HS8]; · iexact HS8
        isplitl [HS9]; · iexact HS9
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation for the first region, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first tile. -/
theorem hin0 (c : Dev nD) : (Pipeline.ΦA spec0 c : sProp 𝕄) ⊢ (dat0 V c).Φ 0 := by
  rw [show (dat0 V c).Φ 0 = PhiRows V c 0 (Nat.zero_le _) from rfl, PhiRows_zero V c 0 _ rfl]
/-- After the last tile the invariant gives the class's back: the carried rows' named contents are forgotten. -/
theorem hout0 (c : Dev nD) : (dat0 V c).Φ (Fin.last cfg0.N) ⊢ (Pipeline.ΦA spec0 c : sProp 𝕄) := by
  rw [show (dat0 V c).Φ (Fin.last cfg0.N) = PhiRows V c (Fin.last cfg0.N).val (Nat.le_of_lt_succ (Fin.last cfg0.N).isLt) from rfl,
    PhiRows_pos V c _ _ (by rw [Fin.val_last]; have : cfg0.N = 25 := N_0; omega), PhiA0_eq]
  iintro ⟨HS8, HS9, HR, Hg⟩
  isplitl [HS8 HS9 HR]
  · isplitl [HS8]; · iexists _; iexact HS8
    isplitl [HS9]; · iexists _; iexact HS9
    iexact HR
  iexact Hg

end Cert.Kernel.Hand

end
-- ==== Proof.BitsRegion1.lean ====
/-
  The second kernel region: at each of the 25 row tiles it normalises the 2000 × 512 block of h1 with the batch mean and
  variance (each a 1 × 512 row held whole), scales and shifts by gamma and beta, clamps at zero and multiplies by W2,
  adding b2. Every window is read or written whole at every point, nothing is kept between points.
  Stated here: each window's block at a point, what the body leaves in the output block, the region's proof data
  and the body obligation, at any float instance and at any contents `V` the region is entered from.
-/
import proofs.«133134_j51762945852037_1_alg».proof.Proof.Gen.Kernel.Launch
import proofs.«133134_j51762945852037_1_alg».proof.Proof.Gen.Kernel.Skeleton
import proofs.«133134_j51762945852037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 2000 × 512 output block as one rectangle. -/
abbrev rOut1 : Rect S2000x512 := Rect.unit (s := S2000x512) ![0, 0] S2000x512.size inb_S2000x512_S2000x512_0_0

/-- What the body leaves in the output block: its one store, over the seven input blocks in window order
    (h1 tile, mean, variance, gamma, beta, W2, b2). The payload takes them in the order the body loads them. -/
def out1_7 (xh : Vec F S2000x512 .f32) (xmean xvar xgamma xbeta : Vec F S1x512 .f32) (xw2 : Vec F S512x512 .bf16) (xb2 : Vec F S1x512 .f32) :
    Vec F S2000x512 .f32 :=
  View.canon [⟨rOut1, k1_pay1 xh xvar xmean xgamma xbeta xw2 xb2⟩]

/-- The proof data of the second region on core `c`: arrays as found, each input's buffer at its block, the output's at
    `out1_7` of the input blocks; the class-A invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-! ## Each input buffer holds its block at every point

The h1 tile moves with the point and is fetched at each one; the six row and weight windows sit on block 0 throughout
and are fetched once. Either way the buffer the body is handed holds the window's block of the array: where no fetch
happened the block index is the previous point's, and the body left that block untouched. No window is cut and none
is ever idle, so "what a fetch puts in the buffer" is the block itself. -/

theorem held1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    show (dat1 V c).after 0 s = _
    dsimp only [dat1]; unfold Dat.blockOf iblk1; rfl
  rw [(dat1 V c).before_in_eq_fetched 0 rfl (fun _ => rfl) (fun _ _ _ => rfl) hkeep t d]
  unfold Dat.fetched Dat.blockOf iblk1; rfl

theorem held1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    show (dat1 V c).after 1 s = _
    dsimp only [dat1]; unfold Dat.blockOf iblk1; rfl
  rw [(dat1 V c).before_in_eq_fetched 1 rfl (fun _ => rfl) (fun _ _ _ => rfl) hkeep t d]
  unfold Dat.fetched Dat.blockOf iblk1; rfl

theorem held1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    show (dat1 V c).after 2 s = _
    dsimp only [dat1]; unfold Dat.blockOf iblk1; rfl
  rw [(dat1 V c).before_in_eq_fetched 2 rfl (fun _ => rfl) (fun _ _ _ => rfl) hkeep t d]
  unfold Dat.fetched Dat.blockOf iblk1; rfl

theorem held1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := fun s => by
    show (dat1 V c).after 3 s = _
    dsimp only [dat1]; unfold Dat.blockOf iblk1; rfl
  rw [(dat1 V c).before_in_eq_fetched 3 rfl (fun _ => rfl) (fun _ _ _ => rfl) hkeep t d]
  unfold Dat.fetched Dat.blockOf iblk1; rfl

theorem held1_4 (c : Dev nD) (t : Fin cfg1.N) (d) : (dat1 V c).before 4 t d = iblk1 V c 4 t := by
  have hkeep : ∀ s, (cfg1.win 4).cut (cfg1.grid.coords s) ((dat1 V c).after 4 s) = (dat1 V c).blockOf 4 s := fun s => by
    show (dat1 V c).after 4 s = _
    dsimp only [dat1]; unfold Dat.blockOf iblk1; rfl
  rw [(dat1 V c).before_in_eq_fetched 4 rfl (fun _ => rfl) (fun _ _ _ => rfl) hkeep t d]
  unfold Dat.fetched Dat.blockOf iblk1; rfl

theorem held1_5 (c : Dev nD) (t : Fin cfg1.N) (d) : (dat1 V c).before 5 t d = iblk1 V c 5 t := by
  have hkeep : ∀ s, (cfg1.win 5).cut (cfg1.grid.coords s) ((dat1 V c).after 5 s) = (dat1 V c).blockOf 5 s := fun s => by
    show (dat1 V c).after 5 s = _
    dsimp only [dat1]; unfold Dat.blockOf iblk1; rfl
  rw [(dat1 V c).before_in_eq_fetched 5 rfl (fun _ => rfl) (fun _ _ _ => rfl) hkeep t d]
  unfold Dat.fetched Dat.blockOf iblk1; rfl

theorem held1_6 (c : Dev nD) (t : Fin cfg1.N) (d) : (dat1 V c).before 6 t d = iblk1 V c 6 t := by
  have hkeep : ∀ s, (cfg1.win 6).cut (cfg1.grid.coords s) ((dat1 V c).after 6 s) = (dat1 V c).blockOf 6 s := fun s => by
    show (dat1 V c).after 6 s = _
    dsimp only [dat1]; unfold Dat.blockOf iblk1; rfl
  rw [(dat1 V c).before_in_eq_fetched 6 rfl (fun _ => rfl) (fun _ _ _ => rfl) hkeep t d]
  unfold Dat.fetched Dat.blockOf iblk1; rfl

/-! ## The output block after the body -/

/-- The zero offsets of a rank-2 rectangle, as the constant function. -/
private theorem zeroOff2 : (![0, 0] : Fin 2 → ℕ) = fun _ => 0 := by
  funext a; fin_cases a <;> rfl

/-- One store of the full 2000 × 512 extent reaches every index of the block. -/
theorem cover1_7 (p : Vec F S2000x512 .f32) (y : S2000x512.Idx) :
    ∃ pc ∈ ([⟨rOut1, p⟩] : List (View.Piece (Elt F) S2000x512 .f32)), y ∈ pc.1.set :=
  View.cover_of_tiled [⟨rOut1, p⟩] S2000x512.size (by rfl) y

/-! ## The body on whole buffers

Seven whole-buffer loads (the h1 tile, then variance before mean, then gamma, beta, W2, b2), a load of the output
buffer whose value is unused, and one whole-buffer store of the payload. The inputs end as they began; the output
buffer, whatever it held, ends at the store's payload laid over the full rectangle. -/

set_option maxHeartbeats 1000000 in
theorem sound_kernel1 (c : Dev nD) (E : Set ℕ) (i : grid1.Coords)
    (a0 : Memref sig .tc .vmem S2000x512 .f32) (h0 : a0.IsWhole) (a1 : Memref sig .tc .vmem S1x512 .f32) (h1 : a1.IsWhole)
    (a2 : Memref sig .tc .vmem S1x512 .f32) (h2 : a2.IsWhole) (a3 : Memref sig .tc .vmem S1x512 .f32) (h3 : a3.IsWhole)
    (a4 : Memref sig .tc .vmem S1x512 .f32) (h4 : a4.IsWhole) (a5 : Memref sig .tc .vmem S512x512 .bf16) (h5 : a5.IsWhole)
    (a6 : Memref sig .tc .vmem S1x512 .f32) (h6 : a6.IsWhole) (a7 : Memref sig .tc .vmem S2000x512 .f32) (h7 : a7.IsWhole)
    (xh : Vec F S2000x512 .f32) (xmean xvar xgamma xbeta : Vec F S1x512 .f32) (xw2 : Vec F S512x512 .bf16) (xb2 : Vec F S1x512 .f32)
    (K : PUnit → sProp 𝕄) :
    iprop(owns (c : Thread nD τ) a0 fullShare xh ∗ owns (c : Thread nD τ) a1 fullShare xmean ∗ owns (c : Thread nD τ) a2 fullShare xvar
        ∗ owns (c : Thread nD τ) a3 fullShare xgamma ∗ owns (c : Thread nD τ) a4 fullShare xbeta ∗ owns (c : Thread nD τ) a5 fullShare xw2
        ∗ owns (c : Thread nD τ) a6 fullShare xb2 ∗ (∃ d, owns (c : Thread nD τ) a7 fullShare d)
        ∗ (iprop(owns (c : Thread nD τ) a0 fullShare xh ∗ owns (c : Thread nD τ) a1 fullShare xmean ∗ owns (c : Thread nD τ) a2 fullShare xvar
            ∗ owns (c : Thread nD τ) a3 fullShare xgamma ∗ owns (c : Thread nD τ) a4 fullShare xbeta ∗ owns (c : Thread nD τ) a5 fullShare xw2
            ∗ owns (c : Thread nD τ) a6 fullShare xb2
            ∗ owns (c : Thread nD τ) a7 fullShare (out1_7 xh xmean xvar xgamma xbeta xw2 xb2)) -∗ K ⟨⟩))
      ⊢ wp frame (wpE (defs₀ (F := F)) Variants.none c none) E (cc1__kernel_b i a0 h0 a1 h1 a2 h2 a3 h3 a4 h4 a5 h5 a6 h6 a7 h7) K := by
  simp only [cc1__kernel_b_eq_skeleton]; unfold cc1__kernel_b_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, HK⟩
  subst e0 e1 e2 e3 e4 e5 e6
  sl_exec
  sl_step
  iapply HK
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  rw [View.read_writes_eq_canon _ _ _ (cover1_7 _)]
  simp only [View.readAt_eq_ld, View.ld_unit_zero (S := S2000x512) zeroOff2, View.ld_unit_zero (S := S1x512) zeroOff2,
    View.ld_unit_zero (S := S512x512) zeroOff2]
  rfl

/-! ## The body at a grid point

The pipeline hands the body the class invariant, the core's debts and the eight current buffers, each at what it held
before; it wants them back with each buffer at the proof data's "after". The invariant and the debts do not change
across a point (nothing is owed, the invariant does not depend on the point) and pass through; the inputs' buffers
hold their blocks by the lemmas above and the body leaves them so; the output's buffer is left at the payload over
the input blocks, which is the proof data's "after" for window 7. -/

private theorem kept1_0 (c : Dev nD) (t : Fin cfg1.N) : (dat1 V c).after 0 t = iblk1 V c 0 t := by dsimp only [dat1]
private theorem kept1_1 (c : Dev nD) (t : Fin cfg1.N) : (dat1 V c).after 1 t = iblk1 V c 1 t := by dsimp only [dat1]
private theorem kept1_2 (c : Dev nD) (t : Fin cfg1.N) : (dat1 V c).after 2 t = iblk1 V c 2 t := by dsimp only [dat1]
private theorem kept1_3 (c : Dev nD) (t : Fin cfg1.N) : (dat1 V c).after 3 t = iblk1 V c 3 t := by dsimp only [dat1]
private theorem kept1_4 (c : Dev nD) (t : Fin cfg1.N) : (dat1 V c).after 4 t = iblk1 V c 4 t := by dsimp only [dat1]
private theorem kept1_5 (c : Dev nD) (t : Fin cfg1.N) : (dat1 V c).after 5 t = iblk1 V c 5 t := by dsimp only [dat1]
private theorem kept1_6 (c : Dev nD) (t : Fin cfg1.N) : (dat1 V c).after 6 t = iblk1 V c 6 t := by dsimp only [dat1]

/-- What the body is called with at point `t`, the windows one by one. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2, held1_3, held1_4, held1_5, held1_6]
  rw [show (dat1 V c).Φ t.succ = (dat1 V c).Φ t.castSucc from rfl,
    show (dat1 V c).owesAt () t.succ = (dat1 V c).owesAt () t.castSucc from rfl,
    kept1_0, kept1_1, kept1_2, kept1_3, kept1_4, kept1_5, kept1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsLaunch.lean ====
/-
  The whole run of the kernel's program: the host prefix (index slicing, the gather of neighbour rows, their scaling by the
  edge weights, the scatter-add into agg, and the casts and reshapes of the weights), then the two kernel regions. The
  contents of every unscoped buffer are followed boundary by boundary: at launch, after the prefix, after the first
  region (its three output arrays at what its write-backs leave), after the second. Every weakly fair execution ends
  with every unscoped buffer at the last boundary's contents; the arguments are written by nothing, so they end as
  launched, and the result array ends at what the second region's write-backs leave.
-/
import proofs.«133134_j51762945852037_1_alg».proof.Proof.BitsRegion0
import proofs.«133134_j51762945852037_1_alg».proof.Proof.BitsRegion1
import proofs.«133134_j51762945852037_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the host prefix (the first region's entry). -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- After the first region: its arrays at what the pipeline leaves, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second region. -/
def B3 (c : Dev nD) : Valuation τ sig (Elt F) :=
  Pipeline.withArrays spec1 c (B2 m c) fun w => (dat1 (E2 m) c).arrAt w cfg1.N

/-! ## What the boundaries hold -/

theorem B2_arr (c : Dev nD) (w : Fin cfg0.W) :
    B2 m c (Proc.devRef .tc (Pipeline.arrRef spec0 w)) = (dat0 (E1 m) c).arrAt w cfg0.N := by
  unfold B2
  exact Pipeline.withArrays_arr spec0 launch0.win.arr_inj c (B1 m c) _ w
theorem B3_arr (c : Dev nD) (w : Fin cfg1.W) :
    B3 m c (Proc.devRef .tc (Pipeline.arrRef spec1 w)) = (dat1 (E2 m) c).arrAt w cfg1.N := by
  unfold B3
  exact Pipeline.withArrays_arr spec1 launch1.win.arr_inj c (B2 m c) _ w

/-- A reference that is no array of the first region's windows is left by it as entered. -/
private theorem B2_off (c : Dev nD) (b : Ref sig .tc) (hb : ∀ w, Pipeline.arrRef spec0 w ≠ b) :
    B2 m c (Proc.devRef .tc b) = B1 m c (Proc.devRef .tc b) := by
  unfold B2
  exact Pipeline.withArrays_of_ne spec0 c (B1 m c) _ b hb
/-- A reference that is no array of the second region's windows is left by it as entered. -/
private theorem B3_off (c : Dev nD) (b : Ref sig .tc) (hb : ∀ w, Pipeline.arrRef spec1 w ≠ b) :
    B3 m c (Proc.devRef .tc b) = B2 m c (Proc.devRef .tc b) := by
  unfold B3
  exact Pipeline.withArrays_of_ne spec1 c (B2 m c) _ b hb
/-- An input window's array is never written back: after the first region it holds what it held at entry. -/
private theorem B2_in (c : Dev nD) (w : Fin cfg0.W) (hin : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hin _).trans (A_eq0 (E1 m) c w))
/-- The result array after the run: what the second region's write-backs leave in its output window's array. -/
theorem B3_out (c : Dev nD) : B3 m c (Proc.devRef .tc main_v24) = (dat1 (E2 m) c).arrAt 7 cfg1.N :=
  B3_arr m c 7
/-- The three arrays the second region reads from the first, as the first left them. -/
theorem E2_h1 (c : Dev nD) : E2 m c main_v23_0 = (dat0 (E1 m) c).arrAt 4 cfg0.N :=
  B2_arr m c 4
theorem E2_mean (c : Dev nD) : E2 m c main_v23_1 = (dat0 (E1 m) c).arrAt 5 cfg0.N :=
  B2_arr m c 5
theorem E2_var (c : Dev nD) : E2 m c main_v23_2 = (dat0 (E1 m) c).arrAt 6 cfg0.N :=
  B2_arr m c 6
/-- A buffer no region's output window names is, after both regions, what the host prefix left. -/
theorem E2_of_prefix (c : Dev nD) (b : Ref sig .tc) (hb : b ∉ ([main_v23_0, main_v23_1, main_v23_2] : List (Ref sig .tc))) :
    E2 m c b = E1 m c b := by
  by_cases h : ∃ w, Pipeline.arrRef spec0 w = b
  · -- an array of the first region other than its three outputs is an input's: never written back
    obtain ⟨w, rfl⟩ := h
    have hin : ∀ w : Fin cfg0.W, Pipeline.arrRef spec0 w ∉ ([main_v23_0, main_v23_1, main_v23_2] : List (Ref sig .tc))
        → (cfg0.win w).isOut = false := by decide
    exact B2_in m c w (hin w hb)
  · exact B2_off m c b fun w e => h ⟨w, e⟩

/-- An argument no host operation writes and no window of the second region names, other than the first region's three
    outputs, ends as launched. -/
private theorem B3_of_launch (c : Dev nD) (b : Ref sig .tc) (h1 : ∀ w, Pipeline.arrRef spec1 w ≠ b)
    (h0 : b ∉ ([main_v23_0, main_v23_1, main_v23_2] : List (Ref sig .tc))) (hW : b ∉ hostOps0_W) :
    B3 m c (Proc.devRef .tc b) = m ((c : Thread nD τ).loc b) :=
  (B3_off m c b h1).trans <| (E2_of_prefix m c b h0).trans <| (V1_of m c b hW).trans rfl

/-! ## The arguments end as launched -/

theorem B3_main_arg0 (c : Dev nD) : B3 m c (Proc.devRef .tc main_arg0) = m ((c : Thread nD τ).loc main_arg0) :=
  B3_of_launch m c main_arg0 (by decide) (by decide) (by decide)
theorem B3_main_arg1 (c : Dev nD) : B3 m c (Proc.devRef .tc main_arg1) = m ((c : Thread nD τ).loc main_arg1) :=
  B3_of_launch m c main_arg1 (by decide) (by decide) (by decide)
theorem B3_main_arg2 (c : Dev nD) : B3 m c (Proc.devRef .tc main_arg2) = m ((c : Thread nD τ).loc main_arg2) :=
  B3_of_launch m c main_arg2 (by decide) (by decide) (by decide)
theorem B3_main_arg3 (c : Dev nD) : B3 m c (Proc.devRef .tc main_arg3) = m ((c : Thread nD τ).loc main_arg3) :=
  B3_of_launch m c main_arg3 (by decide) (by decide) (by decide)
theorem B3_main_arg4 (c : Dev nD) : B3 m c (Proc.devRef .tc main_arg4) = m ((c : Thread nD τ).loc main_arg4) :=
  B3_of_launch m c main_arg4 (by decide) (by decide) (by decide)
theorem B3_main_arg5 (c : Dev nD) : B3 m c (Proc.devRef .tc main_arg5) = m ((c : Thread nD τ).loc main_arg5) :=
  B3_of_launch m c main_arg5 (by decide) (by decide) (by decide)
theorem B3_main_arg6 (c : Dev nD) : B3 m c (Proc.devRef .tc main_arg6) = m ((c : Thread nD τ).loc main_arg6) :=
  B3_of_launch m c main_arg6 (by decide) (by decide) (by decide)
theorem B3_main_arg7 (c : Dev nD) : B3 m c (Proc.devRef .tc main_arg7) = m ((c : Thread nD τ).loc main_arg7) :=
  B3_of_launch m c main_arg7 (by decide) (by decide) (by decide)
theorem B3_main_arg8 (c : Dev nD) : B3 m c (Proc.devRef .tc main_arg8) = m ((c : Thread nD τ).loc main_arg8) :=
  B3_of_launch m c main_arg8 (by decide) (by decide) (by decide)

/-! ## The two regions' proof data, and what rides beside the buffers -/

/-- Each region's proof data over the contents its region is entered at. Written as a literal match on the region's
    number, so that the library's pinned configuration at a numeral is the printed one. -/
private def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c

/-- No core waits on another: no pair carries a level. -/
private abbrev noL : GSem nD τ sig → Finset Unit := fun _ => ∅
private abbrev noLv : GSem nD τ sig → Unit → ℕ := fun _ _ => 0

/-- Beside the buffers at every boundary: the generator register at some state, and the core owing nothing. -/
private abbrev Side (c : Dev nD) : sProp 𝕄 :=
  iprop((∃ r, prngReg c r) ∗ ∃ W, owes (c : Thread nD τ) (0 : CellTallies nD τ sig Unit) W)

/-- The thread state at a boundary with contents `B`: every unscoped buffer whole at `B c`, beside `Side c`. -/
private abbrev AtB (B : Dev nD → Valuation τ sig (Elt F)) (c : Dev nD) : sProp 𝕄 :=
  iprop(StableHlo.held (c : Thread nD τ) (Pipeline.ucRefs τ sig) (B c) ∗ Side c)

/-- The host prefix: its 26 operations over the unscoped buffers from the launch contents. -/
private abbrev prefixSeg : Pipeline.HostSeg (Name := ℕ) (U := UR sig nD τ) (pcfgs (F := F)) defs₀ Variants.none noL noLv :=
  Pipeline.HostSeg.ofOps _ _ _ _ _ (Pipeline.ucRefs τ sig) hostOps0
    (fun op hop => Pipeline.sub_ucRefs op ((List.forall_iff_forall_mem.mp hostOps0_sub) op hop))
    (fun op hop => (List.forall_iff_forall_mem.mp hostOps0_fresh) op hop) (B0 m) Side

/-! ## The regions as segments -/

-- the pinned configuration at a numeral meets the printed one only by unfolding plain definitions inside a
-- metavariable's type
set_option backward.isDefEq.respectTransparency.types false in
/-- The first region between the boundaries `B1` and `B2`. At entry its seven arrays are taken out of the unscoped
    buffers and the others bypass it; the generator register goes into the region's invariant through `hin0` and comes
    back through `hout0`; at exit the arrays return at what the write-backs left, which is `B2` by definition. -/
private def reg0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noL noLv 0 fun _ _ => rfl
  pre := AtB (B1 m)
  post := AtB (B2 m)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have harr : (StableHlo.held (c : Thread nD τ) (Pipeline.ucRefs τ sig) (B1 m c) : sProp 𝕄)
        ⊢ iprop((pdats m 0 c).arrays ((pdats m 0 c).arrAt · 0)
            ∗ Pipeline.unscopedRest (Ix := Unit) (Name := ℕ) (U := UR sig nD τ) (Lvl := ℕ) spec0 c (E1 m c)) := by
      rw [← Pipeline.unscopedBufs_held (Ix := Unit) (Name := ℕ) (U := UR sig nD τ) (Lvl := ℕ) c (B1 m c)]
      exact Pipeline.arrays_of_unscopedBufs (p := 0) (pcfgs (F := F)) adm (pdats m) launch0.win launch0.arr_whole c
        ((pdats m 0 c).share_full fun _ => rfl) (E1 m c) fun w => A_eq0 (E1 m) c w
    iintro ⟨⟨Hbufs, Hreg, Howes⟩, -, -⟩
    ihave Hparts := harr $$ Hbufs
    icases Hparts with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · icases Howes with ⟨%W, Howes⟩
      iexists W
      isplitr; · ipureintro; exact fun _ _ => Or.inl trivial
      iexact Howes
    isplitl [Hreg]; · iexact Hreg
    iexact Hrest
  hin c := by
    have hclass : iprop((∃ r, prngReg c r) ∗ Pipeline.prefHeld (pcfgs (F := F) 0).pre c (fun _ => fullShare) (adm (F := F) 0).1
          ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hreg, -, Hscoped⟩
      isplitl [Hscoped]; · iexact Hscoped
      iexact Hreg
    exact hclass.trans (hin0 (E1 m) c)
  hout c := by
    rw [Pipeline.ownSems0_none]
    have hclass : (Pipeline.ΦA spec0 c : sProp 𝕄)
        ⊢ iprop((∃ r, prngReg c r) ∗ BI.emp
            ∗ Pipeline.scopedRest (Ix := Unit) (Name := ℕ) (U := UR sig nD τ) (Lvl := ℕ) (Val := Elt F) spec0 c) := by
      unfold Pipeline.ΦA
      iintro ⟨Hscoped, Hreg⟩
      isplitl [Hreg]; · iexact Hreg
      isplitr; · iempintro
      iexact Hscoped
    exact (hout0 (E1 m) c).trans hclass
  hexit c := by
    have hjoin : iprop((pdats m 0 c).arrays ((pdats m 0 c).arrAt · cfg0.N)
          ∗ Pipeline.unscopedRest (Ix := Unit) (Name := ℕ) (U := UR sig nD τ) (Lvl := ℕ) spec0 c (E1 m c))
        ⊢ (StableHlo.held (c : Thread nD τ) (Pipeline.ucRefs τ sig) (B2 m c) : sProp 𝕄) := by
      rw [← Pipeline.unscopedBufs_held (Ix := Unit) (Name := ℕ) (U := UR sig nD τ) (Lvl := ℕ) c (B2 m c)]
      exact Pipeline.unscopedBufs_of_arrays (p := 0) (pcfgs (F := F)) adm launch0.win launch0.arr_whole c (pdats m)
        ((pdats m 0 c).share_full fun _ => rfl) (E1 m c) (E2 m c) ((pdats m 0 c).arrAt · cfg0.N)
        (fun w => (B2_arr m c w).symm)
        (fun b hb => B2_off m c b fun w e => hb (Finset.mem_image.mpr ⟨w, Finset.mem_univ _, e⟩))
    iintro ⟨Harr, Howes, Hreg, Hrest⟩
    imodintro
    isplitl [Harr Hrest]
    · iapply hjoin
      isplitl [Harr]; · iexact Harr
      iexact Hrest
    isplitl [Hreg]; · iexact Hreg
    icases Howes with ⟨%W, -, Howes⟩
    iexists W; iexact Howes

-- as for the first region
set_option backward.isDefEq.respectTransparency.types false in
/-- The second region between the boundaries `B2` and `B3`. Its invariant is the class's at every point, so the generator
    register and the scoped buffers no window stages pass in and out unchanged; its eight arrays leave the unscoped buffers
    at entry and return at what the write-backs left, which is `B3` by definition. -/
private def reg1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ noL noLv 1 fun _ _ => rfl
  pre := AtB (B2 m)
  post := AtB (B3 m)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have harr : (StableHlo.held (c : Thread nD τ) (Pipeline.ucRefs τ sig) (B2 m c) : sProp 𝕄)
        ⊢ iprop((pdats m 1 c).arrays ((pdats m 1 c).arrAt · 0)
            ∗ Pipeline.unscopedRest (Ix := Unit) (Name := ℕ) (U := UR sig nD τ) (Lvl := ℕ) spec1 c (E2 m c)) := by
      rw [← Pipeline.unscopedBufs_held (Ix := Unit) (Name := ℕ) (U := UR sig nD τ) (Lvl := ℕ) c (B2 m c)]
      exact Pipeline.arrays_of_unscopedBufs (p := 1) (pcfgs (F := F)) adm (pdats m) launch1.win launch1.arr_whole c
        ((pdats m 1 c).share_full fun _ => rfl) (E2 m c) fun w => A_eq1 (E2 m) c w
    iintro ⟨⟨Hbufs, Hreg, Howes⟩, -, -⟩
    ihave Hparts := harr $$ Hbufs
    icases Hparts with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · icases Howes with ⟨%W, Howes⟩
      iexists W
      isplitr; · ipureintro; exact fun _ _ => Or.inl trivial
      iexact Howes
    isplitl [Hreg]; · iexact Hreg
    iexact Hrest
  hin c := by
    show _ ⊢ (Pipeline.ΦA spec1 c : sProp 𝕄)
    unfold Pipeline.ΦA
    iintro ⟨Hreg, -, Hscoped⟩
    isplitl [Hscoped]; · iexact Hscoped
    iexact Hreg
  hout c := by
    rw [Pipeline.ownSems0_none]
    show (Pipeline.ΦA spec1 c : sProp 𝕄) ⊢ _
    unfold Pipeline.ΦA
    iintro ⟨Hscoped, Hreg⟩
    isplitl [Hreg]; · iexact Hreg
    isplitr; · iempintro
    iexact Hscoped
  hexit c := by
    have hjoin : iprop((pdats m 1 c).arrays ((pdats m 1 c).arrAt · cfg1.N)
          ∗ Pipeline.unscopedRest (Ix := Unit) (Name := ℕ) (U := UR sig nD τ) (Lvl := ℕ) spec1 c (E2 m c))
        ⊢ (StableHlo.held (c : Thread nD τ) (Pipeline.ucRefs τ sig) (B3 m c) : sProp 𝕄) := by
      rw [← Pipeline.unscopedBufs_held (Ix := Unit) (Name := ℕ) (U := UR sig nD τ) (Lvl := ℕ) c (B3 m c)]
      exact Pipeline.unscopedBufs_of_arrays (p := 1) (pcfgs (F := F)) adm launch1.win launch1.arr_whole c (pdats m)
        ((pdats m 1 c).share_full fun _ => rfl) (E2 m c) (fun b => B3 m c b) ((pdats m 1 c).arrAt · cfg1.N)
        (fun w => (B3_arr m c w).symm)
        (fun b hb => B3_off m c b fun w e => hb (Finset.mem_image.mpr ⟨w, Finset.mem_univ _, e⟩))
    iintro ⟨Harr, Howes, Hreg, Hrest⟩
    imodintro
    isplitl [Harr Hrest]
    · iapply hjoin
      isplitl [Harr]; · iexact Harr
      iexact Hrest
    isplitl [Hreg]; · iexact Hreg
    icases Howes with ⟨%W, -, Howes⟩
    iexists W; iexact Howes

/-! ## The program as its three segments -/

/-- The host prefix, then the two regions. -/
private abbrev segs : List (Pipeline.Seg (pcfgs (F := F)) adm (pdats m) () defs₀ Variants.none noL noLv) :=
  [.host (prefixSeg m), .region (reg0 m), .region (reg1 m)]

/-- The printed program is the run of the three segments: it is the chain of its three items, and the segments' run is
    the same chain. -/
private theorem main_run (c : Dev nD) : main (F := F) c = Pipeline.Seg.run (segs m) :=
  (main_chain c).trans (by chain_rfl)

/-- An unscoped TensorCore reference is among those every boundary's thread state holds. -/
private theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last boundary's thread state with the owing split off, as the launch reads it at the end. -/
private theorem last_split (c : Dev nD) :
    AtB (B3 m) c ⊢ (iprop((StableHlo.held (c : Thread nD τ) (Pipeline.ucRefs τ sig) (B3 m c) ∗ ∃ r, prngReg c r)
      ∗ ∃ W, owes (c : Thread nD τ) (0 : CellTallies nD τ sig Unit) W) : sProp 𝕄) := by
  iintro ⟨Hbufs, Hreg, Howes⟩
  isplitl [Hbufs Hreg]
  · isplitl [Hbufs]; · iexact Hbufs
    iexact Hreg
  iexact Howes

/-! ## The run -/

/-- Every weakly fair execution of the program from memory `m` with zero counters terminates, faulting nowhere, and
    every final memory holds each unscoped TensorCore buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m c b) := by
  refine Pipeline.θ_run_regions_kit (pcfgs (F := F)) adm (pdats m) () cellOf_inj emb₁ defs₀ Variants.none noL noLv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := AtB (B0 m))
    (Tₙ := fun c => iprop(StableHlo.held (c : Thread nD τ) (Pipeline.ucRefs τ sig) (B3 m c) ∗ ∃ r, prngReg c r))
    (hch := ⟨fun _ => .rfl, fun _ => .rfl, fun _ => .rfl, fun c => last_split m c⟩)
    (hinit := ?hinit)
    (QY := fun c s => ∀ b ∈ Pipeline.ucRefs τ sig, s.mem (((c : Thread nD τ)).1, b) = B3 m c b)
    (hfin := fun c s' => ?hfin) (hQ := fun s h => h)
  case hu =>
    -- the launch element is the pipeline library's own; no ghost resource beside it
    have hnone : (BI.emp : sProp 𝕄) ⊢ bigSep Finset.univ (fun _ : Dev nD => (BI.emp : sProp 𝕄)) := by
      rw [BI.bigSep_emp_const]
    rw [ownU_emb₁]
    iintro Hu
    imodintro
    isplitl [Hu]; · iexact Hu
    iapply hnone
    iempintro
  case hinit =>
    -- each core makes its first thread state from what the launch deals it
    refine Pipeline.initEach noL noLv fun c => ?_
    rw [show unscopedBufs c (fun b => m ((c : Thread nD τ).loc b))
        = StableHlo.held (c : Thread nD τ) (Pipeline.ucRefs τ sig) (B0 m c) from Pipeline.unscopedBufs_held c (B0 m c)]
    iintro ⟨⟨Hbufs, -, Howes, -, Hreg, -⟩, -⟩
    imodintro
    isplitl [Hbufs]; · iexact Hbufs
    isplitl [Hreg]; · iexists _; iexact Hreg
    iexists ∅; iexact Howes
  case hfin =>
    -- every unscoped buffer is held whole at the last boundary's contents: the final memory has them there
    iintro ⟨⟨Hbufs, -⟩, HSI⟩
    unfold StableHlo.held
    imodintro
    iapply (pointsTo_read_all (Pipeline.ucRefs τ sig) (fun b => (((c : Thread nD τ)).1, b)) (B3 m c) s')
    isplitl [Hbufs]; · iexact Hbufs
    iexact HSI

/-- The frame: the program runs to the end and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_ucRefs main_arg0 (by decide))).trans (B3_main_arg0 m c),
     (h c _ (mem_ucRefs main_arg1 (by decide))).trans (B3_main_arg1 m c),
     (h c _ (mem_ucRefs main_arg2 (by decide))).trans (B3_main_arg2 m c),
     (h c _ (mem_ucRefs main_arg3 (by decide))).trans (B3_main_arg3 m c),
     (h c _ (mem_ucRefs main_arg4 (by decide))).trans (B3_main_arg4 m c),
     (h c _ (mem_ucRefs main_arg5 (by decide))).trans (B3_main_arg5 m c),
     (h c _ (mem_ucRefs main_arg6 (by decide))).trans (B3_main_arg6 m c),
     (h c _ (mem_ucRefs main_arg7 (by decide))).trans (B3_main_arg7 m c),
     (h c _ (mem_ucRefs main_arg8 (by decide))).trans (B3_main_arg8 m c)⟩)
    (run_all m ρ)

/-- The run with the result named: the result array ends at what the second region leaves, the arguments as launched. -/
theorem run_result : θ_run defs (onTc (τ := τ) (main (F := F))) ⟨m, fun _ => 0, ρ⟩ (fun r => ∀ c : Dev nD,
      r.2.mem ((c.tc : Thread nD τ).loc main_v24) = (dat1 (E2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_ucRefs main_v24 (by decide))).trans (B3_out m c),
     (h c _ (mem_ucRefs main_arg0 (by decide))).trans (B3_main_arg0 m c),
     (h c _ (mem_ucRefs main_arg1 (by decide))).trans (B3_main_arg1 m c),
     (h c _ (mem_ucRefs main_arg2 (by decide))).trans (B3_main_arg2 m c),
     (h c _ (mem_ucRefs main_arg3 (by decide))).trans (B3_main_arg3 m c),
     (h c _ (mem_ucRefs main_arg4 (by decide))).trans (B3_main_arg4 m c),
     (h c _ (mem_ucRefs main_arg5 (by decide))).trans (B3_main_arg5 m c),
     (h c _ (mem_ucRefs main_arg6 (by decide))).trans (B3_main_arg6 m c),
     (h c _ (mem_ucRefs main_arg7 (by decide))).trans (B3_main_arg7 m c),
     (h c _ (mem_ucRefs main_arg8 (by decide))).trans (B3_main_arg8 m c)⟩)
    (run_all m ρ)

end Cert.Kernel.Hand

end
-- ==== Proof.Region0.lean ====
/-
  The first kernel region: at each of the 25 row tiles it forms h1 = (1·x + agg)·W1 + b1 on a 2000 × 512 block and
  writes it out, and it keeps two 1 × 512 rows between tiles: the running column sums of h1 and of h1². Both are reset to
  zero at the first tile; at the last tile the batch mean (sum / 50000) and variance (sum of squares / 50000 − mean²)
  are stored into their own 1 × 512 output blocks, which are left untouched, and not written back, at every other tile.
  Stated here, at any float instance and any entry contents `V`: the windows' blocks; what each tile leaves in the h1
  block; the two running rows by recursion on the tile; the region's proof data with the two rows carried in its
  invariant; the body obligation; the invariant's entry and exit; and what the three output arrays' buffers hold.
-/
import proofs.«133134_j51762945852037_1_alg».proof.Proof.Gen.KernelIdeal.Launch
import proofs.«133134_j51762945852037_1_alg».proof.Proof.Gen.KernelIdeal.Skeleton
import proofs.«133134_j51762945852037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the branch conditions -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The reset branch's condition as the body computes it from the grid coordinate: taken at the first tile. -/
abbrev condFirst (i : grid0.Coords) : Prop :=
  (Scalar.cmpi .ne (Scalar.extui (Scalar.cmpi .eq (BitVec.ofNat 32 (i 0).val) 0#32)) 0#32) = 1#1
/-- The closing branch's condition: taken at the last tile. -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 24 :=
  (by decide +kernel : ∀ t : Fin grid0.N, condLast (grid0.coords t) ↔ t.val = 24)

/-! ## Whole-block loads and stores -/

/-- The whole-block rectangle's offsets are all zero. -/
private theorem off0 : (![0, 0] : Fin 2 → ℕ) = fun _ => 0 := funext fun a => by fin_cases a <;> rfl

section Whole
variable {κ : Kind} {sp : Space} {S : Shape} {e : EltTy} (v : View sig κ sp S e)
  {off : Fin S.rank → ℕ} (h0 : off = fun _ => 0)
include h0

/-- A load of the whole block reads the block's contents. -/
private theorem readAt_whole (inb : ∀ a, off a + S.size a ≤ S.size a) (f : v.ty.Contents (Elt F)) :
    View.readAt (Elt F) v (Rect.unit off S.size inb).toLoadRect f = v.read (Elt F) f := by
  rw [View.readAt_eq_ld, View.ld_unit_zero h0]

/-- One store of the whole block leaves its payload, whatever was there. -/
private theorem read_store1 (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h0 inb y⟩),
    View.canon_unit_zero h0]

/-- Two stores of the whole block leave the later one's payload. -/
private theorem read_store2 (inb inb' : ∀ a, off a + S.size a ≤ S.size a) (f : v.ty.Contents (Elt F)) (w w' : S.Idx → Elt F e) :
    v.read (Elt F) (v.writes (Elt F) f [(⟨Rect.unit off S.size inb, w⟩ : View.Piece (Elt F) S e), ⟨Rect.unit off S.size inb', w'⟩]) = w := by
  rw [View.read_writes_eq_canon _ _ _ (fun y => ⟨_, List.mem_cons_self, View.mem_set_unit_zero h0 inb y⟩),
    View.canon_cons_unit_zero h0]

end Whole

/-! ## The body on whole memrefs, case by case -/

/-- The first tile. On whole memrefs — the four inputs at read contents, the h1 block at anything, the mean and variance
    blocks at contents handed back untouched, the two rows at anything — the body runs to the continuation holding the
    inputs as they were, the h1 block at the tile's h1, and the two rows at the tile's column sums over the zero rows
    (both rows are zeroed before they are read). -/
private theorem runFirst (c : Dev nD) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x512 .bf16) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole)
    (hc0 : condFirst i) (hc1 : ¬condLast i)
    (x0 x1 : Vec F S2000x256 .f32) (x2 : Vec F S256x512 .bf16) (x3 : Vec F S1x512 .f32) (x5 x6 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay6 x0 x1 x2 x3)
            ∗ owns (c : Thread nD τ) arg6 fullShare x5 ∗ owns (c : Thread nD τ) arg7 fullShare x6
            ∗ owns (c : Thread nD τ) arg8 fullShare (k0_pay7 x0 x1 x2 x3 k0_pay4)
            ∗ owns (c : Thread nD τ) arg9 fullShare (k0_pay1 (k0_pay8 x0 x1 x2 x3 k0_pay5))) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0 hf1 hf2 hf3 hf5 hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (read_store1 _ off0 _ _ _).trans ?_
    simp only [readAt_whole (S := S2000x256) _ off0, readAt_whole (S := S256x512) _ off0, readAt_whole (S := S1x512) _ off0]
  isplitl [H5]
  · iexists _; isplitr; · ipureintro; rfl
    iexact H5
  isplitl [H6]
  · iexists _; isplitr; · ipureintro; rfl
    iexact H6
  isplitl [H8]
  · iexists _; isplitr
    swap; · iexact H8
    ipureintro
    refine (read_store2 _ off0 _ _ _ _ _).trans ?_
    sl_unfold_run_names
    simp only [readAt_whole (S := S2000x256) _ off0, readAt_whole (S := S256x512) _ off0, readAt_whole (S := S1x512) _ off0]
    rw [View.readCov_unit_zero _ off0]
  iexists _; isplitr
  swap; · iexact H9
  ipureintro
  refine (read_store2 _ off0 _ _ _ _ _).trans ?_
  sl_unfold_run_names
  simp only [readAt_whole (S := S2000x256) _ off0, readAt_whole (S := S256x512) _ off0, readAt_whole (S := S1x512) _ off0]
  rw [View.readCov_unit_zero _ off0]

/-- A middle tile: as the first, but the two rows come in at the rows the tile before left and go out at the tile's
    column sums over those. -/
private theorem runMid (c : Dev nD) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x512 .bf16) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole)
    (hc0 : ¬condFirst i) (hc1 : ¬condLast i)
    (x0 x1 : Vec F S2000x256 .f32) (x2 : Vec F S256x512 .bf16) (x3 : Vec F S1x512 .f32) (x5 x6 s8 s9 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare x5 ∗ owns (c : Thread nD τ) arg7 fullShare x6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay6 x0 x1 x2 x3)
            ∗ owns (c : Thread nD τ) arg6 fullShare x5 ∗ owns (c : Thread nD τ) arg7 fullShare x6
            ∗ owns (c : Thread nD τ) arg8 fullShare (k0_pay7 x0 x1 x2 x3 s8)
            ∗ owns (c : Thread nD τ) arg9 fullShare (k0_pay1 (k0_pay8 x0 x1 x2 x3 s9))) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0 hf1 hf2 hf3 hf5 hf6 hf8 hf9
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (read_store1 _ off0 _ _ _).trans ?_
    simp only [readAt_whole (S := S2000x256) _ off0, readAt_whole (S := S256x512) _ off0, readAt_whole (S := S1x512) _ off0]
  isplitl [H5]
  · iexists _; isplitr; · ipureintro; rfl
    iexact H5
  isplitl [H6]
  · iexists _; isplitr; · ipureintro; rfl
    iexact H6
  isplitl [H8]
  · iexists _; isplitr
    swap; · iexact H8
    ipureintro
    refine (read_store1 _ off0 _ _ _).trans ?_
    simp only [readAt_whole (S := S2000x256) _ off0, readAt_whole (S := S256x512) _ off0, readAt_whole (S := S1x512) _ off0]
  iexists _; isplitr
  swap; · iexact H9
  ipureintro
  refine (read_store1 _ off0 _ _ _).trans ?_
  sl_unfold_run_names
  simp only [readAt_whole (S := S2000x256) _ off0, readAt_whole (S := S256x512) _ off0, readAt_whole (S := S1x512) _ off0]

/-- The last tile: the two rows as at a middle tile; the mean and variance blocks come in at anything and go out at the
    mean and variance computed from the rows this tile leaves. -/
private theorem runLast (c : Dev nD) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x512 .bf16) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole)
    (hc0 : ¬condFirst i) (hc1 : condLast i)
    (x0 x1 : Vec F S2000x256 .f32) (x2 : Vec F S256x512 .bf16) (x3 : Vec F S1x512 .f32) (s8 s9 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay6 x0 x1 x2 x3)
            ∗ owns (c : Thread nD τ) arg6 fullShare (k0_pay2 (k0_pay7 x0 x1 x2 x3 s8)) ∗ owns (c : Thread nD τ) arg7 fullShare (k0_pay3 (k0_pay7 x0 x1 x2 x3 s8) (k0_pay1 (k0_pay8 x0 x1 x2 x3 s9)))
            ∗ owns (c : Thread nD τ) arg8 fullShare (k0_pay7 x0 x1 x2 x3 s8)
            ∗ owns (c : Thread nD τ) arg9 fullShare (k0_pay1 (k0_pay8 x0 x1 x2 x3 s9))) -∗ K ⟨⟩))
      ⊢ wp frame (wpE (defs₀ (F := F)) Variants.none c none) E (cc0__kernel_a i arg1 harg1 arg2 harg2 arg3 harg3 arg4 harg4 arg5 harg5 arg6 harg6 arg7 harg7 arg8 harg8 arg9 harg9) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0 hf1 hf2 hf3 hf8 hf9
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (read_store1 _ off0 _ _ _).trans ?_
    simp only [readAt_whole (S := S2000x256) _ off0, readAt_whole (S := S256x512) _ off0, readAt_whole (S := S1x512) _ off0]
  isplitl [H5]
  · iexists _; isplitr
    swap; · iexact H5
    ipureintro
    refine (read_store1 _ off0 _ _ _).trans ?_
    sl_unfold_run_names
    rw [View.readCov_unit_zero _ off0]
    simp only [readAt_whole (S := S2000x256) _ off0, readAt_whole (S := S256x512) _ off0, readAt_whole (S := S1x512) _ off0]
  isplitl [H6]
  · iexists _; isplitr
    swap; · iexact H6
    ipureintro
    refine (read_store1 _ off0 _ _ _).trans ?_
    sl_unfold_run_names
    rw [View.readCov_unit_zero _ off0, View.readCov_unit_zero _ off0]
    simp only [readAt_whole (S := S2000x256) _ off0, readAt_whole (S := S256x512) _ off0, readAt_whole (S := S1x512) _ off0]
  isplitl [H8]
  · iexists _; isplitr
    swap; · iexact H8
    ipureintro
    refine (read_store1 _ off0 _ _ _).trans ?_
    sl_unfold_run_names
    simp only [readAt_whole (S := S2000x256) _ off0, readAt_whole (S := S256x512) _ off0, readAt_whole (S := S1x512) _ off0]
  iexists _; isplitr
  swap; · iexact H9
  ipureintro
  refine (read_store1 _ off0 _ _ _).trans ?_
  sl_unfold_run_names
  simp only [readAt_whole (S := S2000x256) _ off0, readAt_whole (S := S256x512) _ off0, readAt_whole (S := S1x512) _ off0]

/-! ## What a tile leaves -/

/-- The h1 block of tile `t`: the body's matmul payload of the tile's x block, agg block, W1 and b1. -/
def tileH (c : Dev nD) (t : Fin cfg0.N) : Vec F S2000x512 .f32 :=
  k0_pay6 (iblk0 V c 0 t) (iblk0 V c 1 t) (iblk0 V c 2 t) (iblk0 V c 3 t)

/-- The running column sums of h1 after tile `n`: from the zero row at the first tile, then over what the tile before left. -/
def sumAt (c : Dev nD) : (n : ℕ) → n < cfg0.N → Vec F S1x512 .f32
  | 0, h => k0_pay7 (iblk0 V c 0 ⟨0, h⟩) (iblk0 V c 1 ⟨0, h⟩) (iblk0 V c 2 ⟨0, h⟩) (iblk0 V c 3 ⟨0, h⟩) (k0_pay4 (F := F))
  | n + 1, h => k0_pay7 (iblk0 V c 0 ⟨n + 1, h⟩) (iblk0 V c 1 ⟨n + 1, h⟩) (iblk0 V c 2 ⟨n + 1, h⟩) (iblk0 V c 3 ⟨n + 1, h⟩)
      (sumAt c n (Nat.lt_of_succ_lt h))

/-- The running column sums of h1² after tile `n`, likewise. -/
def sqAt (c : Dev nD) : (n : ℕ) → n < cfg0.N → Vec F S1x512 .f32
  | 0, h => k0_pay1 (k0_pay8 (iblk0 V c 0 ⟨0, h⟩) (iblk0 V c 1 ⟨0, h⟩) (iblk0 V c 2 ⟨0, h⟩) (iblk0 V c 3 ⟨0, h⟩) (k0_pay5 (F := F)))
  | n + 1, h => k0_pay1 (k0_pay8 (iblk0 V c 0 ⟨n + 1, h⟩) (iblk0 V c 1 ⟨n + 1, h⟩) (iblk0 V c 2 ⟨n + 1, h⟩) (iblk0 V c 3 ⟨n + 1, h⟩)
      (sqAt c n (Nat.lt_of_succ_lt h)))

theorem lastLt : 24 < cfg0.N := by decide

/-- The batch mean row the last tile stores. -/
def meanRow (c : Dev nD) : Vec F S1x512 .f32 := k0_pay2 (sumAt V c 24 lastLt)
/-- The batch variance row the last tile stores. -/
def varRow (c : Dev nD) : Vec F S1x512 .f32 := k0_pay3 (sumAt V c 24 lastLt) (sqAt V c 24 lastLt)

/-! ## The proof data -/

/-- The two carried rows as whole scoped buffers of the kernel's own. -/
abbrev scSum : Memref sig .tc .vmem S1x512 .f32 := Memref.whole cc0_scratch0
abbrev scSq : Memref sig .tc .vmem S1x512 .f32 := Memref.whole cc0_scratch1

/-- The scoped buffers of the core that are neither a staging buffer of this region nor one of its two carried rows
    (the second region's ten staging buffers), each whole at some contents. -/
def restOthers (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- The region invariant before tile `n`: before the first tile the class's (every scoped buffer at anything); afterwards
    the two carried rows at what the tile before left, every other scoped buffer no window stages at anything, and the
    generator register at some state. -/
def PhiRows (c : Dev nD) : (n : ℕ) → n ≤ cfg0.N → sProp 𝕄
  | 0, _ => Pipeline.ΦA spec0 c
  | n + 1, hn => iprop(owns (c : Thread nD τ) scSum fullShare (sumAt V c n hn) ∗ owns (c : Thread nD τ) scSq fullShare (sqAt V c n hn)
      ∗ restOthers c ∗ (∃ r, prngReg c r))

/-- The proof data of the first region on core `c`. Windows 0–3 are inputs (their buffers at their blocks); window 4 holds
    the tile's h1 block; windows 5 and 6 hold the mean and variance rows (consulted only at the last tile, where they are
    stored and written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => tileH V c t
    | ⟨5, _⟩ => meanRow V c
    | ⟨6, _⟩ => varRow V c
  Φ t := PhiRows V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_4 (c : Dev nD) (t : Fin cfg0.N) : (dat0 V c).after 4 t = tileH V c t := by dsimp only [dat0]
theorem after0_5 (c : Dev nD) (t : Fin cfg0.N) : (dat0 V c).after 5 t = meanRow V c := by dsimp only [dat0]
theorem after0_6 (c : Dev nD) (t : Fin cfg0.N) : (dat0 V c).after 6 t = varRow V c := by dsimp only [dat0]

private theorem after0_0 (c : Dev nD) (t : Fin cfg0.N) : (dat0 V c).after 0 t = iblk0 V c 0 t := by dsimp only [dat0]
private theorem after0_1 (c : Dev nD) (t : Fin cfg0.N) : (dat0 V c).after 1 t = iblk0 V c 1 t := by dsimp only [dat0]
private theorem after0_2 (c : Dev nD) (t : Fin cfg0.N) : (dat0 V c).after 2 t = iblk0 V c 2 t := by dsimp only [dat0]
private theorem after0_3 (c : Dev nD) (t : Fin cfg0.N) : (dat0 V c).after 3 t = iblk0 V c 3 t := by dsimp only [dat0]

/-! ## What the body finds in the inputs' buffers

Each of the four inputs is only read, so its current buffer holds its block at every tile, whether the tile fetched it
(x and agg, at every tile) or not (W1 and b1, after the first tile: their block index does not move). -/

private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
private theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
private theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
private theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## Where the mean and variance windows are idle -/

/-- The inputs and the h1 window are never idle. -/
private theorem live0_0 (i : grid0.Coords) : cfg0.idle 0 i = false := rfl
private theorem live0_1 (i : grid0.Coords) : cfg0.idle 1 i = false := rfl
private theorem live0_2 (i : grid0.Coords) : cfg0.idle 2 i = false := rfl
private theorem live0_3 (i : grid0.Coords) : cfg0.idle 3 i = false := rfl
private theorem live0_4 (i : grid0.Coords) : cfg0.idle 4 i = false := rfl
/-- Away from the last tile the mean and variance windows are idle, and not written back. -/
private theorem idle0_5 : ∀ t : Fin cfg0.N, ¬condLast (grid0.coords t) → cfg0.idle 5 (grid0.coords t) = true := by decide +kernel
private theorem idle0_6 : ∀ t : Fin cfg0.N, ¬condLast (grid0.coords t) → cfg0.idle 6 (grid0.coords t) = true := by decide +kernel
private theorem noFlush0_5 : ∀ t : Fin cfg0.N, ¬condLast (grid0.coords t) → (cfg0.win 5).flush t = false := by decide +kernel
private theorem noFlush0_6 : ∀ t : Fin cfg0.N, ¬condLast (grid0.coords t) → (cfg0.win 6).flush t = false := by decide +kernel
/-- At the last tile they are live. -/
private theorem live0_5 : ∀ t : Fin cfg0.N, condLast (grid0.coords t) → cfg0.idle 5 (grid0.coords t) = false := by decide +kernel
private theorem live0_6 : ∀ t : Fin cfg0.N, condLast (grid0.coords t) → cfg0.idle 6 (grid0.coords t) = false := by decide +kernel

/-- At a tile live for window `w` the body leaves the window's buffer at the proof data's contents. -/
private theorem leavesExact_live (c : Dev nD) (w : Fin cfg0.W) (t : Fin cfg0.N) (h : cfg0.idle w (cfg0.grid.coords t) = false) :
    (dat0 V c).leavesExact w t
      = owns (c : Thread nD τ) ((cfg0.win w).stage (cfg0.slots t w)) fullShare ((dat0 V c).after w t) := by
  unfold Dat.leavesExact; rw [h]

/-! ## The running rows and the invariant, tile by tile -/

private theorem sumAt_first (c : Dev nD) (t : Fin cfg0.N) (h : t.val = 0) :
    sumAt V c t.val t.isLt = k0_pay7 (iblk0 V c 0 t) (iblk0 V c 1 t) (iblk0 V c 2 t) (iblk0 V c 3 t) (k0_pay4 (F := F)) := by
  obtain ⟨n, hn⟩ := t
  cases n with
  | zero => rfl
  | succ n => exact absurd h (Nat.succ_ne_zero n)

private theorem sumAt_next (c : Dev nD) (t : Fin cfg0.N) (h : t.val ≠ 0) :
    sumAt V c t.val t.isLt = k0_pay7 (iblk0 V c 0 t) (iblk0 V c 1 t) (iblk0 V c 2 t) (iblk0 V c 3 t)
      (sumAt V c (t.val - 1) (Nat.lt_of_le_of_lt (Nat.sub_le _ _) t.isLt)) := by
  obtain ⟨n, hn⟩ := t
  cases n with
  | zero => exact absurd rfl h
  | succ n => rfl

private theorem sqAt_first (c : Dev nD) (t : Fin cfg0.N) (h : t.val = 0) :
    sqAt V c t.val t.isLt = k0_pay1 (k0_pay8 (iblk0 V c 0 t) (iblk0 V c 1 t) (iblk0 V c 2 t) (iblk0 V c 3 t) (k0_pay5 (F := F))) := by
  obtain ⟨n, hn⟩ := t
  cases n with
  | zero => rfl
  | succ n => exact absurd h (Nat.succ_ne_zero n)

private theorem sqAt_next (c : Dev nD) (t : Fin cfg0.N) (h : t.val ≠ 0) :
    sqAt V c t.val t.isLt = k0_pay1 (k0_pay8 (iblk0 V c 0 t) (iblk0 V c 1 t) (iblk0 V c 2 t) (iblk0 V c 3 t)
      (sqAt V c (t.val - 1) (Nat.lt_of_le_of_lt (Nat.sub_le _ _) t.isLt))) := by
  obtain ⟨n, hn⟩ := t
  cases n with
  | zero => exact absurd rfl h
  | succ n => rfl

/-- The mean and variance rows are computed from the rows the last tile leaves. -/
private theorem meanRow_last (c : Dev nD) (t : Fin cfg0.N) (h : t.val = 24) : meanRow V c = k0_pay2 (sumAt V c t.val t.isLt) := by
  obtain ⟨n, hn⟩ := t
  dsimp only at h; subst h; rfl
private theorem varRow_last (c : Dev nD) (t : Fin cfg0.N) (h : t.val = 24) :
    varRow V c = k0_pay3 (sumAt V c t.val t.isLt) (sqAt V c t.val t.isLt) := by
  obtain ⟨n, hn⟩ := t
  dsimp only at h; subst h; rfl

private theorem PhiRows_zero (c : Dev nD) (n : ℕ) (h : n ≤ cfg0.N) (hz : n = 0) : PhiRows V c n h = Pipeline.ΦA spec0 c := by
  subst hz; rfl

private theorem PhiRows_succ (c : Dev nD) (n : ℕ) (hn : n < cfg0.N) :
    PhiRows V c (n + 1) hn = iprop(owns (c : Thread nD τ) scSum fullShare (sumAt V c n hn) ∗ owns (c : Thread nD τ) scSq fullShare (sqAt V c n hn)
      ∗ restOthers c ∗ (∃ r, prngReg c r)) := rfl

private theorem PhiRows_pos (c : Dev nD) (n : ℕ) (h : n ≤ cfg0.N) (hz : n ≠ 0) :
    PhiRows V c n h = iprop(owns (c : Thread nD τ) scSum fullShare (sumAt V c (n - 1) (by omega))
      ∗ owns (c : Thread nD τ) scSq fullShare (sqAt V c (n - 1) (by omega)) ∗ restOthers c ∗ (∃ r, prngReg c r)) := by
  cases n with
  | zero => exact absurd rfl hz
  | succ n => rfl

/-- The class's invariant with the two carried rows as memrefs owned at some contents. -/
private theorem PhiA0_eq (c : Dev nD) :
    (Pipeline.ΦA spec0 c : sProp 𝕄)
      = iprop(((∃ d, owns (c : Thread nD τ) scSum fullShare d) ∗ (∃ d, owns (c : Thread nD τ) scSq fullShare d) ∗ restOthers c)
          ∗ (∃ r, prngReg c r)) := by
  unfold Pipeline.ΦA restOthers; rw [scopedRest0_eq]; simp only [scSum, scSq, owns_whole]; try rfl

private theorem Phi_castSucc (c : Dev nD) (t : Fin cfg0.N) :
    (dat0 V c).Φ t.castSucc = PhiRows V c t.val (Nat.le_of_lt t.isLt) := by
  dsimp only [dat0]; simp only [Fin.coe_castSucc]

private theorem Phi_succ (c : Dev nD) (t : Fin cfg0.N) : (dat0 V c).Φ t.succ = PhiRows V c (t.val + 1) t.isLt := rfl

/-! ## The body obligation, at a generic tile -/

/-- What the body is called with at tile `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d)))

/-- and what it returns. -/
private def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 1600000 in
/-- The body at any tile. The inputs' buffers hold their blocks; the tile is the first, a middle one or the last
    (the two conditions in closed form), and that case's run applies: the invariant hands the body the two carried rows
    (at anything at the first tile, else at what the tile before left) and takes them back at this tile's rows; away
    from the last tile the mean and variance buffers come back as they were found. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi_succ, PhiRows_succ, Phi_castSucc]
  rw [leavesExact_live V c 0 t (live0_0 _), leavesExact_live V c 1 t (live0_1 _), leavesExact_live V c 2 t (live0_2 _),
    leavesExact_live V c 3 t (live0_3 _), leavesExact_live V c 4 t (live0_4 _)]
  rw [after0_0, after0_1, after0_2, after0_3, after0_4]
  have hN : t.val < 25 := lt_of_lt_of_eq t.isLt N_0
  by_cases h0 : t.val = 0
  · have hc0 : condFirst (grid0.coords t) := (hcondFirst t).mpr h0
    have hc1 : ¬condLast (grid0.coords t) := fun h => by have := (hcondLast t).mp h; omega
    rw [Dat.leavesExact_idle (dat0 V c) 5 t (idle0_5 t hc1) (noFlush0_5 t hc1),
      Dat.leavesExact_idle (dat0 V c) 6 t (idle0_6 t hc1) (noFlush0_6 t hc1)]
    rw [PhiRows_zero V c _ _ h0, PhiA0_eq, sumAt_first V c t h0, sqAt_first V c t h0]
    unfold tileH
    iintro ⟨⟨⟨⟨%d8, HS8⟩, ⟨%d9, HS9⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (runFirst c (grid0.coords t) _ _ _ _ _ _ _ _ _ _ _ _ _ _ _ _ _ _ hc0 hc1 (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexists _; iexact HS8
    isplitl [HS9]; · iexists _; iexact HS9
    iintro ⟨H0, H1, H2, H3, H4, H5, H6, HS8, HS9⟩
    isplitl [HS8 HS9 HR Hg]
    · isplitl [HS8]; · iexact HS8
      isplitl [HS9]; · iexact HS9
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc0 : ¬condFirst (grid0.coords t) := fun h => h0 ((hcondFirst t).mp h)
    rw [PhiRows_pos V c _ _ h0]
    by_cases h1 : t.val = 24
    · have hc1 : condLast (grid0.coords t) := (hcondLast t).mpr h1
      rw [leavesExact_live V c 5 t (live0_5 t hc1), leavesExact_live V c 6 t (live0_6 t hc1), after0_5, after0_6,
        meanRow_last V c t h1, varRow_last V c t h1]
      rw [sumAt_next V c t h0, sqAt_next V c t h0]
      unfold tileH
      iintro ⟨⟨HS8, HS9, HR, Hg⟩, Ho, ⟨%d0, H0⟩, ⟨%d1, H1⟩, ⟨%d2, H2⟩, ⟨%d3, H3⟩, ⟨%d4, H4⟩, ⟨%d5, H5⟩, ⟨%d6, H6⟩⟩
      iapply (runLast c (grid0.coords t) _ _ _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 HR Hg]
      · isplitl [HS8]; · iexact HS8
        isplitl [HS9]; · iexact HS9
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬condLast (grid0.coords t) := fun h => h1 ((hcondLast t).mp h)
      rw [Dat.leavesExact_idle (dat0 V c) 5 t (idle0_5 t hc1) (noFlush0_5 t hc1),
        Dat.leavesExact_idle (dat0 V c) 6 t (idle0_6 t hc1) (noFlush0_6 t hc1)]
      rw [sumAt_next V c t h0, sqAt_next V c t h0]
      unfold tileH
      iintro ⟨⟨HS8, HS9, HR, Hg⟩, Ho, ⟨%d0, H0⟩, ⟨%d1, H1⟩, ⟨%d2, H2⟩, ⟨%d3, H3⟩, ⟨%d4, H4⟩, ⟨%d5, H5⟩, ⟨%d6, H6⟩⟩
      iapply (runMid c (grid0.coords t) _ _ _ _ _ _ _ _ _ _ _ _ _ _ _ _ _ _ hc0 hc1 (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 HR Hg]
      · isplitl [HS8]; · iexact HS8
        isplitl [HS9]; · iexact HS9
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation for the first region, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first tile. -/
theorem hin0 (c : Dev nD) : (Pipeline.ΦA spec0 c : sProp 𝕄) ⊢ (dat0 V c).Φ 0 := by
  rw [show (dat0 V c).Φ 0 = PhiRows V c 0 (Nat.zero_le _) from rfl, PhiRows_zero V c 0 _ rfl]
/-- After the last tile the invariant gives the class's back: the carried rows' named contents are forgotten. -/
theorem hout0 (c : Dev nD) : (dat0 V c).Φ (Fin.last cfg0.N) ⊢ (Pipeline.ΦA spec0 c : sProp 𝕄) := by
  rw [show (dat0 V c).Φ (Fin.last cfg0.N) = PhiRows V c (Fin.last cfg0.N).val (Nat.le_of_lt_succ (Fin.last cfg0.N).isLt) from rfl,
    PhiRows_pos V c _ _ (by rw [Fin.val_last]; have : cfg0.N = 25 := N_0; omega), PhiA0_eq]
  iintro ⟨HS8, HS9, HR, Hg⟩
  isplitl [HS8 HS9 HR]
  · isplitl [HS8]; · iexists _; iexact HS8
    isplitl [HS9]; · iexists _; iexact HS9
    iexact HR
  iexact Hg

end Cert.KernelIdeal.Hand

end
-- ==== Proof.Region1.lean ====
/-
  The second kernel region: at each of the 25 row tiles it normalises the 2000 × 512 block of h1 with the batch mean and
  variance (each a 1 × 512 row held whole), scales and shifts by gamma and beta, clamps at zero and multiplies by W2,
  adding b2. Every window is read or written whole at every point, nothing is kept between points.
  Stated here: each window's block at a point, what the body leaves in the output block, the region's proof data
  and the body obligation, at any float instance and at any contents `V` the region is entered from.
-/
import proofs.«133134_j51762945852037_1_alg».proof.Proof.Gen.KernelIdeal.Launch
import proofs.«133134_j51762945852037_1_alg».proof.Proof.Gen.KernelIdeal.Skeleton
import proofs.«133134_j51762945852037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 2000 × 512 output block as one rectangle. -/
abbrev rOut1 : Rect S2000x512 := Rect.unit (s := S2000x512) ![0, 0] S2000x512.size inb_S2000x512_S2000x512_0_0

/-- What the body leaves in the output block: its one store, over the seven input blocks in window order
    (h1 tile, mean, variance, gamma, beta, W2, b2). The payload takes them in the order the body loads them. -/
def out1_7 (xh : Vec F S2000x512 .f32) (xmean xvar xgamma xbeta : Vec F S1x512 .f32) (xw2 : Vec F S512x512 .bf16) (xb2 : Vec F S1x512 .f32) :
    Vec F S2000x512 .f32 :=
  View.canon [⟨rOut1, k1_pay1 xh xvar xmean xgamma xbeta xw2 xb2⟩]

/-- The proof data of the second region on core `c`: arrays as found, each input's buffer at its block, the output's at
    `out1_7` of the input blocks; the class-A invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-! ## Each input buffer holds its block at every point

The h1 tile moves with the point and is fetched at each one; the six row and weight windows sit on block 0 throughout
and are fetched once. Either way the buffer the body is handed holds the window's block of the array: where no fetch
happened the block index is the previous point's, and the body left that block untouched. No window is cut and none
is ever idle, so "what a fetch puts in the buffer" is the block itself. -/

theorem held1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    show (dat1 V c).after 0 s = _
    dsimp only [dat1]; unfold Dat.blockOf iblk1; rfl
  rw [(dat1 V c).before_in_eq_fetched 0 rfl (fun _ => rfl) (fun _ _ _ => rfl) hkeep t d]
  unfold Dat.fetched Dat.blockOf iblk1; rfl

theorem held1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    show (dat1 V c).after 1 s = _
    dsimp only [dat1]; unfold Dat.blockOf iblk1; rfl
  rw [(dat1 V c).before_in_eq_fetched 1 rfl (fun _ => rfl) (fun _ _ _ => rfl) hkeep t d]
  unfold Dat.fetched Dat.blockOf iblk1; rfl

theorem held1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    show (dat1 V c).after 2 s = _
    dsimp only [dat1]; unfold Dat.blockOf iblk1; rfl
  rw [(dat1 V c).before_in_eq_fetched 2 rfl (fun _ => rfl) (fun _ _ _ => rfl) hkeep t d]
  unfold Dat.fetched Dat.blockOf iblk1; rfl

theorem held1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := fun s => by
    show (dat1 V c).after 3 s = _
    dsimp only [dat1]; unfold Dat.blockOf iblk1; rfl
  rw [(dat1 V c).before_in_eq_fetched 3 rfl (fun _ => rfl) (fun _ _ _ => rfl) hkeep t d]
  unfold Dat.fetched Dat.blockOf iblk1; rfl

theorem held1_4 (c : Dev nD) (t : Fin cfg1.N) (d) : (dat1 V c).before 4 t d = iblk1 V c 4 t := by
  have hkeep : ∀ s, (cfg1.win 4).cut (cfg1.grid.coords s) ((dat1 V c).after 4 s) = (dat1 V c).blockOf 4 s := fun s => by
    show (dat1 V c).after 4 s = _
    dsimp only [dat1]; unfold Dat.blockOf iblk1; rfl
  rw [(dat1 V c).before_in_eq_fetched 4 rfl (fun _ => rfl) (fun _ _ _ => rfl) hkeep t d]
  unfold Dat.fetched Dat.blockOf iblk1; rfl

theorem held1_5 (c : Dev nD) (t : Fin cfg1.N) (d) : (dat1 V c).before 5 t d = iblk1 V c 5 t := by
  have hkeep : ∀ s, (cfg1.win 5).cut (cfg1.grid.coords s) ((dat1 V c).after 5 s) = (dat1 V c).blockOf 5 s := fun s => by
    show (dat1 V c).after 5 s = _
    dsimp only [dat1]; unfold Dat.blockOf iblk1; rfl
  rw [(dat1 V c).before_in_eq_fetched 5 rfl (fun _ => rfl) (fun _ _ _ => rfl) hkeep t d]
  unfold Dat.fetched Dat.blockOf iblk1; rfl

theorem held1_6 (c : Dev nD) (t : Fin cfg1.N) (d) : (dat1 V c).before 6 t d = iblk1 V c 6 t := by
  have hkeep : ∀ s, (cfg1.win 6).cut (cfg1.grid.coords s) ((dat1 V c).after 6 s) = (dat1 V c).blockOf 6 s := fun s => by
    show (dat1 V c).after 6 s = _
    dsimp only [dat1]; unfold Dat.blockOf iblk1; rfl
  rw [(dat1 V c).before_in_eq_fetched 6 rfl (fun _ => rfl) (fun _ _ _ => rfl) hkeep t d]
  unfold Dat.fetched Dat.blockOf iblk1; rfl

/-! ## The output block after the body -/

/-- The zero offsets of a rank-2 rectangle, as the constant function. -/
private theorem zeroOff2 : (![0, 0] : Fin 2 → ℕ) = fun _ => 0 := by
  funext a; fin_cases a <;> rfl

/-- One store of the full 2000 × 512 extent reaches every index of the block. -/
theorem cover1_7 (p : Vec F S2000x512 .f32) (y : S2000x512.Idx) :
    ∃ pc ∈ ([⟨rOut1, p⟩] : List (View.Piece (Elt F) S2000x512 .f32)), y ∈ pc.1.set :=
  View.cover_of_tiled [⟨rOut1, p⟩] S2000x512.size (by rfl) y

/-! ## The body on whole buffers

Seven whole-buffer loads (the h1 tile, then variance before mean, then gamma, beta, W2, b2), a load of the output
buffer whose value is unused, and one whole-buffer store of the payload. The inputs end as they began; the output
buffer, whatever it held, ends at the store's payload laid over the full rectangle. -/

set_option maxHeartbeats 1000000 in
theorem sound_kernel1 (c : Dev nD) (E : Set ℕ) (i : grid1.Coords)
    (a0 : Memref sig .tc .vmem S2000x512 .f32) (h0 : a0.IsWhole) (a1 : Memref sig .tc .vmem S1x512 .f32) (h1 : a1.IsWhole)
    (a2 : Memref sig .tc .vmem S1x512 .f32) (h2 : a2.IsWhole) (a3 : Memref sig .tc .vmem S1x512 .f32) (h3 : a3.IsWhole)
    (a4 : Memref sig .tc .vmem S1x512 .f32) (h4 : a4.IsWhole) (a5 : Memref sig .tc .vmem S512x512 .bf16) (h5 : a5.IsWhole)
    (a6 : Memref sig .tc .vmem S1x512 .f32) (h6 : a6.IsWhole) (a7 : Memref sig .tc .vmem S2000x512 .f32) (h7 : a7.IsWhole)
    (xh : Vec F S2000x512 .f32) (xmean xvar xgamma xbeta : Vec F S1x512 .f32) (xw2 : Vec F S512x512 .bf16) (xb2 : Vec F S1x512 .f32)
    (K : PUnit → sProp 𝕄) :
    iprop(owns (c : Thread nD τ) a0 fullShare xh ∗ owns (c : Thread nD τ) a1 fullShare xmean ∗ owns (c : Thread nD τ) a2 fullShare xvar
        ∗ owns (c : Thread nD τ) a3 fullShare xgamma ∗ owns (c : Thread nD τ) a4 fullShare xbeta ∗ owns (c : Thread nD τ) a5 fullShare xw2
        ∗ owns (c : Thread nD τ) a6 fullShare xb2 ∗ (∃ d, owns (c : Thread nD τ) a7 fullShare d)
        ∗ (iprop(owns (c : Thread nD τ) a0 fullShare xh ∗ owns (c : Thread nD τ) a1 fullShare xmean ∗ owns (c : Thread nD τ) a2 fullShare xvar
            ∗ owns (c : Thread nD τ) a3 fullShare xgamma ∗ owns (c : Thread nD τ) a4 fullShare xbeta ∗ owns (c : Thread nD τ) a5 fullShare xw2
            ∗ owns (c : Thread nD τ) a6 fullShare xb2
            ∗ owns (c : Thread nD τ) a7 fullShare (out1_7 xh xmean xvar xgamma xbeta xw2 xb2)) -∗ K ⟨⟩))
      ⊢ wp frame (wpE (defs₀ (F := F)) Variants.none c none) E (cc1__kernel_b i a0 h0 a1 h1 a2 h2 a3 h3 a4 h4 a5 h5 a6 h6 a7 h7) K := by
  simp only [cc1__kernel_b_eq_skeleton]; unfold cc1__kernel_b_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, HK⟩
  subst e0 e1 e2 e3 e4 e5 e6
  sl_exec
  sl_step
  iapply HK
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  rw [View.read_writes_eq_canon _ _ _ (cover1_7 _)]
  simp only [View.readAt_eq_ld, View.ld_unit_zero (S := S2000x512) zeroOff2, View.ld_unit_zero (S := S1x512) zeroOff2,
    View.ld_unit_zero (S := S512x512) zeroOff2]
  rfl

/-! ## The body at a grid point

The pipeline hands the body the class invariant, the core's debts and the eight current buffers, each at what it held
before; it wants them back with each buffer at the proof data's "after". The invariant and the debts do not change
across a point (nothing is owed, the invariant does not depend on the point) and pass through; the inputs' buffers
hold their blocks by the lemmas above and the body leaves them so; the output's buffer is left at the payload over
the input blocks, which is the proof data's "after" for window 7. -/

private theorem kept1_0 (c : Dev nD) (t : Fin cfg1.N) : (dat1 V c).after 0 t = iblk1 V c 0 t := by dsimp only [dat1]
private theorem kept1_1 (c : Dev nD) (t : Fin cfg1.N) : (dat1 V c).after 1 t = iblk1 V c 1 t := by dsimp only [dat1]
private theorem kept1_2 (c : Dev nD) (t : Fin cfg1.N) : (dat1 V c).after 2 t = iblk1 V c 2 t := by dsimp only [dat1]
private theorem kept1_3 (c : Dev nD) (t : Fin cfg1.N) : (dat1 V c).after 3 t = iblk1 V c 3 t := by dsimp only [dat1]
private theorem kept1_4 (c : Dev nD) (t : Fin cfg1.N) : (dat1 V c).after 4 t = iblk1 V c 4 t := by dsimp only [dat1]
private theorem kept1_5 (c : Dev nD) (t : Fin cfg1.N) : (dat1 V c).after 5 t = iblk1 V c 5 t := by dsimp only [dat1]
private theorem kept1_6 (c : Dev nD) (t : Fin cfg1.N) : (dat1 V c).after 6 t = iblk1 V c 6 t := by dsimp only [dat1]

/-- What the body is called with at point `t`, the windows one by one. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2, held1_3, held1_4, held1_5, held1_6]
  rw [show (dat1 V c).Φ t.succ = (dat1 V c).Φ t.castSucc from rfl,
    show (dat1 V c).owesAt () t.succ = (dat1 V c).owesAt () t.castSucc from rfl,
    kept1_0, kept1_1, kept1_2, kept1_3, kept1_4, kept1_5, kept1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Launch.lean ====
/-
  The whole run of the kernel's program: the host prefix (index slicing, the gather of neighbour rows, their scaling by the
  edge weights, the scatter-add into agg, and the casts and reshapes of the weights), then the two kernel regions. The
  contents of every unscoped buffer are followed boundary by boundary: at launch, after the prefix, after the first
  region (its three output arrays at what its write-backs leave), after the second. Every weakly fair execution ends
  with every unscoped buffer at the last boundary's contents; the arguments are written by nothing, so they end as
  launched, and the result array ends at what the second region's write-backs leave.
-/
import proofs.«133134_j51762945852037_1_alg».proof.Proof.Region0
import proofs.«133134_j51762945852037_1_alg».proof.Proof.Region1
import proofs.«133134_j51762945852037_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the host prefix (the first region's entry). -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- After the first region: its arrays at what the pipeline leaves, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second region. -/
def B3 (c : Dev nD) : Valuation τ sig (Elt F) :=
  Pipeline.withArrays spec1 c (B2 m c) fun w => (dat1 (E2 m) c).arrAt w cfg1.N

/-! ## What the boundaries hold -/

theorem B2_arr (c : Dev nD) (w : Fin cfg0.W) :
    B2 m c (Proc.devRef .tc (Pipeline.arrRef spec0 w)) = (dat0 (E1 m) c).arrAt w cfg0.N := by
  unfold B2
  exact Pipeline.withArrays_arr spec0 launch0.win.arr_inj c (B1 m c) _ w
theorem B3_arr (c : Dev nD) (w : Fin cfg1.W) :
    B3 m c (Proc.devRef .tc (Pipeline.arrRef spec1 w)) = (dat1 (E2 m) c).arrAt w cfg1.N := by
  unfold B3
  exact Pipeline.withArrays_arr spec1 launch1.win.arr_inj c (B2 m c) _ w

/-- A reference that is no array of the first region's windows is left by it as entered. -/
private theorem B2_off (c : Dev nD) (b : Ref sig .tc) (hb : ∀ w, Pipeline.arrRef spec0 w ≠ b) :
    B2 m c (Proc.devRef .tc b) = B1 m c (Proc.devRef .tc b) := by
  unfold B2
  exact Pipeline.withArrays_of_ne spec0 c (B1 m c) _ b hb
/-- A reference that is no array of the second region's windows is left by it as entered. -/
private theorem B3_off (c : Dev nD) (b : Ref sig .tc) (hb : ∀ w, Pipeline.arrRef spec1 w ≠ b) :
    B3 m c (Proc.devRef .tc b) = B2 m c (Proc.devRef .tc b) := by
  unfold B3
  exact Pipeline.withArrays_of_ne spec1 c (B2 m c) _ b hb
/-- An input window's array is never written back: after the first region it holds what it held at entry. -/
private theorem B2_in (c : Dev nD) (w : Fin cfg0.W) (hin : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hin _).trans (A_eq0 (E1 m) c w))
/-- The result array after the run: what the second region's write-backs leave in its output window's array. -/
theorem B3_out (c : Dev nD) : B3 m c (Proc.devRef .tc main_v24) = (dat1 (E2 m) c).arrAt 7 cfg1.N :=
  B3_arr m c 7
/-- The three arrays the second region reads from the first, as the first left them. -/
theorem E2_h1 (c : Dev nD) : E2 m c main_v23_0 = (dat0 (E1 m) c).arrAt 4 cfg0.N :=
  B2_arr m c 4
theorem E2_mean (c : Dev nD) : E2 m c main_v23_1 = (dat0 (E1 m) c).arrAt 5 cfg0.N :=
  B2_arr m c 5
theorem E2_var (c : Dev nD) : E2 m c main_v23_2 = (dat0 (E1 m) c).arrAt 6 cfg0.N :=
  B2_arr m c 6
/-- A buffer no region's output window names is, after both regions, what the host prefix left. -/
theorem E2_of_prefix (c : Dev nD) (b : Ref sig .tc) (hb : b ∉ ([main_v23_0, main_v23_1, main_v23_2] : List (Ref sig .tc))) :
    E2 m c b = E1 m c b := by
  by_cases h : ∃ w, Pipeline.arrRef spec0 w = b
  · -- an array of the first region other than its three outputs is an input's: never written back
    obtain ⟨w, rfl⟩ := h
    have hin : ∀ w : Fin cfg0.W, Pipeline.arrRef spec0 w ∉ ([main_v23_0, main_v23_1, main_v23_2] : List (Ref sig .tc))
        → (cfg0.win w).isOut = false := by decide
    exact B2_in m c w (hin w hb)
  · exact B2_off m c b fun w e => h ⟨w, e⟩

/-- An argument no host operation writes and no window of the second region names, other than the first region's three
    outputs, ends as launched. -/
private theorem B3_of_launch (c : Dev nD) (b : Ref sig .tc) (h1 : ∀ w, Pipeline.arrRef spec1 w ≠ b)
    (h0 : b ∉ ([main_v23_0, main_v23_1, main_v23_2] : List (Ref sig .tc))) (hW : b ∉ hostOps0_W) :
    B3 m c (Proc.devRef .tc b) = m ((c : Thread nD τ).loc b) :=
  (B3_off m c b h1).trans <| (E2_of_prefix m c b h0).trans <| (V1_of m c b hW).trans rfl

/-! ## The arguments end as launched -/

theorem B3_main_arg0 (c : Dev nD) : B3 m c (Proc.devRef .tc main_arg0) = m ((c : Thread nD τ).loc main_arg0) :=
  B3_of_launch m c main_arg0 (by decide) (by decide) (by decide)
theorem B3_main_arg1 (c : Dev nD) : B3 m c (Proc.devRef .tc main_arg1) = m ((c : Thread nD τ).loc main_arg1) :=
  B3_of_launch m c main_arg1 (by decide) (by decide) (by decide)
theorem B3_main_arg2 (c : Dev nD) : B3 m c (Proc.devRef .tc main_arg2) = m ((c : Thread nD τ).loc main_arg2) :=
  B3_of_launch m c main_arg2 (by decide) (by decide) (by decide)
theorem B3_main_arg3 (c : Dev nD) : B3 m c (Proc.devRef .tc main_arg3) = m ((c : Thread nD τ).loc main_arg3) :=
  B3_of_launch m c main_arg3 (by decide) (by decide) (by decide)
theorem B3_main_arg4 (c : Dev nD) : B3 m c (Proc.devRef .tc main_arg4) = m ((c : Thread nD τ).loc main_arg4) :=
  B3_of_launch m c main_arg4 (by decide) (by decide) (by decide)
theorem B3_main_arg5 (c : Dev nD) : B3 m c (Proc.devRef .tc main_arg5) = m ((c : Thread nD τ).loc main_arg5) :=
  B3_of_launch m c main_arg5 (by decide) (by decide) (by decide)
theorem B3_main_arg6 (c : Dev nD) : B3 m c (Proc.devRef .tc main_arg6) = m ((c : Thread nD τ).loc main_arg6) :=
  B3_of_launch m c main_arg6 (by decide) (by decide) (by decide)
theorem B3_main_arg7 (c : Dev nD) : B3 m c (Proc.devRef .tc main_arg7) = m ((c : Thread nD τ).loc main_arg7) :=
  B3_of_launch m c main_arg7 (by decide) (by decide) (by decide)
theorem B3_main_arg8 (c : Dev nD) : B3 m c (Proc.devRef .tc main_arg8) = m ((c : Thread nD τ).loc main_arg8) :=
  B3_of_launch m c main_arg8 (by decide) (by decide) (by decide)

/-! ## The two regions' proof data, and what rides beside the buffers -/

/-- Each region's proof data over the contents its region is entered at. Written as a literal match on the region's
    number, so that the library's pinned configuration at a numeral is the printed one. -/
private def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c

/-- No core waits on another: no pair carries a level. -/
private abbrev noL : GSem nD τ sig → Finset Unit := fun _ => ∅
private abbrev noLv : GSem nD τ sig → Unit → ℕ := fun _ _ => 0

/-- Beside the buffers at every boundary: the generator register at some state, and the core owing nothing. -/
private abbrev Side (c : Dev nD) : sProp 𝕄 :=
  iprop((∃ r, prngReg c r) ∗ ∃ W, owes (c : Thread nD τ) (0 : CellTallies nD τ sig Unit) W)

/-- The thread state at a boundary with contents `B`: every unscoped buffer whole at `B c`, beside `Side c`. -/
private abbrev AtB (B : Dev nD → Valuation τ sig (Elt F)) (c : Dev nD) : sProp 𝕄 :=
  iprop(StableHlo.held (c : Thread nD τ) (Pipeline.ucRefs τ sig) (B c) ∗ Side c)

/-- The host prefix: its 26 operations over the unscoped buffers from the launch contents. -/
private abbrev prefixSeg : Pipeline.HostSeg (Name := ℕ) (U := UR sig nD τ) (pcfgs (F := F)) defs₀ Variants.none noL noLv :=
  Pipeline.HostSeg.ofOps _ _ _ _ _ (Pipeline.ucRefs τ sig) hostOps0
    (fun op hop => Pipeline.sub_ucRefs op ((List.forall_iff_forall_mem.mp hostOps0_sub) op hop))
    (fun op hop => (List.forall_iff_forall_mem.mp hostOps0_fresh) op hop) (B0 m) Side

/-! ## The regions as segments -/

-- the pinned configuration at a numeral meets the printed one only by unfolding plain definitions inside a
-- metavariable's type
set_option backward.isDefEq.respectTransparency.types false in
/-- The first region between the boundaries `B1` and `B2`. At entry its seven arrays are taken out of the unscoped
    buffers and the others bypass it; the generator register goes into the region's invariant through `hin0` and comes
    back through `hout0`; at exit the arrays return at what the write-backs left, which is `B2` by definition. -/
private def reg0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noL noLv 0 fun _ _ => rfl
  pre := AtB (B1 m)
  post := AtB (B2 m)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have harr : (StableHlo.held (c : Thread nD τ) (Pipeline.ucRefs τ sig) (B1 m c) : sProp 𝕄)
        ⊢ iprop((pdats m 0 c).arrays ((pdats m 0 c).arrAt · 0)
            ∗ Pipeline.unscopedRest (Ix := Unit) (Name := ℕ) (U := UR sig nD τ) (Lvl := ℕ) spec0 c (E1 m c)) := by
      rw [← Pipeline.unscopedBufs_held (Ix := Unit) (Name := ℕ) (U := UR sig nD τ) (Lvl := ℕ) c (B1 m c)]
      exact Pipeline.arrays_of_unscopedBufs (p := 0) (pcfgs (F := F)) adm (pdats m) launch0.win launch0.arr_whole c
        ((pdats m 0 c).share_full fun _ => rfl) (E1 m c) fun w => A_eq0 (E1 m) c w
    iintro ⟨⟨Hbufs, Hreg, Howes⟩, -, -⟩
    ihave Hparts := harr $$ Hbufs
    icases Hparts with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · icases Howes with ⟨%W, Howes⟩
      iexists W
      isplitr; · ipureintro; exact fun _ _ => Or.inl trivial
      iexact Howes
    isplitl [Hreg]; · iexact Hreg
    iexact Hrest
  hin c := by
    have hclass : iprop((∃ r, prngReg c r) ∗ Pipeline.prefHeld (pcfgs (F := F) 0).pre c (fun _ => fullShare) (adm (F := F) 0).1
          ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hreg, -, Hscoped⟩
      isplitl [Hscoped]; · iexact Hscoped
      iexact Hreg
    exact hclass.trans (hin0 (E1 m) c)
  hout c := by
    rw [Pipeline.ownSems0_none]
    have hclass : (Pipeline.ΦA spec0 c : sProp 𝕄)
        ⊢ iprop((∃ r, prngReg c r) ∗ BI.emp
            ∗ Pipeline.scopedRest (Ix := Unit) (Name := ℕ) (U := UR sig nD τ) (Lvl := ℕ) (Val := Elt F) spec0 c) := by
      unfold Pipeline.ΦA
      iintro ⟨Hscoped, Hreg⟩
      isplitl [Hreg]; · iexact Hreg
      isplitr; · iempintro
      iexact Hscoped
    exact (hout0 (E1 m) c).trans hclass
  hexit c := by
    have hjoin : iprop((pdats m 0 c).arrays ((pdats m 0 c).arrAt · cfg0.N)
          ∗ Pipeline.unscopedRest (Ix := Unit) (Name := ℕ) (U := UR sig nD τ) (Lvl := ℕ) spec0 c (E1 m c))
        ⊢ (StableHlo.held (c : Thread nD τ) (Pipeline.ucRefs τ sig) (B2 m c) : sProp 𝕄) := by
      rw [← Pipeline.unscopedBufs_held (Ix := Unit) (Name := ℕ) (U := UR sig nD τ) (Lvl := ℕ) c (B2 m c)]
      exact Pipeline.unscopedBufs_of_arrays (p := 0) (pcfgs (F := F)) adm launch0.win launch0.arr_whole c (pdats m)
        ((pdats m 0 c).share_full fun _ => rfl) (E1 m c) (E2 m c) ((pdats m 0 c).arrAt · cfg0.N)
        (fun w => (B2_arr m c w).symm)
        (fun b hb => B2_off m c b fun w e => hb (Finset.mem_image.mpr ⟨w, Finset.mem_univ _, e⟩))
    iintro ⟨Harr, Howes, Hreg, Hrest⟩
    imodintro
    isplitl [Harr Hrest]
    · iapply hjoin
      isplitl [Harr]; · iexact Harr
      iexact Hrest
    isplitl [Hreg]; · iexact Hreg
    icases Howes with ⟨%W, -, Howes⟩
    iexists W; iexact Howes

-- as for the first region
set_option backward.isDefEq.respectTransparency.types false in
/-- The second region between the boundaries `B2` and `B3`. Its invariant is the class's at every point, so the generator
    register and the scoped buffers no window stages pass in and out unchanged; its eight arrays leave the unscoped buffers
    at entry and return at what the write-backs left, which is `B3` by definition. -/
private def reg1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ noL noLv 1 fun _ _ => rfl
  pre := AtB (B2 m)
  post := AtB (B3 m)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have harr : (StableHlo.held (c : Thread nD τ) (Pipeline.ucRefs τ sig) (B2 m c) : sProp 𝕄)
        ⊢ iprop((pdats m 1 c).arrays ((pdats m 1 c).arrAt · 0)
            ∗ Pipeline.unscopedRest (Ix := Unit) (Name := ℕ) (U := UR sig nD τ) (Lvl := ℕ) spec1 c (E2 m c)) := by
      rw [← Pipeline.unscopedBufs_held (Ix := Unit) (Name := ℕ) (U := UR sig nD τ) (Lvl := ℕ) c (B2 m c)]
      exact Pipeline.arrays_of_unscopedBufs (p := 1) (pcfgs (F := F)) adm (pdats m) launch1.win launch1.arr_whole c
        ((pdats m 1 c).share_full fun _ => rfl) (E2 m c) fun w => A_eq1 (E2 m) c w
    iintro ⟨⟨Hbufs, Hreg, Howes⟩, -, -⟩
    ihave Hparts := harr $$ Hbufs
    icases Hparts with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · icases Howes with ⟨%W, Howes⟩
      iexists W
      isplitr; · ipureintro; exact fun _ _ => Or.inl trivial
      iexact Howes
    isplitl [Hreg]; · iexact Hreg
    iexact Hrest
  hin c := by
    show _ ⊢ (Pipeline.ΦA spec1 c : sProp 𝕄)
    unfold Pipeline.ΦA
    iintro ⟨Hreg, -, Hscoped⟩
    isplitl [Hscoped]; · iexact Hscoped
    iexact Hreg
  hout c := by
    rw [Pipeline.ownSems0_none]
    show (Pipeline.ΦA spec1 c : sProp 𝕄) ⊢ _
    unfold Pipeline.ΦA
    iintro ⟨Hscoped, Hreg⟩
    isplitl [Hreg]; · iexact Hreg
    isplitr; · iempintro
    iexact Hscoped
  hexit c := by
    have hjoin : iprop((pdats m 1 c).arrays ((pdats m 1 c).arrAt · cfg1.N)
          ∗ Pipeline.unscopedRest (Ix := Unit) (Name := ℕ) (U := UR sig nD τ) (Lvl := ℕ) spec1 c (E2 m c))
        ⊢ (StableHlo.held (c : Thread nD τ) (Pipeline.ucRefs τ sig) (B3 m c) : sProp 𝕄) := by
      rw [← Pipeline.unscopedBufs_held (Ix := Unit) (Name := ℕ) (U := UR sig nD τ) (Lvl := ℕ) c (B3 m c)]
      exact Pipeline.unscopedBufs_of_arrays (p := 1) (pcfgs (F := F)) adm launch1.win launch1.arr_whole c (pdats m)
        ((pdats m 1 c).share_full fun _ => rfl) (E2 m c) (fun b => B3 m c b) ((pdats m 1 c).arrAt · cfg1.N)
        (fun w => (B3_arr m c w).symm)
        (fun b hb => B3_off m c b fun w e => hb (Finset.mem_image.mpr ⟨w, Finset.mem_univ _, e⟩))
    iintro ⟨Harr, Howes, Hreg, Hrest⟩
    imodintro
    isplitl [Harr Hrest]
    · iapply hjoin
      isplitl [Harr]; · iexact Harr
      iexact Hrest
    isplitl [Hreg]; · iexact Hreg
    icases Howes with ⟨%W, -, Howes⟩
    iexists W; iexact Howes

/-! ## The program as its three segments -/

/-- The host prefix, then the two regions. -/
private abbrev segs : List (Pipeline.Seg (pcfgs (F := F)) adm (pdats m) () defs₀ Variants.none noL noLv) :=
  [.host (prefixSeg m), .region (reg0 m), .region (reg1 m)]

/-- The printed program is the run of the three segments: it is the chain of its three items, and the segments' run is
    the same chain. -/
private theorem main_run (c : Dev nD) : main (F := F) c = Pipeline.Seg.run (segs m) :=
  (main_chain c).trans (by chain_rfl)

/-- An unscoped TensorCore reference is among those every boundary's thread state holds. -/
private theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last boundary's thread state with the owing split off, as the launch reads it at the end. -/
private theorem last_split (c : Dev nD) :
    AtB (B3 m) c ⊢ (iprop((StableHlo.held (c : Thread nD τ) (Pipeline.ucRefs τ sig) (B3 m c) ∗ ∃ r, prngReg c r)
      ∗ ∃ W, owes (c : Thread nD τ) (0 : CellTallies nD τ sig Unit) W) : sProp 𝕄) := by
  iintro ⟨Hbufs, Hreg, Howes⟩
  isplitl [Hbufs Hreg]
  · isplitl [Hbufs]; · iexact Hbufs
    iexact Hreg
  iexact Howes

/-! ## The run -/

/-- Every weakly fair execution of the program from memory `m` with zero counters terminates, faulting nowhere, and
    every final memory holds each unscoped TensorCore buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m c b) := by
  refine Pipeline.θ_run_regions_kit (pcfgs (F := F)) adm (pdats m) () cellOf_inj emb₁ defs₀ Variants.none noL noLv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := AtB (B0 m))
    (Tₙ := fun c => iprop(StableHlo.held (c : Thread nD τ) (Pipeline.ucRefs τ sig) (B3 m c) ∗ ∃ r, prngReg c r))
    (hch := ⟨fun _ => .rfl, fun _ => .rfl, fun _ => .rfl, fun c => last_split m c⟩)
    (hinit := ?hinit)
    (QY := fun c s => ∀ b ∈ Pipeline.ucRefs τ sig, s.mem (((c : Thread nD τ)).1, b) = B3 m c b)
    (hfin := fun c s' => ?hfin) (hQ := fun s h => h)
  case hu =>
    -- the launch element is the pipeline library's own; no ghost resource beside it
    have hnone : (BI.emp : sProp 𝕄) ⊢ bigSep Finset.univ (fun _ : Dev nD => (BI.emp : sProp 𝕄)) := by
      rw [BI.bigSep_emp_const]
    rw [ownU_emb₁]
    iintro Hu
    imodintro
    isplitl [Hu]; · iexact Hu
    iapply hnone
    iempintro
  case hinit =>
    -- each core makes its first thread state from what the launch deals it
    refine Pipeline.initEach noL noLv fun c => ?_
    rw [show unscopedBufs c (fun b => m ((c : Thread nD τ).loc b))
        = StableHlo.held (c : Thread nD τ) (Pipeline.ucRefs τ sig) (B0 m c) from Pipeline.unscopedBufs_held c (B0 m c)]
    iintro ⟨⟨Hbufs, -, Howes, -, Hreg, -⟩, -⟩
    imodintro
    isplitl [Hbufs]; · iexact Hbufs
    isplitl [Hreg]; · iexists _; iexact Hreg
    iexists ∅; iexact Howes
  case hfin =>
    -- every unscoped buffer is held whole at the last boundary's contents: the final memory has them there
    iintro ⟨⟨Hbufs, -⟩, HSI⟩
    unfold StableHlo.held
    imodintro
    iapply (pointsTo_read_all (Pipeline.ucRefs τ sig) (fun b => (((c : Thread nD τ)).1, b)) (B3 m c) s')
    isplitl [Hbufs]; · iexact Hbufs
    iexact HSI

/-- The frame: the program runs to the end and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_ucRefs main_arg0 (by decide))).trans (B3_main_arg0 m c),
     (h c _ (mem_ucRefs main_arg1 (by decide))).trans (B3_main_arg1 m c),
     (h c _ (mem_ucRefs main_arg2 (by decide))).trans (B3_main_arg2 m c),
     (h c _ (mem_ucRefs main_arg3 (by decide))).trans (B3_main_arg3 m c),
     (h c _ (mem_ucRefs main_arg4 (by decide))).trans (B3_main_arg4 m c),
     (h c _ (mem_ucRefs main_arg5 (by decide))).trans (B3_main_arg5 m c),
     (h c _ (mem_ucRefs main_arg6 (by decide))).trans (B3_main_arg6 m c),
     (h c _ (mem_ucRefs main_arg7 (by decide))).trans (B3_main_arg7 m c),
     (h c _ (mem_ucRefs main_arg8 (by decide))).trans (B3_main_arg8 m c)⟩)
    (run_all m ρ)

/-- The run with the result named: the result array ends at what the second region leaves, the arguments as launched. -/
theorem run_result : θ_run defs (onTc (τ := τ) (main (F := F))) ⟨m, fun _ => 0, ρ⟩ (fun r => ∀ c : Dev nD,
      r.2.mem ((c.tc : Thread nD τ).loc main_v24) = (dat1 (E2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_ucRefs main_v24 (by decide))).trans (B3_out m c),
     (h c _ (mem_ucRefs main_arg0 (by decide))).trans (B3_main_arg0 m c),
     (h c _ (mem_ucRefs main_arg1 (by decide))).trans (B3_main_arg1 m c),
     (h c _ (mem_ucRefs main_arg2 (by decide))).trans (B3_main_arg2 m c),
     (h c _ (mem_ucRefs main_arg3 (by decide))).trans (B3_main_arg3 m c),
     (h c _ (mem_ucRefs main_arg4 (by decide))).trans (B3_main_arg4 m c),
     (h c _ (mem_ucRefs main_arg5 (by decide))).trans (B3_main_arg5 m c),
     (h c _ (mem_ucRefs main_arg6 (by decide))).trans (B3_main_arg6 m c),
     (h c _ (mem_ucRefs main_arg7 (by decide))).trans (B3_main_arg7 m c),
     (h c _ (mem_ucRefs main_arg8 (by decide))).trans (B3_main_arg8 m c)⟩)
    (run_all m ρ)

end Cert.KernelIdeal.Hand

end
-- ==== Proof.LibReal.lean ====
/-
  Real numbers inside the extended reals: a finite sum of reals is real, the quotient of reals by a non-zero real is
  their real quotient, the square root of a non-negative real is its real square root.
-/
import Idealize.ShloMosaic.PureOps.Ideal
import Idealize.ShloMosaic.PureOps.Ideal.Laws

noncomputable section

open scoped BigOperators

namespace Cert.LibReal

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul]; congr 1; field_simp

/-- The square root of a non-negative real. -/
theorem sqrt_coe_nonneg (a : ℝ) (ha : 0 ≤ a) : Ideal.sqrt (a : EReal) = ((Real.sqrt a : ℝ) : EReal) := by
  rw [Ideal.sqrt_coe, if_neg (not_lt.mpr ha)]

/-- A real minus itself. -/
theorem coe_sub_self (a : ℝ) : (a : EReal) - (a : EReal) = 0 := by
  rw [← EReal.coe_sub, sub_self, EReal.coe_zero]

end Cert.LibReal

end
-- ==== Proof.Spec.lean ====
/-
  The mathematics of the kernel and of its reference, over the extended reals, index by index.
  With agg the edge-weighted neighbour sums (the same host computation on both sides, taken here as an input array):
    h1[r, j]   = (Σ_k (one · x[r, k] + agg[r, k]) · W1[k, j]) + b1[j]            (50000 × 512)
    S[j]       = Σ_r h1[r, j],   Q[j] = Σ_r h1[r, j]²,   mean[j] = S[j] / n      (n the float 50000)
    the kernel's variance   varK[j] = Q[j] / n − mean[j]²
    the reference's         varR[j] = (Σ_r (h1[r, j] − mean[j])²) / n
    out[r, j]  = (Σ_k max(((h1[r, k] − mean[k]) · rsqrt(var[k] + ε)) · gamma[k] + beta[k], 0) · W2[k, j]) + b2[j]
  The two variances agree when every h1[r, j] is a real number: expanding the square,
  Σ_r (h − μ)² = Q − 2μS + nμ² = Q − S²/n with μ = S/n. The kernel forms S and Q tile by tile (25 tiles of 2000 rows),
  which regroups the same finite sum.
-/
import Idealize.ShloMosaic.PureOps.Ideal
import Idealize.ShloMosaic.PureOps.Ideal.Laws
import Idealize.ShloMosaic.Lib.ValueIdx
import proofs.«133134_j51762945852037_1_alg».proof.Proof.LibReal

noncomputable section

open scoped BigOperators

namespace Cert.Spec

open Idealize.ShloMosaic Idealize.ShloMosaic.ValueIdx

/-- The float literals both programs share, kept as their words: one, the row count 50000, the variance's ε, zero. -/
abbrev one : EReal := Ideal.ofBits .f32 0x3F800000#32
abbrev nRows : EReal := Ideal.ofBits .f32 0x47435000#32
abbrev eps : EReal := Ideal.ofBits .f32 0x3727C5AC#32
abbrev zero : EReal := Ideal.ofBits .f32 0x00000000#32

variable (x agg : Fin 50000 → Fin 256 → EReal) (W1 : Fin 256 → Fin 512 → EReal) (b1 : Fin 512 → EReal)

/-- The first linear layer on the combined features. -/
def h1 (r : Fin 50000) (j : Fin 512) : EReal := (∑ k : Fin 256, (one * x r k + agg r k) * W1 k j) + b1 j

/-- Column sums of h1 and of its squares, the batch mean, and the two forms of the batch variance. -/
def colSum (j : Fin 512) : EReal := ∑ r : Fin 50000, h1 x agg W1 b1 r j
def colSq (j : Fin 512) : EReal := ∑ r : Fin 50000, h1 x agg W1 b1 r j * h1 x agg W1 b1 r j
def mean (j : Fin 512) : EReal := Ideal.div (colSum x agg W1 b1 j) nRows
def varK (j : Fin 512) : EReal := Ideal.div (colSq x agg W1 b1 j) nRows - mean x agg W1 b1 j * mean x agg W1 b1 j
def varR (j : Fin 512) : EReal :=
  Ideal.div (∑ r : Fin 50000, (h1 x agg W1 b1 r j - mean x agg W1 b1 j) * (h1 x agg W1 b1 r j - mean x agg W1 b1 j)) nRows

variable (gamma beta : Fin 512 → EReal) (W2 : Fin 512 → Fin 512 → EReal) (b2 : Fin 512 → EReal)

/-- The normalised, scaled, shifted and clamped activation, with the variance row `v` left as a parameter. -/
def act (v : Fin 512 → EReal) (r : Fin 50000) (k : Fin 512) : EReal :=
  max (((h1 x agg W1 b1 r k - mean x agg W1 b1 k) * Ideal.rsqrt (v k + eps)) * gamma k + beta k) zero

/-- The result, with the variance row as a parameter. -/
def outWith (v : Fin 512 → EReal) (r : Fin 50000) (j : Fin 512) : EReal :=
  (∑ k : Fin 512, act x agg W1 b1 gamma beta v r k * W2 k j) + b2 j

/-- The result as the kernel computes it. -/
def out (r : Fin 50000) (j : Fin 512) : EReal := outWith x agg W1 b1 gamma beta W2 b2 (varK x agg W1 b1) r j

/-- The float 50000 is the real number 50000. -/
theorem nRows_eq : nRows = ((50000 : ℝ) : EReal) := by
  simp [Ideal.ofBits, Ideal.ieee, -EReal.coe_mul]; norm_num

/-- The float 1 is the real number 1. -/
private theorem one_eq : one = ((1 : ℝ) : EReal) := by
  simp [Ideal.ofBits, Ideal.ieee, -EReal.coe_mul]; norm_num

/-- Over the reals, with c the number of indices: the mean of the squared deviations from the mean μ = S / c is the
    mean of the squares minus μ². Expanding, Σ (y − μ)² = Q − 2 μ S + c μ², and c μ = S. -/
private theorem var_real {ι : Type*} [Fintype ι] (c : ℝ) (hc : c ≠ 0) (hcard : (Fintype.card ι : ℝ) = c) (y : ι → ℝ) :
    (∑ r, (y r - (∑ r, y r) / c) * (y r - (∑ r, y r) / c)) / c
      = (∑ r, y r * y r) / c - ((∑ r, y r) / c) * ((∑ r, y r) / c) := by
  have hexp : ∀ r, (y r - (∑ r, y r) / c) * (y r - (∑ r, y r) / c)
      = y r * y r - 2 * ((∑ r, y r) / c) * y r + ((∑ r, y r) / c) * ((∑ r, y r) / c) := fun r => by ring
  have hsum : ∑ r, (y r - (∑ r, y r) / c) * (y r - (∑ r, y r) / c)
      = (∑ r, y r * y r) - 2 * ((∑ r, y r) / c) * (∑ r, y r) + c * (((∑ r, y r) / c) * ((∑ r, y r) / c)) := by
    rw [Finset.sum_congr rfl (fun r _ => hexp r), Finset.sum_add_distrib, Finset.sum_sub_distrib, ← Finset.mul_sum,
      Finset.sum_const, Finset.card_univ, nsmul_eq_mul, hcard]
  rw [hsum]
  field_simp
  ring

/-- The two variances agree wherever h1 is real-valued. -/
theorem varR_eq_varK (hfin : ∀ r j, ∃ y : ℝ, h1 x agg W1 b1 r j = (y : EReal)) (j : Fin 512) :
    varR x agg W1 b1 j = varK x agg W1 b1 j := by
  choose y hy using hfin
  have hn : (50000 : ℝ) ≠ 0 := by norm_num
  -- the column sums and the mean are real numbers
  have hS : colSum x agg W1 b1 j = ((∑ r, y r j : ℝ) : EReal) := by
    unfold colSum
    rw [Finset.sum_congr rfl (fun r _ => hy r j)]
    exact LibReal.coe_sum _ _
  have hQ : colSq x agg W1 b1 j = ((∑ r, y r j * y r j : ℝ) : EReal) := by
    unfold colSq
    rw [Finset.sum_congr rfl (fun r _ => by rw [hy r j, ← EReal.coe_mul])]
    exact LibReal.coe_sum _ _
  have hM : mean x agg W1 b1 j = (((∑ r, y r j) / 50000 : ℝ) : EReal) := by
    unfold mean
    rw [hS, nRows_eq, LibReal.div_coe_coe _ _ hn]
  -- so both variances are real numbers, and the identity is one over the reals
  have hK : varK x agg W1 b1 j
      = (((∑ r, y r j * y r j) / 50000 - ((∑ r, y r j) / 50000) * ((∑ r, y r j) / 50000) : ℝ) : EReal) := by
    unfold varK
    rw [hQ, hM, nRows_eq, LibReal.div_coe_coe _ _ hn, ← EReal.coe_mul, ← EReal.coe_sub]
  have hR : varR x agg W1 b1 j
      = (((∑ r, (y r j - (∑ r, y r j) / 50000) * (y r j - (∑ r, y r j) / 50000)) / 50000 : ℝ) : EReal) := by
    unfold varR
    rw [hM, Finset.sum_congr rfl (fun r _ => by rw [hy r j, ← EReal.coe_sub, ← EReal.coe_mul]),
      LibReal.coe_sum, nRows_eq, LibReal.div_coe_coe _ _ hn]
  have hreal := var_real (50000 : ℝ) hn (by rw [Fintype.card_fin]; norm_num) (fun r => y r j)
  beta_reduce at hreal
  rw [hK, hR, hreal]

/-- h1 is real-valued when its inputs are. -/
theorem h1_real (hx : ∀ r k, ∃ y : ℝ, x r k = (y : EReal)) (ha : ∀ r k, ∃ y : ℝ, agg r k = (y : EReal))
    (hW : ∀ k j, ∃ y : ℝ, W1 k j = (y : EReal)) (hb : ∀ j, ∃ y : ℝ, b1 j = (y : EReal)) (r : Fin 50000) (j : Fin 512) :
    ∃ y : ℝ, h1 x agg W1 b1 r j = (y : EReal) := by
  choose xr hxr using hx
  choose ar har using ha
  choose wr hwr using hW
  choose br hbr using hb
  refine ⟨(∑ k : Fin 256, (1 * xr r k + ar r k) * wr k j) + br j, ?_⟩
  unfold h1
  rw [Finset.sum_congr rfl (fun k _ => by
      rw [one_eq, hxr r k, har r k, hwr k j, ← EReal.coe_mul, ← EReal.coe_add, ← EReal.coe_mul]),
    LibReal.coe_sum, hbr j, ← EReal.coe_add]

/-- A sum over the 50000 rows is the sum over the 25 tiles of the sums over each tile's 2000 rows. -/
theorem sum_rows_tiles (f : Fin 50000 → EReal) :
    (∑ r : Fin 50000, f r) = ∑ t : Fin 25, ∑ q : Fin 2000, f ⟨2000 * t.val + q.val, by omega⟩ := by
  -- a row is a tile t and a row q inside the tile: r = 2000 t + q, the tile being the major index
  have he : ∀ t q, ((finProdFinEquiv (t, q) : Fin (25 * 2000)) : ℕ) = 2000 * t.val + q.val := fun t q => by
    simp [finProdFinEquiv, Nat.add_comm]
  calc (∑ r : Fin 50000, f r)
      = ∑ p : Fin 25 × Fin 2000, f (finProdFinEquiv p) := (Equiv.sum_comp (finProdFinEquiv : Fin 25 × Fin 2000 ≃ Fin (25 * 2000)) f).symm
    _ = ∑ t : Fin 25, ∑ q : Fin 2000, f (finProdFinEquiv (t, q)) := Fintype.sum_prod_type _
    _ = ∑ t : Fin 25, ∑ q : Fin 2000, f ⟨2000 * t.val + q.val, by omega⟩ :=
        Finset.sum_congr rfl (fun t _ => Finset.sum_congr rfl (fun q _ => congrArg f (Fin.ext (he t q))))

end Cert.Spec

end
-- ==== Proof.Result.lean ====
/-
  The result array both programs are shown to end with: the specification's `out` read at each index of the
  50000 × 512 result, as a function of the argument arrays and of agg (the edge-weighted neighbour sums, which both
  programs compute by the same host operations before anything else).
-/
import proofs.«133134_j51762945852037_1_alg».proof.KernelIdeal
import proofs.«133134_j51762945852037_1_alg».proof.Proof.Spec
import Idealize.ShloMosaic.PureOps.Ideal
import Idealize.ShloMosaic.Lib.ValueIdx

noncomputable section

namespace Cert.Result

open Idealize.ShloMosaic Idealize.ShloMosaic.ValueIdx Cert.KernelIdeal

/-- A 2-axis array read at a pair of coordinates. -/
abbrev at2 {A B : Nat} (v : (⟨2, ![A, B]⟩ : Shape).Idx → EReal) (p : Fin A) (q : Fin B) : EReal := v (ix2 p q)
/-- A 1-axis array read at a coordinate. -/
abbrev at1 {A : Nat} (v : (⟨1, ![A]⟩ : Shape).Idx → EReal) (p : Fin A) : EReal := v (ix1 p)

/-- The result array as a function of the arguments and agg. -/
def resultArr (x agg : Vec Ideal S50000x256 .f32) (W1 : Vec Ideal S256x512 .f32) (b1 gamma beta : Vec Ideal S512 .f32)
    (W2 : Vec Ideal S512x512 .f32) (b2 : Vec Ideal S512 .f32) : Vec Ideal S50000x512 .f32 :=
  fun i => Cert.Spec.out (at2 x) (at2 agg) (at2 W1) (at1 b1) (at1 gamma) (at1 beta) (at2 W2) (at1 b2) (i 0) (i 1)

/-- The same with the reference's form of the variance. -/
def resultArrR (x agg : Vec Ideal S50000x256 .f32) (W1 : Vec Ideal S256x512 .f32) (b1 gamma beta : Vec Ideal S512 .f32)
    (W2 : Vec Ideal S512x512 .f32) (b2 : Vec Ideal S512 .f32) : Vec Ideal S50000x512 .f32 :=
  fun i => Cert.Spec.outWith (at2 x) (at2 agg) (at2 W1) (at1 b1) (at1 gamma) (at1 beta) (at2 W2) (at1 b2)
    (Cert.Spec.varR (at2 x) (at2 agg) (at2 W1) (at1 b1)) (i 0) (i 1)

/-- The two agree when h1 is real-valued (the variance identity). -/
theorem resultArrR_eq (x agg : Vec Ideal S50000x256 .f32) (W1 : Vec Ideal S256x512 .f32) (b1 gamma beta : Vec Ideal S512 .f32)
    (W2 : Vec Ideal S512x512 .f32) (b2 : Vec Ideal S512 .f32)
    (hfin : ∀ r j, ∃ y : ℝ, Cert.Spec.h1 (at2 x) (at2 agg) (at2 W1) (at1 b1) r j = (y : EReal)) :
    resultArrR x agg W1 b1 gamma beta W2 b2 = resultArr x agg W1 b1 gamma beta W2 b2 := by
  funext i
  unfold resultArrR resultArr Cert.Spec.out
  congr 1
  funext j
  exact Cert.Spec.varR_eq_varK _ _ _ _ hfin j

/-! ## The shared host prefix -/

section Agg

variable [Cert.KernelIdeal.Facts]
open Cert.KernelIdeal.Facts₀ Cert.KernelIdeal.Facts

/-- agg as both programs compute it from the features, the 2 × 800000 edge index and the edge weights: the first index row
    names each edge's destination, the second its source (a negative source index is wrapped by the row count, then the
    gather clips it into the table); each gathered source row is scaled by its edge's weight and added into the
    destination row of a zero table. One host operation per line, as printed. -/
def aggTerm (x : Vec Ideal S50000x256 .f32) (ei : IVec S2x800000 32) (ew : Vec Ideal S800000 .f32) : Vec Ideal S50000x256 .f32 :=
  let v0 : IVec S1x800000 32 := extractStridedSlice S1x800000 ![0, 0] ei slices_S2x800000_S1x800000_0_0
  let v1 : IVec S800000 32 := shapeCast S800000 v0 shapeCasts_S1x800000_S800000
  let v2 : IVec S1x800000 32 := extractStridedSlice S1x800000 ![1, 0] ei slices_S2x800000_S1x800000_1_0
  let v3 : IVec S800000 32 := shapeCast S800000 v2 shapeCasts_S1x800000_S800000
  let v4 : Vec Ideal S800000x1 .f32 := broadcastInDim S800000x1 ![0] bcast_S800000_S800000x1_0 ew
  let v5 : IVec S800000 32 := broadcastInDim S800000 ![] bcast_S_S800000 (constantI S_ 32 0#32)
  let v6 : IVec S800000 1 := cmpi .slt v3 v5
  let v7 : IVec S800000 32 := broadcastInDim S800000 ![] bcast_S_S800000 (constantI S_ 32 50000#32)
  let v8 : IVec S800000 32 := addi v3 v7
  let v9 : IVec S800000 32 := select v6 v8 v3
  let v10 : IVec S800000x1 32 := broadcastInDim S800000x1 ![0] bcast_S800000_S800000x1_0 v9
  let v11 : Vec Ideal S800000x256 .f32 := Host.gather gather_S50000x256_S800000x1_S800000x256_1_0_n_n_0_1_1256 x v10
  let v12 : Vec Ideal S800000x256 .f32 := broadcastInDim S800000x256 ![0, 1] bcast_S800000x1_S800000x256_0_1 v4
  let v13 : Vec Ideal S800000x256 .f32 := mulf (F := Ideal) (φ := .f32) v12 v11
  let v14 : Vec Ideal S50000x256 .f32 := broadcastInDim S50000x256 ![] bcast_S_S50000x256 (constant (F := Ideal) S_ .f32 0x00000000#32)
  let v15 : IVec S800000x1 32 := broadcastInDim S800000x1 ![0] bcast_S800000_S800000x1_0 v1
  Host.scatterAdd (F := Ideal) (φ := .f32) scatter_S50000x256_S800000x1_S800000x256_1_0_0_1 v14 v15 v13

end Agg

end Cert.Result

end
-- ==== Proof.KPayload.lean ====
/-
  The kernel bodies' arithmetic at one entry, over the extended reals. Each payload of the two bodies is read at an index of
  its result: the first layer's tile entry as a 256-term product sum plus the bias; the running column sums and sums of
  squares as what was carried plus a 2000-term sum down the tile's rows; the mean and variance rows as quotients by the
  row count; the second region's tile entry as a 512-term product sum of the normalised, scaled, shifted and clamped
  activations plus the bias. The layout steps in between (a row broadcast down the rows, a vector viewed as a row, a
  sum down one axis, a plain matrix product into the zero block) are read first, over literal shapes.
-/
import proofs.«133134_j51762945852037_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

set_option maxRecDepth 16384

noncomputable section

open scoped BigOperators

namespace Cert.KernelIdeal.Hand

open Cert.KernelIdeal Cert.KernelIdeal.Gen
open Idealize.ShloMosaic Idealize.ShloMosaic.ValueIdx

/-- A 1 × 512 row broadcast down 2000 rows reads the row's entry of the column. -/
theorem bcastRow_apply (v : Vec Ideal S1x512 .f32) (p : Fin 2000) (q : Fin 512) :
    broadcastTo S2000x512 v broadcasts_S1x512_S2000x512 (ix2 p q) = v (ix2 0 q) := by
  refine broadcastTo_apply v _ (ix2 p q) (ix2 0 q) fun a => ?_
  match a with
  | ⟨0, _⟩ => rfl
  | ⟨1, _⟩ => rfl

/-- A length-512 vector viewed as a 1 × 512 row. -/
theorem castRow_apply (v : Vec Ideal S512 .f32) (q : Fin 512) :
    shapeCast S1x512 v shapeCasts_S512_S1x512 (ix2 0 q) = v (ix1 q) := by
  refine shapeCast_apply v _ (ix2 0 q) (ix1 q) ?_
  rw [Shape.rowMajor_val_one, Shape.rowMajor_val_two]
  show q.val = 0 * 512 + q.val
  omega

/-- The sum down the 2000 rows of a 2000 × 512 block, at a column. -/
theorem laneSum_apply (src : Vec Ideal S2000x512 .f32) (hacc : (0x00000000#32 : BitVec 32) = 0x00000000#32) (q : Fin 512) :
    multiReduction (F := Ideal) .add [0] S512 src 0x00000000#32 reduces_S2000x512_S512 (.inl rfl) hacc (ix1 q)
      = ∑ r : Fin 2000, src (ix2 r q) := by
  refine (Ideal.multiReduction_add_single src 0x00000000#32 reduces_S2000x512_S512 (.inl rfl) hacc (ix1 q)).trans ?_
  refine Finset.sum_congr rfl fun r _ => congrArg src ?_
  funext a
  match a with
  | ⟨0, _⟩ => rfl
  | ⟨1, _⟩ => rfl

/-- A 2000 × K by K × 512 product into the zero block, at an entry. -/
theorem matmul256_apply (A : Vec Ideal S2000x256 .bf16) (B : Vec Ideal S256x512 .bf16) (p : Fin 2000) (q : Fin 512) :
    matmul (F := Ideal) (φ₁ := .bf16) (φ₂ := .bf16) dot_S2000x256_S256x512_S2000x512_1_0_0_1_n_n none A B (constant (F := Ideal) S2000x512 .f32 0x00000000#32) (ix2 p q)
      = ∑ k : Fin 256, A (ix2 p k) * B (ix2 k q) := by
  refine (Ideal.matmul_constant_zero_apply (φ₁ := .bf16) (φ₂ := .bf16) dot_S2000x256_S256x512_S2000x512_1_0_0_1_n_n none A B (ix2 p q)).trans ?_
  refine (Ideal.dotGeneral_apply (φ₁ := .bf16) (φ₂ := .bf16) (DotDims.plain 2000 256 512) none .single A B (ix2 p q)).symm.trans ?_
  exact StackMember.dotGeneral_plain_apply (φ₁ := .bf16) (φ₂ := .bf16) none A B p q

/-- The second region's product, 2000 × 512 by 512 × 512. -/
theorem matmul512_apply (A : Vec Ideal S2000x512 .bf16) (B : Vec Ideal S512x512 .bf16) (p : Fin 2000) (q : Fin 512) :
    matmul (F := Ideal) (φ₁ := .bf16) (φ₂ := .bf16) dot_S2000x512_S512x512_S2000x512_1_0_0_1_n_n none A B (constant (F := Ideal) S2000x512 .f32 0x00000000#32) (ix2 p q)
      = ∑ k : Fin 512, A (ix2 p k) * B (ix2 k q) := by
  refine (Ideal.matmul_constant_zero_apply (φ₁ := .bf16) (φ₂ := .bf16) dot_S2000x512_S512x512_S2000x512_1_0_0_1_n_n none A B (ix2 p q)).trans ?_
  refine (Ideal.dotGeneral_apply (φ₁ := .bf16) (φ₂ := .bf16) (DotDims.plain 2000 512 512) none .single A B (ix2 p q)).symm.trans ?_
  exact StackMember.dotGeneral_plain_apply (φ₁ := .bf16) (φ₂ := .bf16) none A B p q

/-! ## The payloads at an entry -/

/-- The first layer on a tile: entry (p, q) of the h1 block. -/
theorem pay6_apply (x a : Vec Ideal S2000x256 .f32) (w : Vec Ideal S256x512 .bf16) (b : Vec Ideal S1x512 .f32) (p : Fin 2000) (q : Fin 512) :
    k0_pay6 (F := Ideal) x a w b (ix2 p q)
      = (∑ k : Fin 256, (Ideal.ofBits .f32 0x3F800000#32 * x (ix2 p k) + a (ix2 p k)) * w (ix2 k q)) + b (ix2 0 q) := by
  unfold k0_pay6
  try dsimp only
  rw [shapeCast_self, shapeCast_self, shapeCast_self]
  refine (addf_apply _ _ (ix2 p q)).trans ?_
  refine congrArg₂ (· + ·) ?_ (bcastRow_apply b p q)
  refine (matmul256_apply _ w p q).trans ?_
  rfl

/-- The running column sums after a tile: what was there plus the tile's column sums of h1. -/
theorem pay7_apply (x a : Vec Ideal S2000x256 .f32) (w : Vec Ideal S256x512 .bf16) (b s : Vec Ideal S1x512 .f32) (q : Fin 512) :
    k0_pay7 (F := Ideal) x a w b s (ix2 0 q) = s (ix2 0 q) + ∑ r : Fin 2000, k0_pay6 (F := Ideal) x a w b (ix2 r q) := by
  unfold k0_pay7
  try dsimp only
  rw [shapeCast_self]
  refine (addf_apply _ _ (ix2 0 q)).trans ?_
  refine congrArg (s (ix2 0 q) + ·) ?_
  refine (castRow_apply _ q).trans ?_
  exact laneSum_apply _ rfl q

/-- The running column sums of squares after a tile. -/
theorem pay8_apply (x a : Vec Ideal S2000x256 .f32) (w : Vec Ideal S256x512 .bf16) (b s : Vec Ideal S1x512 .f32) (q : Fin 512) :
    k0_pay8 (F := Ideal) x a w b s (ix2 0 q)
      = s (ix2 0 q) + ∑ r : Fin 2000, k0_pay6 (F := Ideal) x a w b (ix2 r q) * k0_pay6 (F := Ideal) x a w b (ix2 r q) := by
  unfold k0_pay8
  try dsimp only
  refine (addf_apply _ _ (ix2 0 q)).trans ?_
  refine congrArg (s (ix2 0 q) + ·) ?_
  refine (castRow_apply _ q).trans ?_
  refine (laneSum_apply _ rfl q).trans ?_
  rfl

theorem pay1_eq (v : Vec Ideal S1x512 .f32) : k0_pay1 (F := Ideal) v = v := by
  unfold k0_pay1
  try dsimp only
  rw [shapeCast_self]

/-- The two reset rows are zero. -/
theorem pay4_apply (q : Fin 512) : k0_pay4 (F := Ideal) (ix2 0 q) = 0 := by
  unfold k0_pay4
  try dsimp only
  rw [shapeCast_self]
  exact Ideal.ofBits_zero_f32
theorem pay5_apply (q : Fin 512) : k0_pay5 (F := Ideal) (ix2 0 q) = 0 := by
  unfold k0_pay5
  try dsimp only
  rw [shapeCast_self]
  exact Ideal.ofBits_zero_f32

/-- The mean row: the column sum over the row count. -/
theorem pay2_apply (s : Vec Ideal S1x512 .f32) (q : Fin 512) :
    k0_pay2 (F := Ideal) s (ix2 0 q) = Ideal.div (s (ix2 0 q)) (Ideal.ofBits .f32 0x47435000#32) := by
  unfold k0_pay2
  rfl

/-- The variance row: the mean of squares minus the squared mean. -/
theorem pay3_apply (s sq : Vec Ideal S1x512 .f32) (q : Fin 512) :
    k0_pay3 (F := Ideal) s sq (ix2 0 q)
      = Ideal.div (sq (ix2 0 q)) (Ideal.ofBits .f32 0x47435000#32) - k0_pay2 (F := Ideal) s (ix2 0 q) * k0_pay2 (F := Ideal) s (ix2 0 q) := by
  unfold k0_pay3
  rfl

/-- The second region's tile: normalise, scale, shift, clamp, multiply by W2, add b2. -/
theorem k1pay_apply (h : Vec Ideal S2000x512 .f32) (var mean gamma beta : Vec Ideal S1x512 .f32) (w2 : Vec Ideal S512x512 .bf16)
    (b2 : Vec Ideal S1x512 .f32) (p : Fin 2000) (q : Fin 512) :
    k1_pay1 (F := Ideal) h var mean gamma beta w2 b2 (ix2 p q)
      = (∑ k : Fin 512, max (((h (ix2 p k) - mean (ix2 0 k)) * Ideal.rsqrt (var (ix2 0 k) + Ideal.ofBits .f32 0x3727C5AC#32)) * gamma (ix2 0 k)
            + beta (ix2 0 k)) (Ideal.ofBits .f32 0x00000000#32) * w2 (ix2 k q)) + b2 (ix2 0 q) := by
  unfold k1_pay1
  try dsimp only
  simp only [shapeCast_self]
  refine (addf_apply _ _ (ix2 p q)).trans ?_
  refine congrArg₂ (· + ·) ?_ (bcastRow_apply b2 p q)
  refine (matmul512_apply _ w2 p q).trans ?_
  refine Finset.sum_congr rfl fun k _ => congrArg (· * w2 (ix2 k q)) ?_
  show max ((h (ix2 p k) - broadcastTo S2000x512 mean broadcasts_S1x512_S2000x512 (ix2 p k))
        * broadcastTo S2000x512 (rsqrt (F := Ideal) (φ := .f32) (addf (F := Ideal) (φ := .f32) var (broadcast S1x512 (Scalar.ofBits .f32 0x3727C5AC#32 : Ideal .f32)))) broadcasts_S1x512_S2000x512 (ix2 p k)
        * broadcastTo S2000x512 gamma broadcasts_S1x512_S2000x512 (ix2 p k)
        + broadcastTo S2000x512 beta broadcasts_S1x512_S2000x512 (ix2 p k)) (Ideal.ofBits .f32 0x00000000#32) = _
  rw [bcastRow_apply, bcastRow_apply, bcastRow_apply, bcastRow_apply]
  rfl

end Cert.KernelIdeal.Hand
end
-- ==== Proof.KPrefix.lean ====
/-
  What the host prefix leaves in the buffers the two regions read: the first-layer and second-layer weights re-formatted
  (the identity on extended reals), the four length-512 rows viewed as 1 × 512, and the features untouched.
-/
import proofs.«133134_j51762945852037_1_alg».proof.Proof.Launch
import proofs.«133134_j51762945852037_1_alg».proof.Proof.Result
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StackMember

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## The other buffers the prefix writes: the two weight matrices re-formatted, the four rows reshaped -/

theorem E1_v17 (c : Dev nD) :
    E1 (F := Ideal) m c main_v17
      = (truncf (F := Ideal) .bf16 (m ((c.tc : Thread nD τ).loc main_arg3) : Vec Ideal S256x512 .f32) bitsLt_bf16_f32 : Vec Ideal S256x512 .bf16) := by
  show StableHlo.after hostOps0 _ (Proc.devRef .tc main_v17) = _
  after_results_simp
  all_goals rfl

theorem E1_v18 (c : Dev nD) :
    E1 (F := Ideal) m c main_v18
      = (truncf (F := Ideal) .bf16 (m ((c.tc : Thread nD τ).loc main_arg7) : Vec Ideal S512x512 .f32) bitsLt_bf16_f32 : Vec Ideal S512x512 .bf16) := by
  show StableHlo.after hostOps0 _ (Proc.devRef .tc main_v18) = _
  after_results_simp
  all_goals rfl

theorem E1_v19 (c : Dev nD) :
    E1 (F := Ideal) m c main_v19
      = (shapeCast S1x512 (m ((c.tc : Thread nD τ).loc main_arg4) : Vec Ideal S512 .f32) shapeCasts_S512_S1x512 : Vec Ideal S1x512 .f32) := by
  show StableHlo.after hostOps0 _ (Proc.devRef .tc main_v19) = _
  after_results_simp
  all_goals rfl

theorem E1_v20 (c : Dev nD) :
    E1 (F := Ideal) m c main_v20
      = (shapeCast S1x512 (m ((c.tc : Thread nD τ).loc main_arg5) : Vec Ideal S512 .f32) shapeCasts_S512_S1x512 : Vec Ideal S1x512 .f32) := by
  show StableHlo.after hostOps0 _ (Proc.devRef .tc main_v20) = _
  after_results_simp
  all_goals rfl

theorem E1_v21 (c : Dev nD) :
    E1 (F := Ideal) m c main_v21
      = (shapeCast S1x512 (m ((c.tc : Thread nD τ).loc main_arg6) : Vec Ideal S512 .f32) shapeCasts_S512_S1x512 : Vec Ideal S1x512 .f32) := by
  show StableHlo.after hostOps0 _ (Proc.devRef .tc main_v21) = _
  after_results_simp
  all_goals rfl

theorem E1_v22 (c : Dev nD) :
    E1 (F := Ideal) m c main_v22
      = (shapeCast S1x512 (m ((c.tc : Thread nD τ).loc main_arg8) : Vec Ideal S512 .f32) shapeCasts_S512_S1x512 : Vec Ideal S1x512 .f32) := by
  show StableHlo.after hostOps0 _ (Proc.devRef .tc main_v22) = _
  after_results_simp
  all_goals rfl

/-- The features are written by no host operation. -/
theorem E1_arg0 (c : Dev nD) : E1 (F := Ideal) m c main_arg0 = m ((c.tc : Thread nD τ).loc main_arg0) :=
  V1_of m c main_arg0 (by decide)

end Cert.KernelIdeal.Hand
end
-- ==== Proof.KBlocks.lean ====
/-
  Each window's block at a tile, read off its array: the row-tiled windows (features, agg and h1 in, 2000 rows a tile) read
  rows 2000 t … 2000 t + 1999; every other window's block is its whole array at every tile.
-/
import proofs.«133134_j51762945852037_1_alg».proof.Proof.Launch
import proofs.«133134_j51762945852037_1_alg».proof.Proof.Result
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StackMember

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- Region 0, window 0: the block at tile t is rows 2000 t … 2000 t + 1999 of its array. -/
theorem iblk0_0_apply (c : Dev nD) (t : Fin cfg0.N) (p : Fin 2000) (q : Fin 256) (r : Fin 50000) (hr : r.val = 2000 * t.val + p.val) :
    (iblk0 V c 0 t : Vec Ideal S2000x256 .f32) (ix2 p q) = (V c main_arg0 : Vec Ideal S50000x256 .f32) (ix2 r q) := by
  have h0 : win0_0.index t 0 = t.val := (by decide +kernel : ∀ t : Fin grid0.N, win0_0.index t 0 = t.val) t
  have h1 : win0_0.index t 1 = 0 := (by decide +kernel : ∀ t : Fin grid0.N, win0_0.index t 1 = 0) t
  unfold iblk0
  rw [View.read_apply]
  show V c main_arg0 _ = V c main_arg0 _
  congr 1
  funext a
  apply Fin.ext
  match a with
  | ⟨0, _⟩ => show win0_0.index t 0 * 2000 + 1 * p.val = r.val; rw [h0, hr]; omega
  | ⟨1, _⟩ => show win0_0.index t 1 * 256 + 1 * q.val = q.val; rw [h1]; omega

/-- Region 0, window 1: the block at tile t is rows 2000 t … 2000 t + 1999 of its array. -/
theorem iblk0_1_apply (c : Dev nD) (t : Fin cfg0.N) (p : Fin 2000) (q : Fin 256) (r : Fin 50000) (hr : r.val = 2000 * t.val + p.val) :
    (iblk0 V c 1 t : Vec Ideal S2000x256 .f32) (ix2 p q) = (V c main_v16 : Vec Ideal S50000x256 .f32) (ix2 r q) := by
  have h0 : win0_1.index t 0 = t.val := (by decide +kernel : ∀ t : Fin grid0.N, win0_1.index t 0 = t.val) t
  have h1 : win0_1.index t 1 = 0 := (by decide +kernel : ∀ t : Fin grid0.N, win0_1.index t 1 = 0) t
  unfold iblk0
  rw [View.read_apply]
  show V c main_v16 _ = V c main_v16 _
  congr 1
  funext a
  apply Fin.ext
  match a with
  | ⟨0, _⟩ => show win0_1.index t 0 * 2000 + 1 * p.val = r.val; rw [h0, hr]; omega
  | ⟨1, _⟩ => show win0_1.index t 1 * 256 + 1 * q.val = q.val; rw [h1]; omega

/-- Region 0, window 2: the block is the whole array at every tile. -/
theorem iblk0_2_eq (c : Dev nD) (t : Fin cfg0.N) :
    (iblk0 V c 2 t : Vec Ideal S256x512 .bf16) = (V c main_v17 : Vec Ideal S256x512 .bf16) := by
  have h0 : win0_2.index t 0 = 0 := (by decide +kernel : ∀ t : Fin grid0.N, win0_2.index t 0 = 0) t
  have h1 : win0_2.index t 1 = 0 := (by decide +kernel : ∀ t : Fin grid0.N, win0_2.index t 1 = 0) t
  funext j
  unfold iblk0
  rw [View.read_apply]
  show V c main_v17 _ = V c main_v17 _
  congr 1
  funext a
  apply Fin.ext
  match a with
  | ⟨0, _⟩ => show win0_2.index t 0 * 256 + 1 * (j 0).val = (j 0).val; rw [h0]; omega
  | ⟨1, _⟩ => show win0_2.index t 1 * 512 + 1 * (j 1).val = (j 1).val; rw [h1]; omega

/-- Region 0, window 3: the block is the whole array at every tile. -/
theorem iblk0_3_eq (c : Dev nD) (t : Fin cfg0.N) :
    (iblk0 V c 3 t : Vec Ideal S1x512 .f32) = (V c main_v19 : Vec Ideal S1x512 .f32) := by
  have h0 : win0_3.index t 0 = 0 := (by decide +kernel : ∀ t : Fin grid0.N, win0_3.index t 0 = 0) t
  have h1 : win0_3.index t 1 = 0 := (by decide +kernel : ∀ t : Fin grid0.N, win0_3.index t 1 = 0) t
  funext j
  unfold iblk0
  rw [View.read_apply]
  show V c main_v19 _ = V c main_v19 _
  congr 1
  funext a
  apply Fin.ext
  match a with
  | ⟨0, _⟩ => show win0_3.index t 0 * 1 + 1 * (j 0).val = (j 0).val; rw [h0]; omega
  | ⟨1, _⟩ => show win0_3.index t 1 * 512 + 1 * (j 1).val = (j 1).val; rw [h1]; omega

/-- Region 1, window 0: the block at tile t is rows 2000 t … 2000 t + 1999 of its array. -/
theorem iblk1_0_apply (c : Dev nD) (t : Fin cfg1.N) (p : Fin 2000) (q : Fin 512) (r : Fin 50000) (hr : r.val = 2000 * t.val + p.val) :
    (iblk1 V c 0 t : Vec Ideal S2000x512 .f32) (ix2 p q) = (V c main_v23_0 : Vec Ideal S50000x512 .f32) (ix2 r q) := by
  have h0 : win1_0.index t 0 = t.val := (by decide +kernel : ∀ t : Fin grid1.N, win1_0.index t 0 = t.val) t
  have h1 : win1_0.index t 1 = 0 := (by decide +kernel : ∀ t : Fin grid1.N, win1_0.index t 1 = 0) t
  unfold iblk1
  rw [View.read_apply]
  show V c main_v23_0 _ = V c main_v23_0 _
  congr 1
  funext a
  apply Fin.ext
  match a with
  | ⟨0, _⟩ => show win1_0.index t 0 * 2000 + 1 * p.val = r.val; rw [h0, hr]; omega
  | ⟨1, _⟩ => show win1_0.index t 1 * 512 + 1 * q.val = q.val; rw [h1]; omega

/-- Region 1, window 1: the block is the whole array at every tile. -/
theorem iblk1_1_eq (c : Dev nD) (t : Fin cfg1.N) :
    (iblk1 V c 1 t : Vec Ideal S1x512 .f32) = (V c main_v23_1 : Vec Ideal S1x512 .f32) := by
  have h0 : win1_1.index t 0 = 0 := (by decide +kernel : ∀ t : Fin grid1.N, win1_1.index t 0 = 0) t
  have h1 : win1_1.index t 1 = 0 := (by decide +kernel : ∀ t : Fin grid1.N, win1_1.index t 1 = 0) t
  funext j
  unfold iblk1
  rw [View.read_apply]
  show V c main_v23_1 _ = V c main_v23_1 _
  congr 1
  funext a
  apply Fin.ext
  match a with
  | ⟨0, _⟩ => show win1_1.index t 0 * 1 + 1 * (j 0).val = (j 0).val; rw [h0]; omega
  | ⟨1, _⟩ => show win1_1.index t 1 * 512 + 1 * (j 1).val = (j 1).val; rw [h1]; omega

/-- Region 1, window 2: the block is the whole array at every tile. -/
theorem iblk1_2_eq (c : Dev nD) (t : Fin cfg1.N) :
    (iblk1 V c 2 t : Vec Ideal S1x512 .f32) = (V c main_v23_2 : Vec Ideal S1x512 .f32) := by
  have h0 : win1_2.index t 0 = 0 := (by decide +kernel : ∀ t : Fin grid1.N, win1_2.index t 0 = 0) t
  have h1 : win1_2.index t 1 = 0 := (by decide +kernel : ∀ t : Fin grid1.N, win1_2.index t 1 = 0) t
  funext j
  unfold iblk1
  rw [View.read_apply]
  show V c main_v23_2 _ = V c main_v23_2 _
  congr 1
  funext a
  apply Fin.ext
  match a with
  | ⟨0, _⟩ => show win1_2.index t 0 * 1 + 1 * (j 0).val = (j 0).val; rw [h0]; omega
  | ⟨1, _⟩ => show win1_2.index t 1 * 512 + 1 * (j 1).val = (j 1).val; rw [h1]; omega

/-- Region 1, window 3: the block is the whole array at every tile. -/
theorem iblk1_3_eq (c : Dev nD) (t : Fin cfg1.N) :
    (iblk1 V c 3 t : Vec Ideal S1x512 .f32) = (V c main_v20 : Vec Ideal S1x512 .f32) := by
  have h0 : win1_3.index t 0 = 0 := (by decide +kernel : ∀ t : Fin grid1.N, win1_3.index t 0 = 0) t
  have h1 : win1_3.index t 1 = 0 := (by decide +kernel : ∀ t : Fin grid1.N, win1_3.index t 1 = 0) t
  funext j
  unfold iblk1
  rw [View.read_apply]
  show V c main_v20 _ = V c main_v20 _
  congr 1
  funext a
  apply Fin.ext
  match a with
  | ⟨0, _⟩ => show win1_3.index t 0 * 1 + 1 * (j 0).val = (j 0).val; rw [h0]; omega
  | ⟨1, _⟩ => show win1_3.index t 1 * 512 + 1 * (j 1).val = (j 1).val; rw [h1]; omega

/-- Region 1, window 4: the block is the whole array at every tile. -/
theorem iblk1_4_eq (c : Dev nD) (t : Fin cfg1.N) :
    (iblk1 V c 4 t : Vec Ideal S1x512 .f32) = (V c main_v21 : Vec Ideal S1x512 .f32) := by
  have h0 : win1_4.index t 0 = 0 := (by decide +kernel : ∀ t : Fin grid1.N, win1_4.index t 0 = 0) t
  have h1 : win1_4.index t 1 = 0 := (by decide +kernel : ∀ t : Fin grid1.N, win1_4.index t 1 = 0) t
  funext j
  unfold iblk1
  rw [View.read_apply]
  show V c main_v21 _ = V c main_v21 _
  congr 1
  funext a
  apply Fin.ext
  match a with
  | ⟨0, _⟩ => show win1_4.index t 0 * 1 + 1 * (j 0).val = (j 0).val; rw [h0]; omega
  | ⟨1, _⟩ => show win1_4.index t 1 * 512 + 1 * (j 1).val = (j 1).val; rw [h1]; omega

/-- Region 1, window 5: the block is the whole array at every tile. -/
theorem iblk1_5_eq (c : Dev nD) (t : Fin cfg1.N) :
    (iblk1 V c 5 t : Vec Ideal S512x512 .bf16) = (V c main_v18 : Vec Ideal S512x512 .bf16) := by
  have h0 : win1_5.index t 0 = 0 := (by decide +kernel : ∀ t : Fin grid1.N, win1_5.index t 0 = 0) t
  have h1 : win1_5.index t 1 = 0 := (by decide +kernel : ∀ t : Fin grid1.N, win1_5.index t 1 = 0) t
  funext j
  unfold iblk1
  rw [View.read_apply]
  show V c main_v18 _ = V c main_v18 _
  congr 1
  funext a
  apply Fin.ext
  match a with
  | ⟨0, _⟩ => show win1_5.index t 0 * 512 + 1 * (j 0).val = (j 0).val; rw [h0]; omega
  | ⟨1, _⟩ => show win1_5.index t 1 * 512 + 1 * (j 1).val = (j 1).val; rw [h1]; omega

/-- Region 1, window 6: the block is the whole array at every tile. -/
theorem iblk1_6_eq (c : Dev nD) (t : Fin cfg1.N) :
    (iblk1 V c 6 t : Vec Ideal S1x512 .f32) = (V c main_v22 : Vec Ideal S1x512 .f32) := by
  have h0 : win1_6.index t 0 = 0 := (by decide +kernel : ∀ t : Fin grid1.N, win1_6.index t 0 = 0) t
  have h1 : win1_6.index t 1 = 0 := (by decide +kernel : ∀ t : Fin grid1.N, win1_6.index t 1 = 0) t
  funext j
  unfold iblk1
  rw [View.read_apply]
  show V c main_v22 _ = V c main_v22 _
  congr 1
  funext a
  apply Fin.ext
  match a with
  | ⟨0, _⟩ => show win1_6.index t 0 * 1 + 1 * (j 0).val = (j 0).val; rw [h0]; omega
  | ⟨1, _⟩ => show win1_6.index t 1 * 512 + 1 * (j 1).val = (j 1).val; rw [h1]; omega

end Cert.KernelIdeal.Hand
end
-- ==== Proof.KRegion0.lean ====
/-
  The first region's three output arrays, read back through the write-backs. Entry (p, q) of tile t's h1 block is h1 at
  row 2000 t + p, and the 25 tiles' blocks cover the 50000 rows, so the h1 array ends holding h1. The two carried rows are
  partial sums over the tiles: after tile n the sum row holds the sum of h1 over rows 0 … 2000 (n + 1) − 1 and the row of
  squares the sum of h1², by induction on the tile from the zero rows; after the last tile these are the column sums over
  all 50000 rows, so the stored mean row is the batch mean and the stored variance row is the mean of squares minus the
  squared mean. Each is written back once, at the last tile, as a whole 1 × 512 block.
-/
import proofs.«133134_j51762945852037_1_alg».proof.Proof.Launch
import proofs.«133134_j51762945852037_1_alg».proof.Proof.Result
import proofs.«133134_j51762945852037_1_alg».proof.Proof.KPayload
import proofs.«133134_j51762945852037_1_alg».proof.Proof.KPrefix
import proofs.«133134_j51762945852037_1_alg».proof.Proof.KBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The first region's three arrays -/

/-- h1 as the first region's input arrays give it: features, agg, the re-formatted weights, the bias row. -/
def h1Of (c : Dev nD) : Fin 50000 → Fin 512 → EReal :=
  Cert.Spec.h1 (Cert.Result.at2 (V c main_arg0 : Vec Ideal S50000x256 .f32)) (Cert.Result.at2 (V c main_v16 : Vec Ideal S50000x256 .f32))
    (Cert.Result.at2 (V c main_v17 : Vec Ideal S256x512 .bf16)) (fun j => (V c main_v19 : Vec Ideal S1x512 .f32) (ix2 0 j))

/-- The same as a 50000 × 512 array. -/
def h1Arr (c : Dev nD) : Vec Ideal S50000x512 .f32 := fun i => h1Of V c (i 0) (i 1)

/-- Entry (p, q) of tile t's h1 block is h1 at row 2000 t + p. -/
theorem tileH_apply (c : Dev nD) (t : Fin cfg0.N) (p : Fin 2000) (q : Fin 512) (r : Fin 50000) (hr : r.val = 2000 * t.val + p.val) :
    tileH V c t (ix2 p q) = h1Of V c r q := by
  unfold tileH
  refine (pay6_apply (iblk0 V c 0 t) (iblk0 V c 1 t) (iblk0 V c 2 t) (iblk0 V c 3 t) p q).trans ?_
  unfold h1Of Cert.Spec.h1
  refine congrArg₂ (· + ·) (Finset.sum_congr rfl fun k _ => ?_) ?_
  · rw [iblk0_0_apply V c t p k r hr, iblk0_1_apply V c t p k r hr, iblk0_2_eq V c t]
  · rw [iblk0_3_eq V c t]

/-- Tile t's h1 block is the block of the h1 array under the output window at t. -/
theorem tileH_read (c : Dev nD) (t : Fin cfg0.N) (y : S2000x512.Idx) :
    tileH V c t y = h1Arr V c (((cfg0.win 4).blk t).view.emb y) := by
  obtain ⟨p, q, rfl⟩ : ∃ (p : Fin 2000) (q : Fin 512), y = ix2 p q := ⟨y 0, y 1, eq_ix2 y⟩
  have h0 : win0_4.index t 0 = t.val := (by decide +kernel : ∀ t : Fin grid0.N, win0_4.index t 0 = t.val) t
  have h1 : win0_4.index t 1 = 0 := (by decide +kernel : ∀ t : Fin grid0.N, win0_4.index t 1 = 0) t
  have e0 : ((((cfg0.win 4).blk t).view.emb (ix2 p q)) 0).val = 2000 * t.val + p.val := by
    show win0_4.index t 0 * 2000 + 1 * p.val = _
    rw [h0]; omega
  have e1 : ((((cfg0.win 4).blk t).view.emb (ix2 p q)) 1).val = q.val := by
    show win0_4.index t 1 * 512 + 1 * q.val = _
    rw [h1]; omega
  refine (tileH_apply V c t p q _ e0).trans ?_
  show h1Of V c _ q = h1Of V c _ _
  congr 1
  exact Fin.ext e1.symm

/-- What each tile writes back to the h1 array is its block of h1. -/
theorem flushed0_4_eq (c : Dev nD) (t : Fin cfg0.N) :
    (dat0 V c).flushed 4 t = ((cfg0.win 4).blk t).view.read (Elt Ideal) (h1Arr V c) := by
  show (dat0 V c).after 4 t = _
  rw [after0_4]
  funext y
  rw [View.read_apply]
  exact tileH_read V c t y

/-- The 25 tiles cover the 50000 rows: row r lies under tile r / 2000. -/
theorem cover0_4 (i : S50000x512.Idx) : ∃ t : Fin cfg0.N, (cfg0.win 4).flush t = true ∧ i ∈ ((cfg0.win 4).blk t).view.set := by
  have hi0 : (i 0).val < 50000 := idx2_lt0 i
  have hi1 : (i 1).val < 512 := idx2_lt1 i
  have hN : cfg0.N = 25 := N_0
  refine ⟨⟨(i 0).val / 2000, by rw [hN]; omega⟩, flush0_4 _, ?_⟩
  set t : Fin cfg0.N := ⟨(i 0).val / 2000, by rw [hN]; omega⟩ with ht
  have h0 : win0_4.index t 0 = t.val := (by decide +kernel : ∀ t : Fin grid0.N, win0_4.index t 0 = t.val) t
  have h1 : win0_4.index t 1 = 0 := (by decide +kernel : ∀ t : Fin grid0.N, win0_4.index t 1 = 0) t
  have hx0 : win0_4.xsize (grid0.coords t) 0 = 2000 := (by decide +kernel : ∀ t : Fin grid0.N, win0_4.xsize (grid0.coords t) 0 = 2000) t
  have hx1 : win0_4.xsize (grid0.coords t) 1 = 512 := (by decide +kernel : ∀ t : Fin grid0.N, win0_4.xsize (grid0.coords t) 1 = 512) t
  show i ∈ ((View.whole main_v23_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [h0, hx0]
    show (i 0).val / 2000 * 2000 ≤ (i 0 : Nat) ∧ (i 0 : Nat) < (i 0).val / 2000 * 2000 + 2000
    omega
  | ⟨1, _⟩ =>
    show win0_4.index t 1 * win0_4.size 1 ≤ (i 1 : Nat) ∧ (i 1 : Nat) < win0_4.index t 1 * win0_4.size 1 + win0_4.xsize (grid0.coords t) 1
    rw [h1, hx1]
    show 0 * 512 ≤ (i 1 : Nat) ∧ (i 1 : Nat) < 0 * 512 + 512
    omega

/-- After the first region the h1 array holds h1. -/
theorem arr0_4 (c : Dev nD) : (dat0 V c).arrAt 4 cfg0.N = h1Arr V c :=
  (dat0 V c).arrAt_eq_of_cover 4 (h1Arr V c) (fun t _ => flushed0_4_eq V c t) cover0_4

/-- Window 5's one block is the whole 1 × 512 row. -/
theorem rowRead0_5 (t : Fin cfg0.N) (G : Vec Ideal S1x512 .f32) :
    ((cfg0.win 5).blk t).view.read (Elt Ideal) G = G := by
  have h0 : win0_5.index t 0 = 0 := (by decide +kernel : ∀ t : Fin grid0.N, win0_5.index t 0 = 0) t
  have h1 : win0_5.index t 1 = 0 := (by decide +kernel : ∀ t : Fin grid0.N, win0_5.index t 1 = 0) t
  funext y
  rw [View.read_apply]
  show G _ = G y
  congr 1
  funext a
  apply Fin.ext
  match a with
  | ⟨0, _⟩ => show win0_5.index t 0 * 1 + 1 * (y 0).val = (y 0).val; rw [h0]; omega
  | ⟨1, _⟩ => show win0_5.index t 1 * 512 + 1 * (y 1).val = (y 1).val; rw [h1]; omega

/-- The last tile's block covers the row. -/
theorem cover0_5 (i : S1x512.Idx) : ∃ t : Fin cfg0.N, (cfg0.win 5).flush t = true ∧ i ∈ ((cfg0.win 5).blk t).view.set := by
  have hi0 : (i 0).val < 1 := idx2_lt0 i
  have hi1 : (i 1).val < 512 := idx2_lt1 i
  refine ⟨⟨24, lastLt⟩, (flush0_5 _).mpr rfl, ?_⟩
  show i ∈ ((View.whole main_v23_1).slice (win0_5.rect ⟨24, lastLt⟩)).set
  rw [View.set_slice_whole, Rect.mem_set_unit]
  intro a
  match a with
  | ⟨0, _⟩ =>
    show win0_5.index ⟨24, lastLt⟩ 0 * win0_5.size 0 ≤ (i 0 : Nat) ∧ (i 0 : Nat) < win0_5.index ⟨24, lastLt⟩ 0 * win0_5.size 0 + win0_5.xsize (grid0.coords ⟨24, lastLt⟩) 0
    rw [show win0_5.index ⟨24, lastLt⟩ 0 * win0_5.size 0 = 0 from by decide +kernel, show win0_5.xsize (grid0.coords ⟨24, lastLt⟩) 0 = 1 from by decide +kernel]
    omega
  | ⟨1, _⟩ =>
    show win0_5.index ⟨24, lastLt⟩ 1 * win0_5.size 1 ≤ (i 1 : Nat) ∧ (i 1 : Nat) < win0_5.index ⟨24, lastLt⟩ 1 * win0_5.size 1 + win0_5.xsize (grid0.coords ⟨24, lastLt⟩) 1
    rw [show win0_5.index ⟨24, lastLt⟩ 1 * win0_5.size 1 = 0 from by decide +kernel, show win0_5.xsize (grid0.coords ⟨24, lastLt⟩) 1 = 512 from by decide +kernel]
    omega

/-- After the first region the mean array holds the row the last tile stored. -/
theorem arr0_5 (c : Dev nD) : (dat0 V c).arrAt 5 cfg0.N = meanRow V c :=
  (dat0 V c).arrAt_eq_of_cover 5 (meanRow V c)
    (fun t _ => by
      show (dat0 V c).after 5 t = _
      rw [after0_5]
      exact (rowRead0_5 t (meanRow V c)).symm)
    cover0_5

/-- Window 6's one block is the whole 1 × 512 row. -/
theorem rowRead0_6 (t : Fin cfg0.N) (G : Vec Ideal S1x512 .f32) :
    ((cfg0.win 6).blk t).view.read (Elt Ideal) G = G := by
  have h0 : win0_6.index t 0 = 0 := (by decide +kernel : ∀ t : Fin grid0.N, win0_6.index t 0 = 0) t
  have h1 : win0_6.index t 1 = 0 := (by decide +kernel : ∀ t : Fin grid0.N, win0_6.index t 1 = 0) t
  funext y
  rw [View.read_apply]
  show G _ = G y
  congr 1
  funext a
  apply Fin.ext
  match a with
  | ⟨0, _⟩ => show win0_6.index t 0 * 1 + 1 * (y 0).val = (y 0).val; rw [h0]; omega
  | ⟨1, _⟩ => show win0_6.index t 1 * 512 + 1 * (y 1).val = (y 1).val; rw [h1]; omega

/-- The last tile's block covers the row. -/
theorem cover0_6 (i : S1x512.Idx) : ∃ t : Fin cfg0.N, (cfg0.win 6).flush t = true ∧ i ∈ ((cfg0.win 6).blk t).view.set := by
  have hi0 : (i 0).val < 1 := idx2_lt0 i
  have hi1 : (i 1).val < 512 := idx2_lt1 i
  refine ⟨⟨24, lastLt⟩, (flush0_6 _).mpr rfl, ?_⟩
  show i ∈ ((View.whole main_v23_2).slice (win0_6.rect ⟨24, lastLt⟩)).set
  rw [View.set_slice_whole, Rect.mem_set_unit]
  intro a
  match a with
  | ⟨0, _⟩ =>
    show win0_6.index ⟨24, lastLt⟩ 0 * win0_6.size 0 ≤ (i 0 : Nat) ∧ (i 0 : Nat) < win0_6.index ⟨24, lastLt⟩ 0 * win0_6.size 0 + win0_6.xsize (grid0.coords ⟨24, lastLt⟩) 0
    rw [show win0_6.index ⟨24, lastLt⟩ 0 * win0_6.size 0 = 0 from by decide +kernel, show win0_6.xsize (grid0.coords ⟨24, lastLt⟩) 0 = 1 from by decide +kernel]
    omega
  | ⟨1, _⟩ =>
    show win0_6.index ⟨24, lastLt⟩ 1 * win0_6.size 1 ≤ (i 1 : Nat) ∧ (i 1 : Nat) < win0_6.index ⟨24, lastLt⟩ 1 * win0_6.size 1 + win0_6.xsize (grid0.coords ⟨24, lastLt⟩) 1
    rw [show win0_6.index ⟨24, lastLt⟩ 1 * win0_6.size 1 = 0 from by decide +kernel, show win0_6.xsize (grid0.coords ⟨24, lastLt⟩) 1 = 512 from by decide +kernel]
    omega

/-- After the first region the var array holds the row the last tile stored. -/
theorem arr0_6 (c : Dev nD) : (dat0 V c).arrAt 6 cfg0.N = varRow V c :=
  (dat0 V c).arrAt_eq_of_cover 6 (varRow V c)
    (fun t _ => by
      show (dat0 V c).after 6 t = _
      rw [after0_6]
      exact (rowRead0_6 t (varRow V c)).symm)
    cover0_6

/-! ## The running rows are partial sums over the tiles -/

/-- The sum of a column function over the 2000 rows of tile t (zero past the last row, which no tile reaches). -/
def tileSum (f : Fin 50000 → EReal) (t : ℕ) : EReal :=
  ∑ p : Fin 2000, if h : 2000 * t + p.val < 50000 then f ⟨2000 * t + p.val, h⟩ else 0

/-- The 25 tile sums add up to the sum over all 50000 rows. -/
theorem tileSum_total (f : Fin 50000 → EReal) : ∑ t ∈ Finset.range (24 + 1), tileSum f t = ∑ r, f r := by
  rw [Cert.Spec.sum_rows_tiles f, ← Fin.sum_univ_eq_sum_range (fun t => tileSum f t) (24 + 1)]
  unfold tileSum
  refine Finset.sum_congr rfl fun t _ => Finset.sum_congr rfl fun p _ => ?_
  exact dif_pos _

/-- A tile's column sum of h1 is the tile sum of the h1 column. -/
theorem tile_colSum (c : Dev nD) (t : Fin cfg0.N) (q : Fin 512) :
    ∑ p : Fin 2000, tileH V c t (ix2 p q) = tileSum (fun r => h1Of V c r q) t.val := by
  have hN : cfg0.N = 25 := N_0
  have ht : t.val < 25 := hN ▸ t.isLt
  unfold tileSum
  refine Finset.sum_congr rfl fun p _ => ?_
  have hp : 2000 * t.val + p.val < 50000 := by omega
  rw [dif_pos hp]
  exact tileH_apply V c t p q ⟨_, hp⟩ rfl

/-- Likewise for the squares. -/
theorem tile_colSq (c : Dev nD) (t : Fin cfg0.N) (q : Fin 512) :
    ∑ p : Fin 2000, tileH V c t (ix2 p q) * tileH V c t (ix2 p q) = tileSum (fun r => h1Of V c r q * h1Of V c r q) t.val := by
  have hN : cfg0.N = 25 := N_0
  have ht : t.val < 25 := hN ▸ t.isLt
  unfold tileSum
  refine Finset.sum_congr rfl fun p _ => ?_
  have hp : 2000 * t.val + p.val < 50000 := by omega
  rw [dif_pos hp, tileH_apply V c t p q ⟨_, hp⟩ rfl]

/-- After tile n the carried sum row holds the tile sums of h1 up to n. -/
theorem sumAt_apply (c : Dev nD) (q : Fin 512) : ∀ (n : ℕ) (h : n < cfg0.N),
    sumAt V c n h (ix2 0 q) = ∑ t ∈ Finset.range (n + 1), tileSum (fun r => h1Of V c r q) t
  | 0, h => by
    rw [sumAt]
    refine (pay7_apply (iblk0 V c 0 ⟨0, h⟩) (iblk0 V c 1 ⟨0, h⟩) (iblk0 V c 2 ⟨0, h⟩) (iblk0 V c 3 ⟨0, h⟩) (k0_pay4 (F := Ideal)) q).trans ?_
    rw [pay4_apply, zero_add, Finset.sum_range_one]
    exact tile_colSum V c ⟨0, h⟩ q
  | n + 1, h => by
    rw [sumAt]
    refine (pay7_apply (iblk0 V c 0 ⟨n + 1, h⟩) (iblk0 V c 1 ⟨n + 1, h⟩) (iblk0 V c 2 ⟨n + 1, h⟩) (iblk0 V c 3 ⟨n + 1, h⟩)
      (sumAt V c n (Nat.lt_of_succ_lt h)) q).trans ?_
    rw [sumAt_apply c q n (Nat.lt_of_succ_lt h), Finset.sum_range_succ _ (n + 1)]
    exact congrArg _ (tile_colSum V c ⟨n + 1, h⟩ q)

/-- After tile n the carried row of squares holds the tile sums of h1² up to n. -/
theorem sqAt_apply (c : Dev nD) (q : Fin 512) : ∀ (n : ℕ) (h : n < cfg0.N),
    sqAt V c n h (ix2 0 q) = ∑ t ∈ Finset.range (n + 1), tileSum (fun r => h1Of V c r q * h1Of V c r q) t
  | 0, h => by
    rw [sqAt, pay1_eq]
    refine (pay8_apply (iblk0 V c 0 ⟨0, h⟩) (iblk0 V c 1 ⟨0, h⟩) (iblk0 V c 2 ⟨0, h⟩) (iblk0 V c 3 ⟨0, h⟩) (k0_pay5 (F := Ideal)) q).trans ?_
    rw [pay5_apply, zero_add, Finset.sum_range_one]
    exact tile_colSq V c ⟨0, h⟩ q
  | n + 1, h => by
    rw [sqAt, pay1_eq]
    refine (pay8_apply (iblk0 V c 0 ⟨n + 1, h⟩) (iblk0 V c 1 ⟨n + 1, h⟩) (iblk0 V c 2 ⟨n + 1, h⟩) (iblk0 V c 3 ⟨n + 1, h⟩)
      (sqAt V c n (Nat.lt_of_succ_lt h)) q).trans ?_
    rw [sqAt_apply c q n (Nat.lt_of_succ_lt h), Finset.sum_range_succ _ (n + 1)]
    exact congrArg _ (tile_colSq V c ⟨n + 1, h⟩ q)

/-- The batch mean and variance as the first region's input arrays give them. -/
def meanOf (c : Dev nD) : Fin 512 → EReal :=
  Cert.Spec.mean (Cert.Result.at2 (V c main_arg0 : Vec Ideal S50000x256 .f32)) (Cert.Result.at2 (V c main_v16 : Vec Ideal S50000x256 .f32))
    (Cert.Result.at2 (V c main_v17 : Vec Ideal S256x512 .bf16)) (fun j => (V c main_v19 : Vec Ideal S1x512 .f32) (ix2 0 j))
def varOf (c : Dev nD) : Fin 512 → EReal :=
  Cert.Spec.varK (Cert.Result.at2 (V c main_arg0 : Vec Ideal S50000x256 .f32)) (Cert.Result.at2 (V c main_v16 : Vec Ideal S50000x256 .f32))
    (Cert.Result.at2 (V c main_v17 : Vec Ideal S256x512 .bf16)) (fun j => (V c main_v19 : Vec Ideal S1x512 .f32) (ix2 0 j))

/-- The stored mean row is the batch mean. -/
theorem meanRow_apply (c : Dev nD) (q : Fin 512) : meanRow V c (ix2 0 q) = meanOf V c q := by
  unfold meanRow
  refine (pay2_apply _ q).trans ?_
  rw [sumAt_apply V c q 24 lastLt, tileSum_total]
  rfl

/-- The stored variance row is the mean of squares minus the squared mean. -/
theorem varRow_apply (c : Dev nD) (q : Fin 512) : varRow V c (ix2 0 q) = varOf V c q := by
  unfold varRow
  refine (pay3_apply _ _ q).trans ?_
  rw [pay2_apply, sumAt_apply V c q 24 lastLt, sqAt_apply V c q 24 lastLt, tileSum_total, tileSum_total]
  rfl

end Cert.KernelIdeal.Hand
end
-- ==== Proof.KRegion1.lean ====
/-
  The second region's output array, read back through the write-backs. Entry (p, q) of what tile t leaves in the output
  block is the normalised, scaled, shifted and clamped row 2000 t + p of h1 times column q of the second-layer weights,
  plus the bias: a function of the region's seven input arrays at row 2000 t + p. The 25 tiles' blocks cover the 50000
  rows, so the result array ends holding that function at every index.
-/
import proofs.«133134_j51762945852037_1_alg».proof.Proof.Launch
import proofs.«133134_j51762945852037_1_alg».proof.Proof.Result
import proofs.«133134_j51762945852037_1_alg».proof.Proof.KPayload
import proofs.«133134_j51762945852037_1_alg».proof.Proof.KPrefix
import proofs.«133134_j51762945852037_1_alg».proof.Proof.KBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The second region's output array -/

/-- The two zero offsets of a whole-block rectangle. -/
theorem zeroOffsets2 : (![0, 0] : Fin 2 → ℕ) = fun _ => 0 := funext fun a => by fin_cases a <;> rfl

/-- The second region's seven input arrays, each at its literal type. -/
abbrev hIn (c : Dev nD) : Vec Ideal S50000x512 .f32 := V c main_v23_0
abbrev meanIn (c : Dev nD) : Vec Ideal S1x512 .f32 := V c main_v23_1
abbrev varIn (c : Dev nD) : Vec Ideal S1x512 .f32 := V c main_v23_2
abbrev gammaIn (c : Dev nD) : Vec Ideal S1x512 .f32 := V c main_v20
abbrev betaIn (c : Dev nD) : Vec Ideal S1x512 .f32 := V c main_v21
abbrev w2In (c : Dev nD) : Vec Ideal S512x512 .bf16 := V c main_v18
abbrev b2In (c : Dev nD) : Vec Ideal S1x512 .f32 := V c main_v22

/-- The result at a row and a column as the second region's input arrays give it. -/
def outAt (c : Dev nD) (r : Fin 50000) (q : Fin 512) : EReal :=
  (∑ k : Fin 512, max (((hIn V c (ix2 r k) - meanIn V c (ix2 0 k)) * Ideal.rsqrt (varIn V c (ix2 0 k) + Ideal.ofBits .f32 0x3727C5AC#32)) * gammaIn V c (ix2 0 k)
        + betaIn V c (ix2 0 k)) (Ideal.ofBits .f32 0x00000000#32) * w2In V c (ix2 k q))
    + b2In V c (ix2 0 q)

/-- The same as a 50000 × 512 array. -/
def outArr (c : Dev nD) : Vec Ideal S50000x512 .f32 := fun i => outAt V c (i 0) (i 1)

/-- Entry (p, q) of what tile t leaves in the output block is the result at row 2000 t + p. -/
theorem out1_apply (c : Dev nD) (t : Fin cfg1.N) (p : Fin 2000) (q : Fin 512) (r : Fin 50000) (hr : r.val = 2000 * t.val + p.val) :
    out1_7 (iblk1 V c 0 t) (iblk1 V c 1 t) (iblk1 V c 2 t) (iblk1 V c 3 t) (iblk1 V c 4 t) (iblk1 V c 5 t) (iblk1 V c 6 t) (ix2 p q)
      = outAt V c r q := by
  unfold out1_7
  refine (congrFun (View.canon_unit_zero (S := S2000x512) zeroOffsets2 inb_S2000x512_S2000x512_0_0 _) (ix2 p q)).trans ?_
  refine (k1pay_apply (iblk1 V c 0 t) (iblk1 V c 2 t) (iblk1 V c 1 t) (iblk1 V c 3 t) (iblk1 V c 4 t) (iblk1 V c 5 t) (iblk1 V c 6 t) p q).trans ?_
  unfold outAt
  rw [iblk1_1_eq V c t, iblk1_2_eq V c t, iblk1_3_eq V c t, iblk1_4_eq V c t, iblk1_5_eq V c t, iblk1_6_eq V c t]
  refine congrArg₂ (· + ·) (Finset.sum_congr rfl fun k _ => ?_) rfl
  rw [iblk1_0_apply V c t p k r hr]

/-- What tile t leaves is the block of the result array under the output window at t. -/
theorem out1_read (c : Dev nD) (t : Fin cfg1.N) (y : S2000x512.Idx) :
    out1_7 (iblk1 V c 0 t) (iblk1 V c 1 t) (iblk1 V c 2 t) (iblk1 V c 3 t) (iblk1 V c 4 t) (iblk1 V c 5 t) (iblk1 V c 6 t) y
      = outArr V c (((cfg1.win 7).blk t).view.emb y) := by
  obtain ⟨p, q, rfl⟩ : ∃ (p : Fin 2000) (q : Fin 512), y = ix2 p q := ⟨y 0, y 1, eq_ix2 y⟩
  have h0 : win1_7.index t 0 = t.val := (by decide +kernel : ∀ t : Fin grid1.N, win1_7.index t 0 = t.val) t
  have h1 : win1_7.index t 1 = 0 := (by decide +kernel : ∀ t : Fin grid1.N, win1_7.index t 1 = 0) t
  have e0 : ((((cfg1.win 7).blk t).view.emb (ix2 p q)) 0).val = 2000 * t.val + p.val := by
    show win1_7.index t 0 * 2000 + 1 * p.val = _
    rw [h0]; omega
  have e1 : ((((cfg1.win 7).blk t).view.emb (ix2 p q)) 1).val = q.val := by
    show win1_7.index t 1 * 512 + 1 * q.val = _
    rw [h1]; omega
  refine (out1_apply V c t p q _ e0).trans ?_
  show outAt V c _ q = outAt V c _ _
  congr 1
  exact Fin.ext e1.symm

/-- What each tile writes back to the result array is its block of the result. -/
theorem flushed1_7_eq (c : Dev nD) (t : Fin cfg1.N) :
    (dat1 V c).flushed 7 t = ((cfg1.win 7).blk t).view.read (Elt Ideal) (outArr V c) := by
  show (dat1 V c).after 7 t = _
  rw [after1_7]
  funext y
  rw [View.read_apply]
  exact out1_read V c t y

/-- The 25 tiles cover the 50000 rows of the result. -/
theorem out_cover (i : S50000x512.Idx) : ∃ t : Fin cfg1.N, (cfg1.win 7).flush t = true ∧ i ∈ ((cfg1.win 7).blk t).view.set := by
  have hi0 : (i 0).val < 50000 := idx2_lt0 i
  have hi1 : (i 1).val < 512 := idx2_lt1 i
  have hN : cfg1.N = 25 := N_1
  refine ⟨⟨(i 0).val / 2000, by rw [hN]; omega⟩, flush1_7 _, ?_⟩
  set t : Fin cfg1.N := ⟨(i 0).val / 2000, by rw [hN]; omega⟩ with ht
  have h0 : win1_7.index t 0 = t.val := (by decide +kernel : ∀ t : Fin grid1.N, win1_7.index t 0 = t.val) t
  have h1 : win1_7.index t 1 = 0 := (by decide +kernel : ∀ t : Fin grid1.N, win1_7.index t 1 = 0) t
  have hx0 : win1_7.xsize (grid1.coords t) 0 = 2000 := (by decide +kernel : ∀ t : Fin grid1.N, win1_7.xsize (grid1.coords t) 0 = 2000) t
  have hx1 : win1_7.xsize (grid1.coords t) 1 = 512 := (by decide +kernel : ∀ t : Fin grid1.N, win1_7.xsize (grid1.coords t) 1 = 512) t
  show i ∈ ((View.whole main_v24).slice (win1_7.rect t)).set
  rw [View.set_slice_whole, Rect.mem_set_unit]
  intro a
  match a with
  | ⟨0, _⟩ =>
    show win1_7.index t 0 * win1_7.size 0 ≤ (i 0 : Nat) ∧ (i 0 : Nat) < win1_7.index t 0 * win1_7.size 0 + win1_7.xsize (grid1.coords t) 0
    rw [h0, hx0]
    show (i 0).val / 2000 * 2000 ≤ (i 0 : Nat) ∧ (i 0 : Nat) < (i 0).val / 2000 * 2000 + 2000
    omega
  | ⟨1, _⟩ =>
    show win1_7.index t 1 * win1_7.size 1 ≤ (i 1 : Nat) ∧ (i 1 : Nat) < win1_7.index t 1 * win1_7.size 1 + win1_7.xsize (grid1.coords t) 1
    rw [h1, hx1]
    show 0 * 512 ≤ (i 1 : Nat) ∧ (i 1 : Nat) < 0 * 512 + 512
    omega

/-- After the second region the result array holds the result. -/
theorem arr1_7 (c : Dev nD) : (dat1 V c).arrAt 7 cfg1.N = outArr V c :=
  (dat1 V c).arrAt_eq_of_cover 7 (outArr V c) (fun t _ => flushed1_7_eq V c t) out_cover

end Cert.KernelIdeal.Hand
end
-- ==== Proof.KValue.lean ====
/-
  What the kernel's program computes, at the exact instance: after the host prefix the agg buffer holds the edge-weighted
  neighbour sums of the arguments; the first region leaves h1 tile by tile with its column sums and sums of squares
  accumulated over the 25 tiles, hence the batch mean and the variance in the form "mean of squares minus squared
  mean"; the second region normalises, scales, shifts, clamps and applies the second linear layer tile by tile. Read
  back through the write-backs, the result array is the specification's result at every index.
-/
import proofs.«133134_j51762945852037_1_alg».proof.Proof.Launch
import proofs.«133134_j51762945852037_1_alg».proof.Proof.Result
import proofs.«133134_j51762945852037_1_alg».proof.Proof.KPayload
import proofs.«133134_j51762945852037_1_alg».proof.Proof.KPrefix
import proofs.«133134_j51762945852037_1_alg».proof.Proof.KBlocks
import proofs.«133134_j51762945852037_1_alg».proof.Proof.KRegion0
import proofs.«133134_j51762945852037_1_alg».proof.Proof.KRegion1
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- After the host prefix the agg buffer holds the shared prefix's term of the features, the edge index and the weights. -/
theorem kAgg_eq (c : Dev nD) :
    (E1 (F := Ideal) m c main_v16 : Vec Ideal S50000x256 .f32)
      = Cert.Result.aggTerm (m ((c.tc : Thread nD τ).loc main_arg0)) (m ((c.tc : Thread nD τ).loc main_arg1)) (m ((c.tc : Thread nD τ).loc main_arg2)) := by
  show StableHlo.after hostOps0 _ (Proc.devRef .tc main_v16) = _
  after_results_simp
  rfl

/-! ## The first region's inputs are the arguments and agg -/

/-- The bias row the first region reads is the bias. -/
theorem b1_of_prefix (c : Dev nD) :
    (fun j : Fin 512 => (E1 (F := Ideal) m c main_v19 : Vec Ideal S1x512 .f32) (ix2 0 j))
      = Cert.Result.at1 (m ((c.tc : Thread nD τ).loc main_arg4) : Vec Ideal S512 .f32) := by
  rw [E1_v19]
  exact funext fun j => castRow_apply _ j

/-- h1, the batch mean and the variance of the first region's inputs are the specification's of the arguments and agg. -/
theorem h1Of_prefix (c : Dev nD) :
    h1Of (E1 (F := Ideal) m) c
      = Cert.Spec.h1 (Cert.Result.at2 (m ((c.tc : Thread nD τ).loc main_arg0) : Vec Ideal S50000x256 .f32)) (Cert.Result.at2 (E1 (F := Ideal) m c main_v16 : Vec Ideal S50000x256 .f32))
          (Cert.Result.at2 (m ((c.tc : Thread nD τ).loc main_arg3) : Vec Ideal S256x512 .f32)) (Cert.Result.at1 (m ((c.tc : Thread nD τ).loc main_arg4) : Vec Ideal S512 .f32)) := by
  unfold h1Of
  rw [b1_of_prefix m c, E1_arg0, E1_v17]
  rfl
theorem meanOf_prefix (c : Dev nD) :
    meanOf (E1 (F := Ideal) m) c
      = Cert.Spec.mean (Cert.Result.at2 (m ((c.tc : Thread nD τ).loc main_arg0) : Vec Ideal S50000x256 .f32)) (Cert.Result.at2 (E1 (F := Ideal) m c main_v16 : Vec Ideal S50000x256 .f32))
          (Cert.Result.at2 (m ((c.tc : Thread nD τ).loc main_arg3) : Vec Ideal S256x512 .f32)) (Cert.Result.at1 (m ((c.tc : Thread nD τ).loc main_arg4) : Vec Ideal S512 .f32)) := by
  unfold meanOf
  rw [b1_of_prefix m c, E1_arg0, E1_v17]
  rfl
theorem varOf_prefix (c : Dev nD) :
    varOf (E1 (F := Ideal) m) c
      = Cert.Spec.varK (Cert.Result.at2 (m ((c.tc : Thread nD τ).loc main_arg0) : Vec Ideal S50000x256 .f32)) (Cert.Result.at2 (E1 (F := Ideal) m c main_v16 : Vec Ideal S50000x256 .f32))
          (Cert.Result.at2 (m ((c.tc : Thread nD τ).loc main_arg3) : Vec Ideal S256x512 .f32)) (Cert.Result.at1 (m ((c.tc : Thread nD τ).loc main_arg4) : Vec Ideal S512 .f32)) := by
  unfold varOf
  rw [b1_of_prefix m c, E1_arg0, E1_v17]
  rfl

/-! ## The second region's inputs are what the first region and the prefix left -/

theorem hIn_run (c : Dev nD) : hIn (E2 (F := Ideal) m) c = h1Arr (E1 (F := Ideal) m) c := (E2_h1 m c).trans (arr0_4 (E1 m) c)
theorem meanIn_run (c : Dev nD) : meanIn (E2 (F := Ideal) m) c = meanRow (E1 (F := Ideal) m) c := (E2_mean m c).trans (arr0_5 (E1 m) c)
theorem varIn_run (c : Dev nD) : varIn (E2 (F := Ideal) m) c = varRow (E1 (F := Ideal) m) c := (E2_var m c).trans (arr0_6 (E1 m) c)
theorem gammaIn_run (c : Dev nD) :
    gammaIn (E2 (F := Ideal) m) c = shapeCast S1x512 (m ((c.tc : Thread nD τ).loc main_arg5) : Vec Ideal S512 .f32) shapeCasts_S512_S1x512 :=
  (E2_of_prefix m c main_v20 (by decide)).trans (E1_v20 m c)
theorem betaIn_run (c : Dev nD) :
    betaIn (E2 (F := Ideal) m) c = shapeCast S1x512 (m ((c.tc : Thread nD τ).loc main_arg6) : Vec Ideal S512 .f32) shapeCasts_S512_S1x512 :=
  (E2_of_prefix m c main_v21 (by decide)).trans (E1_v21 m c)
theorem w2In_run (c : Dev nD) :
    w2In (E2 (F := Ideal) m) c = truncf (F := Ideal) .bf16 (m ((c.tc : Thread nD τ).loc main_arg7) : Vec Ideal S512x512 .f32) bitsLt_bf16_f32 :=
  (E2_of_prefix m c main_v18 (by decide)).trans (E1_v18 m c)
theorem b2In_run (c : Dev nD) :
    b2In (E2 (F := Ideal) m) c = shapeCast S1x512 (m ((c.tc : Thread nD τ).loc main_arg8) : Vec Ideal S512 .f32) shapeCasts_S512_S1x512 :=
  (E2_of_prefix m c main_v22 (by decide)).trans (E1_v22 m c)

/-- The result array after the run is the specification's result of the arguments and agg. -/
theorem kernel_result (c : Dev nD) :
    ((dat1 (F := Ideal) (E2 m) c).arrAt 7 cfg1.N : Vec Ideal S50000x512 .f32)
      = Cert.Result.resultArr (m ((c.tc : Thread nD τ).loc main_arg0)) (E1 (F := Ideal) m c main_v16) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [arr1_7 (E2 m) c]
  funext i
  obtain ⟨r, q, rfl⟩ : ∃ (r : Fin 50000) (q : Fin 512), i = ix2 r q := ⟨i 0, i 1, eq_ix2 i⟩
  show outAt (E2 m) c r q = Cert.Spec.out _ _ _ _ _ _ _ _ r q
  unfold outAt Cert.Spec.out Cert.Spec.outWith
  refine congrArg₂ (· + ·) (Finset.sum_congr rfl fun k _ => congrArg₂ (· * ·) ?_ ?_) ?_
  · unfold Cert.Spec.act
    rw [hIn_run, meanIn_run, varIn_run, gammaIn_run, betaIn_run]
    show max (((h1Of (E1 m) c r k - meanRow (E1 m) c (ix2 0 k)) * Ideal.rsqrt (varRow (E1 m) c (ix2 0 k) + _)) * _ + _) _ = _
    rw [meanRow_apply, varRow_apply, castRow_apply, castRow_apply, h1Of_prefix, meanOf_prefix, varOf_prefix]
  · rw [w2In_run]
    rfl
  · rw [b2In_run]
    exact castRow_apply _ q

end Cert.KernelIdeal.Hand

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.AggReal.lean ====
/-
  agg is real-valued when the features and the edge weights are: each entry of agg is zero plus the sum, over the edges whose
  destination word names the entry's row, of the edge's weight times one entry of a (clipped) source row of the features:
  a finite sum of products of reals.
-/
import proofs.«133134_j51762945852037_1_alg».proof.Proof.Result
import proofs.«133134_j51762945852037_1_alg».proof.Proof.LibScatter
import proofs.«133134_j51762945852037_1_alg».proof.Proof.LibGatherRows
import proofs.«133134_j51762945852037_1_alg».proof.Proof.LibReal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Result

open Idealize.ShloMosaic Idealize.ShloMosaic.ValueIdx Cert.KernelIdeal

variable [Cert.KernelIdeal.Facts]

/-- A broadcast of a real-valued array is real-valued: each of its entries is an entry of the array. -/
private theorem bcast_real {s t : Shape} (dims : Fin s.rank → Fin t.rank) (h : s.BroadcastsInDim t dims)
    (v : s.Idx → EReal) (hv : ∀ i, ∃ y : ℝ, v i = (y : EReal)) :
    ∀ j, ∃ y : ℝ, broadcastInDim t dims h v j = (y : EReal) :=
  fun _ => hv _

/-- A gather from a real-valued table is real-valued: each of its entries is an entry of the table. -/
private theorem gather_real {s si t : Shape} {w : Nat} (d : GatherDims s si t) (v : s.Idx → EReal) (idx : IVec si w)
    (hv : ∀ i, ∃ y : ℝ, v i = (y : EReal)) :
    ∀ j, ∃ y : ℝ, Host.gather d v idx j = (y : EReal) :=
  fun _ => hv _

/-- The product of two reals is a real. -/
private theorem mul_real (a b : EReal) (ha : ∃ y : ℝ, a = (y : EReal)) (hb : ∃ y : ℝ, b = (y : EReal)) :
    ∃ y : ℝ, a * b = (y : EReal) := by
  obtain ⟨p, rfl⟩ := ha
  obtain ⟨q, rfl⟩ := hb
  exact ⟨p * q, (EReal.coe_mul p q).symm⟩

/-- A real plus a finite sum of reals is a real. -/
private theorem add_sum_real {ι : Type} (s : Finset ι) (a : EReal) (f : ι → EReal) (ha : ∃ y : ℝ, a = (y : EReal))
    (hf : ∀ e, ∃ y : ℝ, f e = (y : EReal)) : ∃ y : ℝ, a + ∑ e ∈ s, f e = (y : EReal) := by
  obtain ⟨a0, rfl⟩ := ha
  choose g hg using hf
  refine ⟨a0 + ∑ e ∈ s, g e, ?_⟩
  rw [EReal.coe_add, ← Cert.LibReal.coe_sum]
  congr 1
  exact Finset.sum_congr rfl (fun e _ => hg e)

/-- Every entry of agg is a real number when every feature and every edge weight is. -/
theorem aggTerm_real (x : Vec Ideal S50000x256 .f32) (ei : IVec S2x800000 32) (ew : Vec Ideal S800000 .f32)
    (hx : ∀ i, ∃ y : ℝ, x i = (y : EReal)) (hw : ∀ i, ∃ y : ℝ, ew i = (y : EReal)) :
    ∀ i, ∃ y : ℝ, aggTerm x ei ew i = (y : EReal) := by
  intro i
  obtain ⟨c, k, rfl⟩ : ∃ (c : Fin 50000) (k : Fin 256), i = ix2 c k := ⟨i 0, i 1, eq_ix2 i⟩
  unfold aggTerm
  dsimp only
  rw [Cert.LibScatter.scatterAdd_rows_read scatter_S50000x256_S800000x1_S800000x256_1_0_0_1 rfl rfl rfl rfl]
  refine add_sum_real _ _ _ ?_ ?_
  · -- the operand is the zero word at every entry
    refine ⟨0, ?_⟩
    show Ideal.ofBits .f32 0x00000000#32 = ((0 : ℝ) : EReal)
    rw [Ideal.ofBits_zero_f32, EReal.coe_zero]
  · -- each update is an edge weight times a feature entry
    intro e
    rw [mulf_apply]
    refine mul_real _ _ ?_ ?_
    · exact bcast_real _ _ _ (bcast_real _ _ ew hw) _
    · exact gather_real _ x _ hx _

end Cert.Result

end
-- ==== Proof.Finite.lean ====
/-
  The precondition read at the exact instance: "every float argument's absolute value is below +∞, and all of those
  hold" says that every entry of every float argument is a real number (neither infinity).
-/
import proofs.«133134_j51762945852037_1_alg».proof.Defs
import proofs.«133134_j51762945852037_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.SL.Sem Cert.KernelIdeal

variable [Cert.KernelIdeal.Facts] [Cert.Pre_finite_inputs.Facts]

/-- The scalar shape has a single index. -/
private instance subsingleton_scalar_idx : Subsingleton Cert.Pre_finite_inputs.S_.Idx :=
  ⟨fun a b => funext fun d => Fin.elim0 d⟩

/-- One entry: an extended real whose absolute value is strictly below the pattern of +∞ is a real number. -/
private theorem real_of_abs_lt_inf (x : EReal)
    (h : Ideal.cmp .olt (max x (-x)) (Ideal.ofBits .f32 0x7F800000#32) = 1#1) : ∃ y : ℝ, x = (y : EReal) := by
  have htop : Ideal.ofBits .f32 0x7F800000#32 = (⊤ : EReal) := by
    simp [Ideal.ofBits, Ideal.ieee]
  rw [htop] at h
  have hlt : max x (-x) < (⊤ : EReal) := by
    have h' : BitVec.ofBool (decide (max x (-x) < (⊤ : EReal))) = 1#1 := h
    by_contra hn
    rw [decide_eq_false hn] at h'
    exact absurd h' (by decide)
  obtain ⟨h1, h2⟩ := max_lt_iff.1 hlt
  refine ⟨x.toReal, (EReal.coe_toReal (ne_of_lt h1) ?_).symm⟩
  intro hb
  rw [hb] at h2
  simp at h2

/-- One array: if "every |entry| is below +∞" reduces by `and` to 1, then every entry of the array is a real number. -/
private theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr h0 ValueIdx.ix0 = 1#1) (i : s.Idx) :
    ∃ y : ℝ, x i = (y : EReal) := by
  have hi := Host.reduce_andi_all _ _ hr h0 _ e i
  exact real_of_abs_lt_inf (x i) hi

/-- Under the precondition each float argument (the features, the edge weights, both weight matrices, both biases, gamma
    and beta) is real-valued at every index, on every core. -/
theorem inputs_real (m : (ℓ : Loc nD τ sig) → Buf (Elt Ideal) ℓ) (hpre : Cert.Pre_KernelIdeal m) (c : Dev nD) :
    (∀ i, ∃ y : ℝ, (m ((c.tc : Thread nD τ).loc main_arg0)) i = (y : EReal)) ∧ (∀ i, ∃ y : ℝ, (m ((c.tc : Thread nD τ).loc main_arg2)) i = (y : EReal))
    ∧ (∀ i, ∃ y : ℝ, (m ((c.tc : Thread nD τ).loc main_arg3)) i = (y : EReal)) ∧ (∀ i, ∃ y : ℝ, (m ((c.tc : Thread nD τ).loc main_arg4)) i = (y : EReal))
    ∧ (∀ i, ∃ y : ℝ, (m ((c.tc : Thread nD τ).loc main_arg5)) i = (y : EReal)) ∧ (∀ i, ∃ y : ℝ, (m ((c.tc : Thread nD τ).loc main_arg6)) i = (y : EReal))
    ∧ (∀ i, ∃ y : ℝ, (m ((c.tc : Thread nD τ).loc main_arg7)) i = (y : EReal)) ∧ (∀ i, ∃ y : ℝ, (m ((c.tc : Thread nD τ).loc main_arg8)) i = (y : EReal)) := by
  have h := congrFun (hpre c) ValueIdx.ix0
  dsimp only [Cert.Pre_finite_inputs.fn, Cert.Pre_finite_inputs.fn_part1, Cert.Pre_finite_inputs.fn_part2] at h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e0, e2⟩ := IntOp.andi_eq_one.1 h
  exact ⟨real_of_all _ _ _ _ e0, real_of_all _ _ _ _ e2, real_of_all _ _ _ _ e3, real_of_all _ _ _ _ e4,
    real_of_all _ _ _ _ e5, real_of_all _ _ _ _ e6, real_of_all _ _ _ _ e7, real_of_all _ _ _ _ e8⟩

end Cert.Finite

end
-- ==== Proof.KernelClaims.lean ====
/-
  The kernel program's share of the certificate: the word-level program and its idealization each run to the end and
  leave their nine arguments as launched; at the exact instance the run ends with the result array at the
  specification's result of the arguments and of agg (the shared prefix's term of the features, the edge index and
  the weights); and under the precondition the first linear layer's output is real-valued at every index, which is what
  makes the two forms of the batch variance one number.
-/
import proofs.«133134_j51762945852037_1_alg».proof.Defs
import proofs.«133134_j51762945852037_1_alg».proof.Proof.BitsLaunch
import proofs.«133134_j51762945852037_1_alg».proof.Proof.Launch
import proofs.«133134_j51762945852037_1_alg».proof.Proof.KValue
import proofs.«133134_j51762945852037_1_alg».proof.Proof.AggReal
import proofs.«133134_j51762945852037_1_alg».proof.Proof.Finite
import proofs.«133134_j51762945852037_1_alg».proof.Proof.Gen.Kernel
import proofs.«133134_j51762945852037_1_alg».proof.Proof.Gen.KernelIdeal
import proofs.«133134_j51762945852037_1_alg».proof.Proof.Gen.Pre_finite_inputs

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

/-- The result array both programs end with, as a function of the kernel program's launch memory on core `c`. -/
def resultOf (m : (ℓ : Loc Cert.KernelIdeal.nD Cert.KernelIdeal.τ Cert.KernelIdeal.sig) → Buf (Elt Ideal) ℓ) (c : Dev Cert.KernelIdeal.nD) :
    Vec Ideal Cert.KernelIdeal.S50000x512 .f32 :=
  Cert.Result.resultArr (m ((c.tc : Thread Cert.KernelIdeal.nD Cert.KernelIdeal.τ).loc Cert.KernelIdeal.main_arg0)) (Cert.Result.aggTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The idealized kernel's run ends with the result array at `resultOf` and the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v24) = resultOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono
    (fun r h c => ⟨(h c).1.trans ((Cert.KernelIdeal.Hand.kernel_result m c).trans (by rw [Cert.KernelIdeal.Hand.kAgg_eq m c]; rfl)), (h c).2⟩)
    (Cert.KernelIdeal.Hand.run_result (F := Ideal) m ρ)

/-- Under the precondition the first linear layer's output is a real number at every row and column. -/
theorem h1_real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ r j, ∃ y : ℝ, Cert.Spec.h1 (Cert.Result.at2 (m ((c.tc : Thread Cert.KernelIdeal.nD Cert.KernelIdeal.τ).loc Cert.KernelIdeal.main_arg0))) (Cert.Result.at2 (Cert.Result.aggTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
      (Cert.Result.at2 (m ((c.tc : Thread Cert.KernelIdeal.nD Cert.KernelIdeal.τ).loc Cert.KernelIdeal.main_arg3))) (Cert.Result.at1 (m ((c.tc : Thread Cert.KernelIdeal.nD Cert.KernelIdeal.τ).loc Cert.KernelIdeal.main_arg4))) r j = (y : EReal) := by
  obtain ⟨hx, hw, hW1, hb1, -, -, -, -⟩ := Cert.Finite.inputs_real m hpre c
  have hagg := Cert.Result.aggTerm_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) hx hw
  exact Cert.Spec.h1_real _ _ _ _ (fun r k => hx _) (fun r k => hagg _) (fun k j => hW1 _) (fun j => hb1 _)

end Cert.Proof

end
-- ==== Proof.RefRun.lean ====
/-
  The reference program's run: a straight line of host operations (with the variance helper and the clamp inlined at
  their call sites) from the argument arrays to the result. Every weakly fair execution ends, faulting nowhere, with
  the result array at the composition of those operations applied to the arguments, and the arguments unchanged.
-/
import proofs.«133134_j51762945852037_1_alg».proof.ReferenceIdeal
import proofs.«133134_j51762945852037_1_alg».proof.Proof.Gen.ReferenceIdeal
import proofs.«133134_j51762945852037_1_alg».proof.Proof.Gen.KernelIdeal
import proofs.«133134_j51762945852037_1_alg».proof.Proof.Result
import Idealize.ShloMosaic.Lib.StableHlo.Run
import Idealize.ShloMosaic.Adequacy
import Idealize.ShloMosaic.Init

noncomputable section

namespace Cert.ReferenceIdeal.Hand

open Cert.ReferenceIdeal Cert.ReferenceIdeal.Gen
open Idealize.ShloMosaic Idealize.ShloMosaic.TcCoe Idealize.SL.Sem

/-! ## The reference's result, stage by stage

One host operation per line, in the printed order, the calls' bodies inlined where they are called. -/

/-- The first affine layer, printed %17 to %23: the features (scaled by the constant one) plus the neighbour sums,
    times the first weight matrix, plus the first bias broadcast along the rows. -/
def refH1 (x agg : Vec Ideal S50000x256 .f32) (W1 : Vec Ideal S256x512 .f32) (b1 : Vec Ideal S512 .f32) :
    Vec Ideal S50000x512 .f32 :=
  let cst_1 : Vec Ideal S_ .f32 := constant (F := Ideal) S_ .f32 0x3F800000#32
  let v17 : Vec Ideal S50000x256 .f32 := broadcastInDim S50000x256 ![] bcast_S_S50000x256 cst_1
  let v18 : Vec Ideal S50000x256 .f32 := mulf (F := Ideal) (φ := .f32) v17 x
  let v19 : Vec Ideal S50000x256 .f32 := addf (F := Ideal) (φ := .f32) v18 agg
  let v20 : Vec Ideal S50000x512 .f32 := Host.dotGeneral (F := Ideal) (φ₁ := .f32) (φ₂ := .f32) dot_S50000x256_S256x512_S50000x512_1_0_0_1_n_n none v19 W1
  let v21 : Vec Ideal S1x512 .f32 := broadcastInDim S1x512 ![1] bcast_S512_S1x512_1 b1
  let v22 : Vec Ideal S50000x512 .f32 := broadcastInDim S50000x512 ![0, 1] bcast_S1x512_S50000x512_0_1 v21
  addf (F := Ideal) (φ := .f32) v20 v22

/-- The column means, printed %24 to %26: the sum down each column from zero, divided by the row count 50000. -/
def refMean (h : Vec Ideal S50000x512 .f32) : Vec Ideal S512 .f32 :=
  let cst_2 : Vec Ideal S_ .f32 := constant (F := Ideal) S_ .f32 0x00000000#32
  let v24 : Vec Ideal S512 .f32 := Host.reduceAdd (F := Ideal) (φ := .f32) h cst_2 reducesTo_S50000x512_S512_d0 h_S_
  let cst_3 : Vec Ideal S_ .f32 := constant (F := Ideal) S_ .f32 0x47435000#32
  let v25 : Vec Ideal S512 .f32 := broadcastInDim S512 ![] bcast_S_S512 cst_3
  Host.divf (F := Ideal) (φ := .f32) v24 v25

/-- The column variances: the variance helper called on the array and the integer zero (its correction), with its
    guarded choice inlined. The helper recomputes the column means, subtracts them, squares, sums down each column and
    divides by 50000 minus the correction; where that divisor is not positive the choice puts the not-a-number constant. -/
def refVar (h : Vec Ideal S50000x512 .f32) : Vec Ideal S512 .f32 :=
  let c_4 : IVec S_ 32 := constantI S_ 32 0#32
  let w_cst : Vec Ideal S_ .f32 := constant (F := Ideal) S_ .f32 0x00000000#32
  let w0 : Vec Ideal S512 .f32 := Host.reduceAdd (F := Ideal) (φ := .f32) h w_cst reducesTo_S50000x512_S512_d0 h_S_
  let w1 : Vec Ideal S1x512 .f32 := broadcastInDim S1x512 ![1] bcast_S512_S1x512_1 w0
  let w_cst_0 : Vec Ideal S_ .f32 := constant (F := Ideal) S_ .f32 0x47435000#32
  let w2 : Vec Ideal S1x512 .f32 := broadcastInDim S1x512 ![] bcast_S_S1x512 w_cst_0
  let w3 : Vec Ideal S1x512 .f32 := Host.divf (F := Ideal) (φ := .f32) w1 w2
  let w4 : Vec Ideal S50000x512 .f32 := broadcastInDim S50000x512 ![0, 1] bcast_S1x512_S50000x512_0_1 w3
  let w5 : Vec Ideal S50000x512 .f32 := subf (F := Ideal) (φ := .f32) h w4
  let w6 : Vec Ideal S50000x512 .f32 := mulf (F := Ideal) (φ := .f32) w5 w5
  let w7 : Vec Ideal S_ .f32 := sitofp (F := Ideal) .f32 c_4
  let w_cst_1 : Vec Ideal S_ .f32 := constant (F := Ideal) S_ .f32 0x47435000#32
  let w8 : Vec Ideal S_ .f32 := subf (F := Ideal) (φ := .f32) w_cst_1 w7
  let w_cst_2 : Vec Ideal S_ .f32 := constant (F := Ideal) S_ .f32 0x00000000#32
  let w9 : Vec Ideal S512 .f32 := Host.reduceAdd (F := Ideal) (φ := .f32) w6 w_cst_2 reducesTo_S50000x512_S512_d0 h_S_
  let w10 : Vec Ideal S512 .f32 := broadcastInDim S512 ![] bcast_S_S512 w8
  let w11 : Vec Ideal S512 .f32 := Host.divf (F := Ideal) (φ := .f32) w9 w10
  let w_cst_3 : Vec Ideal S_ .f32 := constant (F := Ideal) S_ .f32 0x00000000#32
  let w12 : IVec S_ 1 := cmpf (F := Ideal) (φ := .f32) .ogt w8 w_cst_3
  let w_cst_4 : Vec Ideal S_ .f32 := constant (F := Ideal) S_ .f32 0x7FC00000#32
  let u0 : Vec Ideal S_ .f32 := id w_cst_4
  let u1 : Vec Ideal S512 .f32 := broadcastInDim S512 ![] bcast_S_S512 u0
  select (broadcastInDim S512 ![] bcast_S_S512 w12) w11 u1

/-- The rest, printed %28 to %47 with the clamp inlined: the array minus its column means, times the reciprocal square
    root of the column variances plus the small constant, times the scale, plus the shift; clamped below at zero; times
    the second weight matrix, plus the second bias. -/
def refTail (h : Vec Ideal S50000x512 .f32) (mean var gamma beta : Vec Ideal S512 .f32) (W2 : Vec Ideal S512x512 .f32)
    (b2 : Vec Ideal S512 .f32) : Vec Ideal S50000x512 .f32 :=
  let v28 : Vec Ideal S1x512 .f32 := broadcastInDim S1x512 ![1] bcast_S512_S1x512_1 mean
  let v29 : Vec Ideal S50000x512 .f32 := broadcastInDim S50000x512 ![0, 1] bcast_S1x512_S50000x512_0_1 v28
  let v30 : Vec Ideal S50000x512 .f32 := subf (F := Ideal) (φ := .f32) h v29
  let cst_5 : Vec Ideal S_ .f32 := constant (F := Ideal) S_ .f32 0x3727C5AC#32
  let v31 : Vec Ideal S512 .f32 := broadcastInDim S512 ![] bcast_S_S512 cst_5
  let v32 : Vec Ideal S512 .f32 := addf (F := Ideal) (φ := .f32) var v31
  let v33 : Vec Ideal S512 .f32 := Host.rsqrt (F := Ideal) (φ := .f32) v32
  let v34 : Vec Ideal S1x512 .f32 := broadcastInDim S1x512 ![1] bcast_S512_S1x512_1 v33
  let v35 : Vec Ideal S50000x512 .f32 := broadcastInDim S50000x512 ![0, 1] bcast_S1x512_S50000x512_0_1 v34
  let v36 : Vec Ideal S50000x512 .f32 := mulf (F := Ideal) (φ := .f32) v30 v35
  let v37 : Vec Ideal S1x512 .f32 := broadcastInDim S1x512 ![1] bcast_S512_S1x512_1 gamma
  let v38 : Vec Ideal S50000x512 .f32 := broadcastInDim S50000x512 ![0, 1] bcast_S1x512_S50000x512_0_1 v37
  let v39 : Vec Ideal S50000x512 .f32 := mulf (F := Ideal) (φ := .f32) v36 v38
  let v40 : Vec Ideal S1x512 .f32 := broadcastInDim S1x512 ![1] bcast_S512_S1x512_1 beta
  let v41 : Vec Ideal S50000x512 .f32 := broadcastInDim S50000x512 ![0, 1] bcast_S1x512_S50000x512_0_1 v40
  let v42 : Vec Ideal S50000x512 .f32 := addf (F := Ideal) (φ := .f32) v39 v41
  let r_cst : Vec Ideal S_ .f32 := constant (F := Ideal) S_ .f32 0x00000000#32
  let r0 : Vec Ideal S50000x512 .f32 := broadcastInDim S50000x512 ![] bcast_S_S50000x512 r_cst
  let v43 : Vec Ideal S50000x512 .f32 := maximumf (F := Ideal) (φ := .f32) v42 r0
  let v44 : Vec Ideal S50000x512 .f32 := Host.dotGeneral (F := Ideal) (φ₁ := .f32) (φ₂ := .f32) dot_S50000x512_S512x512_S50000x512_1_0_0_1_n_n none v43 W2
  let v45 : Vec Ideal S1x512 .f32 := broadcastInDim S1x512 ![1] bcast_S512_S1x512_1 b2
  let v46 : Vec Ideal S50000x512 .f32 := broadcastInDim S50000x512 ![0, 1] bcast_S1x512_S50000x512_0_1 v45
  addf (F := Ideal) (φ := .f32) v44 v46

/-- The reference's result as the composition of its operations on the argument arrays of memory `m` on core `c`
    (the shared prefix as `Cert.Result.aggTerm`). -/
def refOut (m : (ℓ : Loc nD τ sig) → Buf (Elt Ideal) ℓ) (c : Dev nD) : Vec Ideal S50000x512 .f32 :=
  let a0 : Vec Ideal S50000x256 .f32 := m ((c.tc : Thread nD τ).loc main_arg0)
  let a1 : IVec S2x800000 32 := m ((c.tc : Thread nD τ).loc main_arg1)
  let a2 : Vec Ideal S800000 .f32 := m ((c.tc : Thread nD τ).loc main_arg2)
  let a3 : Vec Ideal S256x512 .f32 := m ((c.tc : Thread nD τ).loc main_arg3)
  let a4 : Vec Ideal S512 .f32 := m ((c.tc : Thread nD τ).loc main_arg4)
  let a5 : Vec Ideal S512 .f32 := m ((c.tc : Thread nD τ).loc main_arg5)
  let a6 : Vec Ideal S512 .f32 := m ((c.tc : Thread nD τ).loc main_arg6)
  let a7 : Vec Ideal S512x512 .f32 := m ((c.tc : Thread nD τ).loc main_arg7)
  let a8 : Vec Ideal S512 .f32 := m ((c.tc : Thread nD τ).loc main_arg8)
  let h := refH1 a0 (Cert.Result.aggTerm a0 a1 a2) a3 a4
  refTail h (refMean h) (refVar h) a5 a6 a7 a8

/-! ## The run -/

section Run

variable {F : FTy → Type} [FloatOps F]

/-- @main's seventy-nine operations in order, the calls unfolded where they are made: the thirty-four up to the integer
    zero the variance helper takes; the helper's nineteen over its call's buffers, its guarded choice's three after
    them (the last writes the helper's result); the sixteen of the normalisation; the clamp's three (the last writes
    its result); the second affine layer's four. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v3 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v3 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v4 main_v12 (broadcastInDim S800000x256 ![0, 1] bcast_S800000x1_S800000x256_0_1 : (⟨S800000x1, .f32⟩ : BufTy).Contents (Elt F) → (⟨S800000x256, .f32⟩ : BufTy).Contents (Elt F)),
    StableHlo.binary main_v12 main_v11 main_v13 (mulf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v14 (broadcastInDim S50000x256 ![] bcast_S_S50000x256 : (⟨S_, .f32⟩ : BufTy).Contents (Elt F) → (⟨S50000x256, .f32⟩ : BufTy).Contents (Elt F)),
    StableHlo.unary main_v1 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_1 (constant S_ .f32 0x3F800000#32),
    StableHlo.unary main_cst_1 main_v17 (broadcastInDim S50000x256 ![] bcast_S_S50000x256 : (⟨S_, .f32⟩ : BufTy).Contents (Elt F) → (⟨S50000x256, .f32⟩ : BufTy).Contents (Elt F)),
    StableHlo.binary main_v17 main_arg0 main_v18 (mulf : (⟨S50000x256, .f32⟩ : BufTy).Contents (Elt F) → (⟨S50000x256, .f32⟩ : BufTy).Contents (Elt F) → (⟨S50000x256, .f32⟩ : BufTy).Contents (Elt F)),
    StableHlo.binary main_v18 main_v16 main_v19 (addf : (⟨S50000x256, .f32⟩ : BufTy).Contents (Elt F) → (⟨S50000x256, .f32⟩ : BufTy).Contents (Elt F) → (⟨S50000x256, .f32⟩ : BufTy).Contents (Elt F)),
    StableHlo.binary main_v19 main_arg3 main_v20 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg4 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S50000x512 ![0, 1] bcast_S1x512_S50000x512_0_1 : (⟨S1x512, .f32⟩ : BufTy).Contents (Elt F) → (⟨S50000x512, .f32⟩ : BufTy).Contents (Elt F)),
    StableHlo.binary main_v20 main_v22 main_v23 (addf : (⟨S50000x512, .f32⟩ : BufTy).Contents (Elt F) → (⟨S50000x512, .f32⟩ : BufTy).Contents (Elt F) → (⟨S50000x512, .f32⟩ : BufTy).Contents (Elt F)),
    StableHlo.nullary main_cst_2 (constant S_ .f32 0x00000000#32),
    StableHlo.binary main_v23 main_cst_2 main_v24 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_3 (constant S_ .f32 0x47435000#32),
    StableHlo.unary main_cst_3 main_v25 (broadcastInDim S512 ![] bcast_S_S512 : (⟨S_, .f32⟩ : BufTy).Contents (Elt F) → (⟨S512, .f32⟩ : BufTy).Contents (Elt F)),
    StableHlo.binary main_v24 main_v25 main_v26 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    StableHlo.TRef.nullary main_call0.cst (constant (F := F) S_ .f32 0x00000000#32),
    StableHlo.TRef.binary (StableHlo.TRef.of main_v23 : StableHlo.TRef sig ⟨S50000x512, .f32⟩) main_call0.cst main_call0.v0 (fun x v => Host.reduceAdd (F := F) x v reducesTo_S50000x512_S512_d0 h_S_),
    StableHlo.TRef.unary main_call0.v0 main_call0.v1 (broadcastInDim S1x512 ![1] bcast_S512_S1x512_1),
    StableHlo.TRef.nullary main_call0.cst_0 (constant (F := F) S_ .f32 0x47435000#32),
    StableHlo.TRef.unary main_call0.cst_0 main_call0.v2 (broadcastInDim S1x512 ![] bcast_S_S1x512),
    StableHlo.TRef.binary main_call0.v1 main_call0.v2 main_call0.v3 (Host.divf (F := F)),
    StableHlo.TRef.unary main_call0.v3 main_call0.v4 (broadcastInDim S50000x512 ![0, 1] bcast_S1x512_S50000x512_0_1),
    StableHlo.TRef.binary (StableHlo.TRef.of main_v23 : StableHlo.TRef sig ⟨S50000x512, .f32⟩) main_call0.v4 main_call0.v5 (subf (F := F)),
    StableHlo.TRef.binary main_call0.v5 main_call0.v5 main_call0.v6 (mulf (F := F)),
    StableHlo.TRef.unary (StableHlo.TRef.of main_c_4 : StableHlo.TRef sig ⟨S_, .i32⟩) main_call0.v7 (sitofp (F := F) .f32),
    StableHlo.TRef.nullary main_call0.cst_1 (constant (F := F) S_ .f32 0x47435000#32),
    StableHlo.TRef.binary main_call0.cst_1 main_call0.v7 main_call0.v8 (subf (F := F)),
    StableHlo.TRef.nullary main_call0.cst_2 (constant (F := F) S_ .f32 0x00000000#32),
    StableHlo.TRef.binary main_call0.v6 main_call0.cst_2 main_call0.v9 (fun x v => Host.reduceAdd (F := F) x v reducesTo_S50000x512_S512_d0 h_S_),
    StableHlo.TRef.unary main_call0.v8 main_call0.v10 (broadcastInDim S512 ![] bcast_S_S512),
    StableHlo.TRef.binary main_call0.v9 main_call0.v10 main_call0.v11 (Host.divf (F := F)),
    StableHlo.TRef.nullary main_call0.cst_3 (constant (F := F) S_ .f32 0x00000000#32),
    StableHlo.TRef.binary main_call0.v8 main_call0.cst_3 main_call0.v12 (cmpf (F := F) .ogt),
    StableHlo.TRef.nullary main_call0.cst_4 (constant (F := F) S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v26 main_v28 (broadcastInDim S1x512 ![1] bcast_S512_S1x512_1 : (⟨S512, .f32⟩ : BufTy).Contents (Elt F) → (⟨S1x512, .f32⟩ : BufTy).Contents (Elt F)),
    StableHlo.unary main_v28 main_v29 (broadcastInDim S50000x512 ![0, 1] bcast_S1x512_S50000x512_0_1 : (⟨S1x512, .f32⟩ : BufTy).Contents (Elt F) → (⟨S50000x512, .f32⟩ : BufTy).Contents (Elt F)),
    StableHlo.binary main_v23 main_v29 main_v30 (subf : (⟨S50000x512, .f32⟩ : BufTy).Contents (Elt F) → (⟨S50000x512, .f32⟩ : BufTy).Contents (Elt F) → (⟨S50000x512, .f32⟩ : BufTy).Contents (Elt F)),
    StableHlo.nullary main_cst_5 (constant S_ .f32 0x3727C5AC#32),
    StableHlo.unary main_cst_5 main_v31 (broadcastInDim S512 ![] bcast_S_S512 : (⟨S_, .f32⟩ : BufTy).Contents (Elt F) → (⟨S512, .f32⟩ : BufTy).Contents (Elt F)),
    StableHlo.binary main_v27 main_v31 main_v32 (addf : (⟨S512, .f32⟩ : BufTy).Contents (Elt F) → (⟨S512, .f32⟩ : BufTy).Contents (Elt F) → (⟨S512, .f32⟩ : BufTy).Contents (Elt F)),
    StableHlo.unary main_v32 main_v33 (Host.rsqrt : (⟨S512, .f32⟩ : BufTy).Contents (Elt F) → (⟨S512, .f32⟩ : BufTy).Contents (Elt F)),
    StableHlo.unary main_v33 main_v34 (broadcastInDim S1x512 ![1] bcast_S512_S1x512_1 : (⟨S512, .f32⟩ : BufTy).Contents (Elt F) → (⟨S1x512, .f32⟩ : BufTy).Contents (Elt F)),
    StableHlo.unary main_v34 main_v35 (broadcastInDim S50000x512 ![0, 1] bcast_S1x512_S50000x512_0_1 : (⟨S1x512, .f32⟩ : BufTy).Contents (Elt F) → (⟨S50000x512, .f32⟩ : BufTy).Contents (Elt F)),
    StableHlo.binary main_v30 main_v35 main_v36 (mulf : (⟨S50000x512, .f32⟩ : BufTy).Contents (Elt F) → (⟨S50000x512, .f32⟩ : BufTy).Contents (Elt F) → (⟨S50000x512, .f32⟩ : BufTy).Contents (Elt F)),
    StableHlo.unary main_arg5 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S50000x512 ![0, 1] bcast_S1x512_S50000x512_0_1 : (⟨S1x512, .f32⟩ : BufTy).Contents (Elt F) → (⟨S50000x512, .f32⟩ : BufTy).Contents (Elt F)),
    StableHlo.binary main_v36 main_v38 main_v39 (mulf : (⟨S50000x512, .f32⟩ : BufTy).Contents (Elt F) → (⟨S50000x512, .f32⟩ : BufTy).Contents (Elt F) → (⟨S50000x512, .f32⟩ : BufTy).Contents (Elt F)),
    StableHlo.unary main_arg6 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S50000x512 ![0, 1] bcast_S1x512_S50000x512_0_1 : (⟨S1x512, .f32⟩ : BufTy).Contents (Elt F) → (⟨S50000x512, .f32⟩ : BufTy).Contents (Elt F)),
    StableHlo.binary main_v39 main_v41 main_v42 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant (F := F) S_ .f32 0x00000000#32),
    StableHlo.TRef.unary main_call1.cst main_call1.v0 (broadcastInDim S50000x512 ![] bcast_S_S50000x512),
    StableHlo.TRef.binary (StableHlo.TRef.of main_v42 : StableHlo.TRef sig ⟨S50000x512, .f32⟩) main_call1.v0 main_call1.v1 (maximumf (F := F)),
    StableHlo.binary main_v43 main_arg7 main_v44 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg8 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S50000x512 ![0, 1] bcast_S1x512_S50000x512_0_1 : (⟨S1x512, .f32⟩ : BufTy).Contents (Elt F) → (⟨S50000x512, .f32⟩ : BufTy).Contents (Elt F)),
    StableHlo.binary main_v44 main_v46 main_v47 (addf : (⟨S50000x512, .f32⟩ : BufTy).Contents (Elt F) → (⟨S50000x512, .f32⟩ : BufTy).Contents (Elt F) → (⟨S50000x512, .f32⟩ : BufTy).Contents (Elt F)) ]

-- seventy-nine binds re-associated: the rewrite under the chain recurses once per statement
set_option maxRecDepth 4096 in
set_option maxHeartbeats 1600000 in
/-- @main is that straight line: the helpers' definitions unfolded at their calls and the records at their fields,
    both sides are one chain of steps once sequencing is reassociated. -/
theorem main_eq (c : Dev nD) : main (F := F) c = StableHlo.seq ops := by
  simp only [main, fn_var.body, fn_where.body, fn_relu.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..,
    StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.binary_bufs_sub ..,
    StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.binary_bufs_sub ..,
    StableHlo.binary_bufs_sub .., StableHlo.unary_bufs_sub .., StableHlo.unary_bufs_sub .., StableHlo.binary_bufs_sub ..,
    StableHlo.nullary_bufs_sub .., StableHlo.binary_bufs_sub .., StableHlo.nullary_bufs_sub .., StableHlo.unary_bufs_sub ..,
    StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.unary_bufs_sub ..,
    StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.binary_bufs_sub ..,
    StableHlo.unary_bufs_sub .., StableHlo.unary_bufs_sub .., StableHlo.binary_bufs_sub ..⟩

end Run

/-- From any memory with zero counters every weakly fair execution of @main terminates, and every final state has
    each buffer at the operations' fold over the launch contents. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b)
        = StableHlo.after (ops (F := Ideal)) (StableHlo.launchContents m c) (Proc.devRef .tc b) :=
  StableHlo.run_seq scopedRefs_eq scopedSems_eq defs main (fun _ => ops) main_eq (fun _ => ops_sub) m ρ

set_option maxHeartbeats 1600000 in
/-- No operation writes an argument buffer. -/
theorem args_eq (V : Valuation τ sig (Elt Ideal)) :
    StableHlo.after (ops (F := Ideal)) V (Proc.devRef .tc main_arg0) = V (Proc.devRef .tc main_arg0)
    ∧ StableHlo.after (ops (F := Ideal)) V (Proc.devRef .tc main_arg1) = V (Proc.devRef .tc main_arg1)
    ∧ StableHlo.after (ops (F := Ideal)) V (Proc.devRef .tc main_arg2) = V (Proc.devRef .tc main_arg2)
    ∧ StableHlo.after (ops (F := Ideal)) V (Proc.devRef .tc main_arg3) = V (Proc.devRef .tc main_arg3)
    ∧ StableHlo.after (ops (F := Ideal)) V (Proc.devRef .tc main_arg4) = V (Proc.devRef .tc main_arg4)
    ∧ StableHlo.after (ops (F := Ideal)) V (Proc.devRef .tc main_arg5) = V (Proc.devRef .tc main_arg5)
    ∧ StableHlo.after (ops (F := Ideal)) V (Proc.devRef .tc main_arg6) = V (Proc.devRef .tc main_arg6)
    ∧ StableHlo.after (ops (F := Ideal)) V (Proc.devRef .tc main_arg7) = V (Proc.devRef .tc main_arg7)
    ∧ StableHlo.after (ops (F := Ideal)) V (Proc.devRef .tc main_arg8) = V (Proc.devRef .tc main_arg8) := by
  refine ⟨?_, ?_, ?_, ?_, ?_, ?_, ?_, ?_, ?_⟩ <;> after_results_simp

/-! ## The operations in four stretches, and what each leaves -/

section Stretches

variable {F : FTy → Type} [FloatOps F]

/-- The first twenty-eight operations: the neighbour sums and the first affine layer (the last writes %23). -/
def opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v3 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v3 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v4 main_v12 (broadcastInDim S800000x256 ![0, 1] bcast_S800000x1_S800000x256_0_1 : (⟨S800000x1, .f32⟩ : BufTy).Contents (Elt F) → (⟨S800000x256, .f32⟩ : BufTy).Contents (Elt F)),
    StableHlo.binary main_v12 main_v11 main_v13 (mulf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v14 (broadcastInDim S50000x256 ![] bcast_S_S50000x256 : (⟨S_, .f32⟩ : BufTy).Contents (Elt F) → (⟨S50000x256, .f32⟩ : BufTy).Contents (Elt F)),
    StableHlo.unary main_v1 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_1 (constant S_ .f32 0x3F800000#32),
    StableHlo.unary main_cst_1 main_v17 (broadcastInDim S50000x256 ![] bcast_S_S50000x256 : (⟨S_, .f32⟩ : BufTy).Contents (Elt F) → (⟨S50000x256, .f32⟩ : BufTy).Contents (Elt F)),
    StableHlo.binary main_v17 main_arg0 main_v18 (mulf : (⟨S50000x256, .f32⟩ : BufTy).Contents (Elt F) → (⟨S50000x256, .f32⟩ : BufTy).Contents (Elt F) → (⟨S50000x256, .f32⟩ : BufTy).Contents (Elt F)),
    StableHlo.binary main_v18 main_v16 main_v19 (addf : (⟨S50000x256, .f32⟩ : BufTy).Contents (Elt F) → (⟨S50000x256, .f32⟩ : BufTy).Contents (Elt F) → (⟨S50000x256, .f32⟩ : BufTy).Contents (Elt F)),
    StableHlo.binary main_v19 main_arg3 main_v20 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg4 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S50000x512 ![0, 1] bcast_S1x512_S50000x512_0_1 : (⟨S1x512, .f32⟩ : BufTy).Contents (Elt F) → (⟨S50000x512, .f32⟩ : BufTy).Contents (Elt F)),
    StableHlo.binary main_v20 main_v22 main_v23 (addf : (⟨S50000x512, .f32⟩ : BufTy).Contents (Elt F) → (⟨S50000x512, .f32⟩ : BufTy).Contents (Elt F) → (⟨S50000x512, .f32⟩ : BufTy).Contents (Elt F)) ]

/-- The next five: the column means (the last writes %26). -/
def opsB : List (HloOp τ sig (Elt F)) :=
  [ StableHlo.nullary main_cst_2 (constant S_ .f32 0x00000000#32),
    StableHlo.binary main_v23 main_cst_2 main_v24 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_3 (constant S_ .f32 0x47435000#32),
    StableHlo.unary main_cst_3 main_v25 (broadcastInDim S512 ![] bcast_S_S512 : (⟨S_, .f32⟩ : BufTy).Contents (Elt F) → (⟨S512, .f32⟩ : BufTy).Contents (Elt F)),
    StableHlo.binary main_v24 main_v25 main_v26 (Host.divf : (⟨S512, .f32⟩ : BufTy).Contents (Elt F) → (⟨S512, .f32⟩ : BufTy).Contents (Elt F) → (⟨S512, .f32⟩ : BufTy).Contents (Elt F)) ]

/-- The integer zero the variance helper takes, the helper's nineteen operations and its guarded choice's three (the last
    writes %27). -/
def opsC : List (HloOp τ sig (Elt F)) :=
  [ StableHlo.nullary main_c_4 (constantI S_ 32 0#32),
    StableHlo.TRef.nullary main_call0.cst (constant (F := F) S_ .f32 0x00000000#32),
    StableHlo.TRef.binary (StableHlo.TRef.of main_v23 : StableHlo.TRef sig ⟨S50000x512, .f32⟩) main_call0.cst main_call0.v0 (fun x v => Host.reduceAdd (F := F) x v reducesTo_S50000x512_S512_d0 h_S_),
    StableHlo.TRef.unary main_call0.v0 main_call0.v1 (broadcastInDim S1x512 ![1] bcast_S512_S1x512_1),
    StableHlo.TRef.nullary main_call0.cst_0 (constant (F := F) S_ .f32 0x47435000#32),
    StableHlo.TRef.unary main_call0.cst_0 main_call0.v2 (broadcastInDim S1x512 ![] bcast_S_S1x512),
    StableHlo.TRef.binary main_call0.v1 main_call0.v2 main_call0.v3 (Host.divf (F := F)),
    StableHlo.TRef.unary main_call0.v3 main_call0.v4 (broadcastInDim S50000x512 ![0, 1] bcast_S1x512_S50000x512_0_1),
    StableHlo.TRef.binary (StableHlo.TRef.of main_v23 : StableHlo.TRef sig ⟨S50000x512, .f32⟩) main_call0.v4 main_call0.v5 (subf (F := F)),
    StableHlo.TRef.binary main_call0.v5 main_call0.v5 main_call0.v6 (mulf (F := F)),
    StableHlo.TRef.unary (StableHlo.TRef.of main_c_4 : StableHlo.TRef sig ⟨S_, .i32⟩) main_call0.v7 (sitofp (F := F) .f32),
    StableHlo.TRef.nullary main_call0.cst_1 (constant (F := F) S_ .f32 0x47435000#32),
    StableHlo.TRef.binary main_call0.cst_1 main_call0.v7 main_call0.v8 (subf (F := F)),
    StableHlo.TRef.nullary main_call0.cst_2 (constant (F := F) S_ .f32 0x00000000#32),
    StableHlo.TRef.binary main_call0.v6 main_call0.cst_2 main_call0.v9 (fun x v => Host.reduceAdd (F := F) x v reducesTo_S50000x512_S512_d0 h_S_),
    StableHlo.TRef.unary main_call0.v8 main_call0.v10 (broadcastInDim S512 ![] bcast_S_S512),
    StableHlo.TRef.binary main_call0.v9 main_call0.v10 main_call0.v11 (Host.divf (F := F)),
    StableHlo.TRef.nullary main_call0.cst_3 (constant (F := F) S_ .f32 0x00000000#32),
    StableHlo.TRef.binary main_call0.v8 main_call0.cst_3 main_call0.v12 (cmpf (F := F) .ogt),
    StableHlo.TRef.nullary main_call0.cst_4 (constant (F := F) S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b) ]

/-- The last twenty-three: the normalisation, the clamp, the second affine layer (the last writes %47). -/
def opsD : List (HloOp τ sig (Elt F)) :=
  [ StableHlo.unary main_v26 main_v28 (broadcastInDim S1x512 ![1] bcast_S512_S1x512_1 : (⟨S512, .f32⟩ : BufTy).Contents (Elt F) → (⟨S1x512, .f32⟩ : BufTy).Contents (Elt F)),
    StableHlo.unary main_v28 main_v29 (broadcastInDim S50000x512 ![0, 1] bcast_S1x512_S50000x512_0_1 : (⟨S1x512, .f32⟩ : BufTy).Contents (Elt F) → (⟨S50000x512, .f32⟩ : BufTy).Contents (Elt F)),
    StableHlo.binary main_v23 main_v29 main_v30 (subf : (⟨S50000x512, .f32⟩ : BufTy).Contents (Elt F) → (⟨S50000x512, .f32⟩ : BufTy).Contents (Elt F) → (⟨S50000x512, .f32⟩ : BufTy).Contents (Elt F)),
    StableHlo.nullary main_cst_5 (constant S_ .f32 0x3727C5AC#32),
    StableHlo.unary main_cst_5 main_v31 (broadcastInDim S512 ![] bcast_S_S512 : (⟨S_, .f32⟩ : BufTy).Contents (Elt F) → (⟨S512, .f32⟩ : BufTy).Contents (Elt F)),
    StableHlo.binary main_v27 main_v31 main_v32 (addf : (⟨S512, .f32⟩ : BufTy).Contents (Elt F) → (⟨S512, .f32⟩ : BufTy).Contents (Elt F) → (⟨S512, .f32⟩ : BufTy).Contents (Elt F)),
    StableHlo.unary main_v32 main_v33 (Host.rsqrt : (⟨S512, .f32⟩ : BufTy).Contents (Elt F) → (⟨S512, .f32⟩ : BufTy).Contents (Elt F)),
    StableHlo.unary main_v33 main_v34 (broadcastInDim S1x512 ![1] bcast_S512_S1x512_1 : (⟨S512, .f32⟩ : BufTy).Contents (Elt F) → (⟨S1x512, .f32⟩ : BufTy).Contents (Elt F)),
    StableHlo.unary main_v34 main_v35 (broadcastInDim S50000x512 ![0, 1] bcast_S1x512_S50000x512_0_1 : (⟨S1x512, .f32⟩ : BufTy).Contents (Elt F) → (⟨S50000x512, .f32⟩ : BufTy).Contents (Elt F)),
    StableHlo.binary main_v30 main_v35 main_v36 (mulf : (⟨S50000x512, .f32⟩ : BufTy).Contents (Elt F) → (⟨S50000x512, .f32⟩ : BufTy).Contents (Elt F) → (⟨S50000x512, .f32⟩ : BufTy).Contents (Elt F)),
    StableHlo.unary main_arg5 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S50000x512 ![0, 1] bcast_S1x512_S50000x512_0_1 : (⟨S1x512, .f32⟩ : BufTy).Contents (Elt F) → (⟨S50000x512, .f32⟩ : BufTy).Contents (Elt F)),
    StableHlo.binary main_v36 main_v38 main_v39 (mulf : (⟨S50000x512, .f32⟩ : BufTy).Contents (Elt F) → (⟨S50000x512, .f32⟩ : BufTy).Contents (Elt F) → (⟨S50000x512, .f32⟩ : BufTy).Contents (Elt F)),
    StableHlo.unary main_arg6 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S50000x512 ![0, 1] bcast_S1x512_S50000x512_0_1 : (⟨S1x512, .f32⟩ : BufTy).Contents (Elt F) → (⟨S50000x512, .f32⟩ : BufTy).Contents (Elt F)),
    StableHlo.binary main_v39 main_v41 main_v42 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant (F := F) S_ .f32 0x00000000#32),
    StableHlo.TRef.unary main_call1.cst main_call1.v0 (broadcastInDim S50000x512 ![] bcast_S_S50000x512),
    StableHlo.TRef.binary (StableHlo.TRef.of main_v42 : StableHlo.TRef sig ⟨S50000x512, .f32⟩) main_call1.v0 main_call1.v1 (maximumf (F := F)),
    StableHlo.binary main_v43 main_arg7 main_v44 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg8 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S50000x512 ![0, 1] bcast_S1x512_S50000x512_0_1 : (⟨S1x512, .f32⟩ : BufTy).Contents (Elt F) → (⟨S50000x512, .f32⟩ : BufTy).Contents (Elt F)),
    StableHlo.binary main_v44 main_v46 main_v47 (addf : (⟨S50000x512, .f32⟩ : BufTy).Contents (Elt F) → (⟨S50000x512, .f32⟩ : BufTy).Contents (Elt F) → (⟨S50000x512, .f32⟩ : BufTy).Contents (Elt F)) ]

theorem ops_eq : (ops : List (HloOp τ sig (Elt F))) = opsA ++ (opsB ++ (opsC ++ opsD)) := rfl

/-- The fold over a concatenation is the folds one after the other. -/
private theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

theorem after_ops (V : Valuation τ sig (Elt F)) :
    StableHlo.after ops V = StableHlo.after opsD (StableHlo.after opsC (StableHlo.after opsB (StableHlo.after opsA V))) := by
  rw [ops_eq, after_app, after_app, after_app]

end Stretches

/-! ## What each stretch leaves: its result as the stage's function of what it reads, the rest unchanged -/

section Values

set_option maxHeartbeats 800000

/-- After the first stretch %23 holds the first affine layer of the features and their neighbour sums. -/
theorem stageA (V : Valuation τ sig (Elt Ideal)) :
    StableHlo.after (opsA (F := Ideal)) V (Proc.devRef .tc main_v23)
      = refH1 (V (Proc.devRef .tc main_arg0))
          (Cert.Result.aggTerm (V (Proc.devRef .tc main_arg0)) (V (Proc.devRef .tc main_arg1)) (V (Proc.devRef .tc main_arg2)))
          (V (Proc.devRef .tc main_arg3)) (V (Proc.devRef .tc main_arg4)) := by
  unfold opsA
  after_results_simp
  rfl

theorem frameA_arg5 (V : Valuation τ sig (Elt Ideal)) :
    StableHlo.after (opsA (F := Ideal)) V (Proc.devRef .tc main_arg5) = V (Proc.devRef .tc main_arg5) := by
  unfold opsA; after_results_simp

theorem frameA_arg6 (V : Valuation τ sig (Elt Ideal)) :
    StableHlo.after (opsA (F := Ideal)) V (Proc.devRef .tc main_arg6) = V (Proc.devRef .tc main_arg6) := by
  unfold opsA; after_results_simp

theorem frameA_arg7 (V : Valuation τ sig (Elt Ideal)) :
    StableHlo.after (opsA (F := Ideal)) V (Proc.devRef .tc main_arg7) = V (Proc.devRef .tc main_arg7) := by
  unfold opsA; after_results_simp

theorem frameA_arg8 (V : Valuation τ sig (Elt Ideal)) :
    StableHlo.after (opsA (F := Ideal)) V (Proc.devRef .tc main_arg8) = V (Proc.devRef .tc main_arg8) := by
  unfold opsA; after_results_simp

/-- After the second stretch %26 holds the column means of %23. -/
theorem stageB (V : Valuation τ sig (Elt Ideal)) :
    StableHlo.after (opsB (F := Ideal)) V (Proc.devRef .tc main_v26) = refMean (V (Proc.devRef .tc main_v23)) := by
  unfold opsB
  after_results_simp
  rfl

theorem frameB_v23 (V : Valuation τ sig (Elt Ideal)) :
    StableHlo.after (opsB (F := Ideal)) V (Proc.devRef .tc main_v23) = V (Proc.devRef .tc main_v23) := by
  unfold opsB; after_results_simp

theorem frameB_arg5 (V : Valuation τ sig (Elt Ideal)) :
    StableHlo.after (opsB (F := Ideal)) V (Proc.devRef .tc main_arg5) = V (Proc.devRef .tc main_arg5) := by
  unfold opsB; after_results_simp

theorem frameB_arg6 (V : Valuation τ sig (Elt Ideal)) :
    StableHlo.after (opsB (F := Ideal)) V (Proc.devRef .tc main_arg6) = V (Proc.devRef .tc main_arg6) := by
  unfold opsB; after_results_simp

theorem frameB_arg7 (V : Valuation τ sig (Elt Ideal)) :
    StableHlo.after (opsB (F := Ideal)) V (Proc.devRef .tc main_arg7) = V (Proc.devRef .tc main_arg7) := by
  unfold opsB; after_results_simp

theorem frameB_arg8 (V : Valuation τ sig (Elt Ideal)) :
    StableHlo.after (opsB (F := Ideal)) V (Proc.devRef .tc main_arg8) = V (Proc.devRef .tc main_arg8) := by
  unfold opsB; after_results_simp

/-- After the third stretch %27 holds the column variances of %23 (the typed references' transports are the
    identity at these literal references). -/
theorem stageC (V : Valuation τ sig (Elt Ideal)) :
    StableHlo.after (opsC (F := Ideal)) V (Proc.devRef .tc main_v27) = refVar (V (Proc.devRef .tc main_v23)) := by
  unfold opsC
  after_results_simp
  rfl

theorem frameC_v23 (V : Valuation τ sig (Elt Ideal)) :
    StableHlo.after (opsC (F := Ideal)) V (Proc.devRef .tc main_v23) = V (Proc.devRef .tc main_v23) := by
  unfold opsC; after_results_simp

theorem frameC_v26 (V : Valuation τ sig (Elt Ideal)) :
    StableHlo.after (opsC (F := Ideal)) V (Proc.devRef .tc main_v26) = V (Proc.devRef .tc main_v26) := by
  unfold opsC; after_results_simp

theorem frameC_arg5 (V : Valuation τ sig (Elt Ideal)) :
    StableHlo.after (opsC (F := Ideal)) V (Proc.devRef .tc main_arg5) = V (Proc.devRef .tc main_arg5) := by
  unfold opsC; after_results_simp

theorem frameC_arg6 (V : Valuation τ sig (Elt Ideal)) :
    StableHlo.after (opsC (F := Ideal)) V (Proc.devRef .tc main_arg6) = V (Proc.devRef .tc main_arg6) := by
  unfold opsC; after_results_simp

theorem frameC_arg7 (V : Valuation τ sig (Elt Ideal)) :
    StableHlo.after (opsC (F := Ideal)) V (Proc.devRef .tc main_arg7) = V (Proc.devRef .tc main_arg7) := by
  unfold opsC; after_results_simp

theorem frameC_arg8 (V : Valuation τ sig (Elt Ideal)) :
    StableHlo.after (opsC (F := Ideal)) V (Proc.devRef .tc main_arg8) = V (Proc.devRef .tc main_arg8) := by
  unfold opsC; after_results_simp

/-- After the last stretch %47 holds the rest of the computation on %23, %26, %27 and the last four arguments. -/
theorem stageD (V : Valuation τ sig (Elt Ideal)) :
    StableHlo.after (opsD (F := Ideal)) V (Proc.devRef .tc main_v47)
      = refTail (V (Proc.devRef .tc main_v23)) (V (Proc.devRef .tc main_v26)) (V (Proc.devRef .tc main_v27))
          (V (Proc.devRef .tc main_arg5)) (V (Proc.devRef .tc main_arg6)) (V (Proc.devRef .tc main_arg7)) (V (Proc.devRef .tc main_arg8)) := by
  unfold opsD
  after_results_simp
  rfl

/-- The result buffer after the whole line. -/
theorem out_eq (m : (ℓ : Loc nD τ sig) → Buf (Elt Ideal) ℓ) (c : Dev nD) :
    StableHlo.after (ops (F := Ideal)) (StableHlo.launchContents m c) (Proc.devRef .tc main_v47) = refOut m c := by
  rw [after_ops, stageD, stageC, frameC_v23, frameC_v26, frameC_arg5, frameC_arg6, frameC_arg7, frameC_arg8,
    stageB, frameB_v23, frameB_arg5, frameB_arg6, frameB_arg7, frameB_arg8,
    stageA, frameA_arg5, frameA_arg6, frameA_arg7, frameA_arg8]
  rfl

end Values

/-- The run. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun r h c => ?_) (run_all m ρ)
  obtain ⟨h0, h1, h2, h3, h4, h5, h6, h7, h8⟩ := args_eq (StableHlo.launchContents m c)
  exact ⟨(h c main_v47).trans (out_eq m c), (h c main_arg0).trans h0, (h c main_arg1).trans h1, (h c main_arg2).trans h2,
    (h c main_arg3).trans h3, (h c main_arg4).trans h4, (h c main_arg5).trans h5, (h c main_arg6).trans h6,
    (h c main_arg7).trans h7, (h c main_arg8).trans h8⟩

end Cert.ReferenceIdeal.Hand

end
-- ==== Proof.RefValue.lean ====
/-
  The reference's result, read index by index: its composed operations are the specification's result with the
  variance in the reference's own form (the mean of the squared deviations from the batch mean). The two matrix products
  are sums over the contracted axis, the two column reductions sums over the 50000 rows from a zero start, every
  broadcast a re-reading of a row or a scalar; the variance helper's divisor 50000 − 0 is 50000 and its guard
  50000 − 0 > 0 holds, so the guarded choice takes the computed variance.
-/
import proofs.«133134_j51762945852037_1_alg».proof.Proof.RefRun
import proofs.«133134_j51762945852037_1_alg».proof.Proof.Result
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem

/-! ## Broadcasts read at an index -/

/-- A length-512 vector laid out as the single row of a 1 × 512 array: the entry in column `j` is the vector's `j`-th. -/
private theorem asRow_apply {α : Type} (v : S512.Idx → α) (z : Fin 1) (j : Fin 512) :
    broadcastInDim S1x512 ![1] bcast_S512_S1x512_1 v (ix2 z j) = v (ix1 j) :=
  broadcastInDim_apply _ _ v (ix2 z j) (ix1 j) (fun a => by match a with | ⟨0, _⟩ => rfl)

/-- A 1 × 512 array repeated down 50000 rows: the entry at (r, j) is the single row's entry in column `j`. -/
private theorem downRows_apply {α : Type} (w : S1x512.Idx → α) (r : Fin 50000) (j : Fin 512) :
    broadcastInDim S50000x512 ![0, 1] bcast_S1x512_S50000x512_0_1 w (ix2 r j) = w (ix2 (0 : Fin 1) j) :=
  broadcastInDim_apply _ _ w (ix2 r j) (ix2 (0 : Fin 1) j)
    (fun a => by match a with | ⟨0, _⟩ => rfl | ⟨1, _⟩ => rfl)

/-- The reciprocal square root taken entry by entry. -/
private theorem hostRsqrt_apply {s : Shape} (v : FVec Ideal s .f32) (i : s.Idx) :
    Host.rsqrt (F := Ideal) (φ := .f32) v i = Ideal.rsqrt (v i) := rfl

/-! ## The first matrix product: rows of a 50000 × 256 array against columns of a 256 × 512 array -/

private theorem dotA_lhs_0 (i : S50000x512.Idx) (q : dot_S50000x256_S256x512_S50000x512_1_0_0_1_n_n.contr.Idx) :
    (dot_S50000x256_S256x512_S50000x512_1_0_0_1_n_n.lhsIdx i q 0).val = (i 0).val := by
  unfold DotDims.lhsIdx
  rw [dif_neg (show ¬(0 : Fin S50000x256.rank) ∈ dot_S50000x256_S256x512_S50000x512_1_0_0_1_n_n.lhsBatch by decide),
    dif_pos (show (0 : Fin S50000x256.rank) ∈ dot_S50000x256_S256x512_S50000x512_1_0_0_1_n_n.lhsNonContracting by decide)]
  rfl

private theorem dotA_lhs_1 (i : S50000x512.Idx) (q : dot_S50000x256_S256x512_S50000x512_1_0_0_1_n_n.contr.Idx) :
    (dot_S50000x256_S256x512_S50000x512_1_0_0_1_n_n.lhsIdx i q 1).val = (q ⟨0, by decide⟩).val :=
  dot_S50000x256_S256x512_S50000x512_1_0_0_1_n_n.lhsIdx_val_of_single rfl i q

private theorem dotA_rhs_0 (i : S50000x512.Idx) (q : dot_S50000x256_S256x512_S50000x512_1_0_0_1_n_n.contr.Idx) :
    (dot_S50000x256_S256x512_S50000x512_1_0_0_1_n_n.rhsIdx i q 0).val = (q ⟨0, by decide⟩).val :=
  dot_S50000x256_S256x512_S50000x512_1_0_0_1_n_n.rhsIdx_val_of_single rfl i q

private theorem dotA_rhs_1 (i : S50000x512.Idx) (q : dot_S50000x256_S256x512_S50000x512_1_0_0_1_n_n.contr.Idx) :
    (dot_S50000x256_S256x512_S50000x512_1_0_0_1_n_n.rhsIdx i q 1).val = (i 1).val := by
  unfold DotDims.rhsIdx
  rw [dif_neg (show ¬(1 : Fin S256x512.rank) ∈ dot_S50000x256_S256x512_S50000x512_1_0_0_1_n_n.rhsBatch by decide),
    dif_pos (show (1 : Fin S256x512.rank) ∈ dot_S50000x256_S256x512_S50000x512_1_0_0_1_n_n.rhsNonContracting by decide)]
  rfl

/-- Entry (r, j) of the product is the sum over the 256 shared coordinates of row r times column j. -/
private theorem dotA_apply (A : Vec Ideal S50000x256 .f32) (B : Vec Ideal S256x512 .f32) (r : Fin 50000) (j : Fin 512) :
    Host.dotGeneral (F := Ideal) (φ₁ := .f32) (φ₂ := .f32) dot_S50000x256_S256x512_S50000x512_1_0_0_1_n_n none A B (ix2 r j)
      = ∑ k : Fin 256, A (ix2 r k) * B (ix2 k j) := by
  simp only [Host.dotGeneral]
  rw [Ideal.dotGeneral_apply,
    ← Equiv.sum_comp (contrEquiv1 dot_S50000x256_S256x512_S50000x512_1_0_0_1_n_n 256 rfl rfl).symm]
  refine Finset.sum_congr rfl fun k _ => ?_
  have hk := contrEquiv1_symm_val dot_S50000x256_S256x512_S50000x512_1_0_0_1_n_n 256 rfl rfl k
  have hl : dot_S50000x256_S256x512_S50000x512_1_0_0_1_n_n.lhsIdx (ix2 r j)
      ((contrEquiv1 dot_S50000x256_S256x512_S50000x512_1_0_0_1_n_n 256 rfl rfl).symm k) = ix2 r k :=
    funext fun a => Fin.ext (by
      match a with
      | ⟨0, _⟩ => exact dotA_lhs_0 _ _
      | ⟨1, _⟩ => exact (dotA_lhs_1 _ _).trans hk)
  have hr : dot_S50000x256_S256x512_S50000x512_1_0_0_1_n_n.rhsIdx (ix2 r j)
      ((contrEquiv1 dot_S50000x256_S256x512_S50000x512_1_0_0_1_n_n 256 rfl rfl).symm k) = ix2 k j :=
    funext fun a => Fin.ext (by
      match a with
      | ⟨0, _⟩ => exact (dotA_rhs_0 _ _).trans hk
      | ⟨1, _⟩ => exact dotA_rhs_1 _ _)
  rw [hl, hr]

/-! ## The second matrix product: rows of a 50000 × 512 array against columns of a 512 × 512 array -/

private theorem dotB_lhs_0 (i : S50000x512.Idx) (q : dot_S50000x512_S512x512_S50000x512_1_0_0_1_n_n.contr.Idx) :
    (dot_S50000x512_S512x512_S50000x512_1_0_0_1_n_n.lhsIdx i q 0).val = (i 0).val := by
  unfold DotDims.lhsIdx
  rw [dif_neg (show ¬(0 : Fin S50000x512.rank) ∈ dot_S50000x512_S512x512_S50000x512_1_0_0_1_n_n.lhsBatch by decide),
    dif_pos (show (0 : Fin S50000x512.rank) ∈ dot_S50000x512_S512x512_S50000x512_1_0_0_1_n_n.lhsNonContracting by decide)]
  rfl

private theorem dotB_lhs_1 (i : S50000x512.Idx) (q : dot_S50000x512_S512x512_S50000x512_1_0_0_1_n_n.contr.Idx) :
    (dot_S50000x512_S512x512_S50000x512_1_0_0_1_n_n.lhsIdx i q 1).val = (q ⟨0, by decide⟩).val :=
  dot_S50000x512_S512x512_S50000x512_1_0_0_1_n_n.lhsIdx_val_of_single rfl i q

private theorem dotB_rhs_0 (i : S50000x512.Idx) (q : dot_S50000x512_S512x512_S50000x512_1_0_0_1_n_n.contr.Idx) :
    (dot_S50000x512_S512x512_S50000x512_1_0_0_1_n_n.rhsIdx i q 0).val = (q ⟨0, by decide⟩).val :=
  dot_S50000x512_S512x512_S50000x512_1_0_0_1_n_n.rhsIdx_val_of_single rfl i q

private theorem dotB_rhs_1 (i : S50000x512.Idx) (q : dot_S50000x512_S512x512_S50000x512_1_0_0_1_n_n.contr.Idx) :
    (dot_S50000x512_S512x512_S50000x512_1_0_0_1_n_n.rhsIdx i q 1).val = (i 1).val := by
  unfold DotDims.rhsIdx
  rw [dif_neg (show ¬(1 : Fin S512x512.rank) ∈ dot_S50000x512_S512x512_S50000x512_1_0_0_1_n_n.rhsBatch by decide),
    dif_pos (show (1 : Fin S512x512.rank) ∈ dot_S50000x512_S512x512_S50000x512_1_0_0_1_n_n.rhsNonContracting by decide)]
  rfl

/-- Entry (r, j) of the product is the sum over the 512 shared coordinates of row r times column j. -/
private theorem dotB_apply (A : Vec Ideal S50000x512 .f32) (B : Vec Ideal S512x512 .f32) (r : Fin 50000) (j : Fin 512) :
    Host.dotGeneral (F := Ideal) (φ₁ := .f32) (φ₂ := .f32) dot_S50000x512_S512x512_S50000x512_1_0_0_1_n_n none A B (ix2 r j)
      = ∑ k : Fin 512, A (ix2 r k) * B (ix2 k j) := by
  simp only [Host.dotGeneral]
  rw [Ideal.dotGeneral_apply, ← Equiv.sum_comp (contrEquiv1 dot_S50000x512_S512x512_S50000x512_1_0_0_1_n_n 512 rfl rfl).symm]
  refine Finset.sum_congr rfl fun k _ => ?_
  have hk := contrEquiv1_symm_val dot_S50000x512_S512x512_S50000x512_1_0_0_1_n_n 512 rfl rfl k
  have hl : dot_S50000x512_S512x512_S50000x512_1_0_0_1_n_n.lhsIdx (ix2 r j) ((contrEquiv1 dot_S50000x512_S512x512_S50000x512_1_0_0_1_n_n 512 rfl rfl).symm k) = ix2 r k :=
    funext fun a => Fin.ext (by
      match a with
      | ⟨0, _⟩ => exact dotB_lhs_0 _ _
      | ⟨1, _⟩ => exact (dotB_lhs_1 _ _).trans hk)
  have hr : dot_S50000x512_S512x512_S50000x512_1_0_0_1_n_n.rhsIdx (ix2 r j) ((contrEquiv1 dot_S50000x512_S512x512_S50000x512_1_0_0_1_n_n 512 rfl rfl).symm k) = ix2 k j :=
    funext fun a => Fin.ext (by
      match a with
      | ⟨0, _⟩ => exact (dotB_rhs_0 _ _).trans hk
      | ⟨1, _⟩ => exact dotB_rhs_1 _ _)
  rw [hl, hr]

/-! ## A column sum from a zero start -/

/-- Summing a 50000 × 512 array down its rows, starting from the zero word: entry j is the sum of column j. -/
private theorem colSum_apply (v : Vec Ideal S50000x512 .f32) (j : Fin 512) :
    Host.reduceAdd (F := Ideal) (φ := .f32) v (constant (F := Ideal) S_ .f32 0x00000000#32)
        reducesTo_S50000x512_S512_d0 h_S_ (ix1 j)
      = ∑ r : Fin 50000, v (ix2 r j) := by
  rw [hostReduceAdd_apply, Ideal.hostReduceAdd_single reducesTo_S50000x512_S512_d0 (by decide), constant_apply,
    Ideal.ofBits_zero_f32, zero_add]
  refine Finset.sum_congr rfl fun r _ => ?_
  exact congrArg v (funext fun a => Fin.ext (by match a with | ⟨0, _⟩ => rfl | ⟨1, _⟩ => rfl))

/-! ## The stages -/

/-- The first affine layer at (r, j). -/
theorem refH1_apply (x agg : Vec Ideal S50000x256 .f32) (W1 : Vec Ideal S256x512 .f32) (b1 : Vec Ideal S512 .f32)
    (r : Fin 50000) (j : Fin 512) :
    refH1 x agg W1 b1 (ix2 r j)
      = Cert.Spec.h1 (Cert.Result.at2 x) (Cert.Result.at2 agg) (Cert.Result.at2 W1) (Cert.Result.at1 b1) r j := by
  unfold refH1 Cert.Spec.h1
  dsimp only
  rw [addf_apply, dotA_apply, downRows_apply, asRow_apply]
  refine congrArg (· + b1 (ix1 j)) (Finset.sum_congr rfl fun k _ => ?_)
  rw [addf_apply, mulf_apply, broadcastInDim_scalar_apply, constant_apply]

/-- The column means at j. -/
theorem refMean_apply (h : Vec Ideal S50000x512 .f32) (j : Fin 512) :
    refMean h (ix1 j) = Ideal.div (∑ r : Fin 50000, h (ix2 r j)) Cert.Spec.nRows := by
  unfold refMean
  dsimp only
  rw [hostDivf_apply, colSum_apply, broadcastInDim_scalar_apply, constant_apply]

/-! ### The variance helper's divisor and guard -/

/-- The helper's divisor, the row count minus the converted integer zero, is the row count. -/
private theorem divisor_apply (i : S_.Idx) :
    subf (F := Ideal) (φ := .f32) (constant (F := Ideal) S_ .f32 0x47435000#32)
        (sitofp (F := Ideal) .f32 (constantI S_ 32 0#32)) i = Cert.Spec.nRows := by
  show Cert.Spec.nRows - (((0#32 : BitVec 32).toInt : ℝ) : EReal) = Cert.Spec.nRows
  rw [show (((0#32 : BitVec 32).toInt : ℝ)) = 0 by simp, EReal.coe_zero, sub_zero]

/-- The row count is above the zero word's value. -/
private theorem zero_lt_nRows : Cert.Spec.zero < Cert.Spec.nRows := by
  rw [Cert.Spec.nRows_eq]
  show Ideal.ofBits .f32 0x00000000#32 < _
  rw [Ideal.ofBits_zero_f32]
  exact_mod_cast (by norm_num : (0 : ℝ) < 50000)

/-- So the helper's guard, "divisor above zero", is the bit one. -/
private theorem guard_apply (i : S_.Idx) :
    cmpf (F := Ideal) (φ := .f32) .ogt
        (subf (F := Ideal) (φ := .f32) (constant (F := Ideal) S_ .f32 0x47435000#32)
          (sitofp (F := Ideal) .f32 (constantI S_ 32 0#32)))
        (constant (F := Ideal) S_ .f32 0x00000000#32) i = 1#1 := by
  rw [cmpf_apply, divisor_apply, constant_apply]
  show BitVec.ofBool (decide (Cert.Spec.zero < Cert.Spec.nRows)) = 1#1
  rw [decide_eq_true zero_lt_nRows]
  rfl

/-- The column variances at j: the mean over the rows of the squared deviation from the column mean. -/
theorem refVar_apply (h : Vec Ideal S50000x512 .f32) (j : Fin 512) :
    refVar h (ix1 j)
      = Ideal.div (∑ r : Fin 50000, (h (ix2 r j) - refMean h (ix1 j)) * (h (ix2 r j) - refMean h (ix1 j)))
          Cert.Spec.nRows := by
  unfold refVar
  dsimp only
  rw [select_apply, broadcastInDim_scalar_apply, guard_apply, select_one, hostDivf_apply, colSum_apply,
    broadcastInDim_scalar_apply, divisor_apply]
  refine congrArg (Ideal.div · Cert.Spec.nRows) (Finset.sum_congr rfl fun r _ => ?_)
  have hdev : subf (F := Ideal) (φ := .f32) h
      (broadcastInDim S50000x512 ![0, 1] bcast_S1x512_S50000x512_0_1
        (Host.divf (F := Ideal) (φ := .f32)
          (broadcastInDim S1x512 ![1] bcast_S512_S1x512_1
            (Host.reduceAdd (F := Ideal) (φ := .f32) h (constant (F := Ideal) S_ .f32 0x00000000#32)
              reducesTo_S50000x512_S512_d0 h_S_))
          (broadcastInDim S1x512 ![] bcast_S_S1x512 (constant (F := Ideal) S_ .f32 0x47435000#32)))) (ix2 r j)
      = h (ix2 r j) - refMean h (ix1 j) := by
    rw [subf_apply, downRows_apply, hostDivf_apply, asRow_apply, colSum_apply, broadcastInDim_scalar_apply,
      constant_apply, refMean_apply]
  rw [mulf_apply, hdev]

/-- The normalisation, clamp and second affine layer at (r, j), over any mean and variance rows. -/
theorem refTail_apply (h : Vec Ideal S50000x512 .f32) (mean var gamma beta : Vec Ideal S512 .f32)
    (W2 : Vec Ideal S512x512 .f32) (b2 : Vec Ideal S512 .f32) (r : Fin 50000) (j : Fin 512) :
    refTail h mean var gamma beta W2 b2 (ix2 r j)
      = (∑ k : Fin 512,
          max (((h (ix2 r k) - mean (ix1 k)) * Ideal.rsqrt (var (ix1 k) + Cert.Spec.eps)) * gamma (ix1 k) + beta (ix1 k))
            Cert.Spec.zero * W2 (ix2 k j)) + b2 (ix1 j) := by
  unfold refTail
  dsimp only
  rw [addf_apply, dotB_apply, downRows_apply, asRow_apply]
  refine congrArg (· + b2 (ix1 j)) (Finset.sum_congr rfl fun k _ => ?_)
  rw [maximumf_apply, addf_apply, mulf_apply, mulf_apply, subf_apply, downRows_apply, asRow_apply, downRows_apply,
    asRow_apply, hostRsqrt_apply, addf_apply, broadcastInDim_scalar_apply, constant_apply, downRows_apply, asRow_apply,
    downRows_apply, asRow_apply, broadcastInDim_scalar_apply, constant_apply]

/-! ## The composition -/

/-- The column means of the first affine layer are the specification's. -/
theorem refMean_h1 (x agg : Vec Ideal S50000x256 .f32) (W1 : Vec Ideal S256x512 .f32) (b1 : Vec Ideal S512 .f32)
    (j : Fin 512) :
    refMean (refH1 x agg W1 b1) (ix1 j)
      = Cert.Spec.mean (Cert.Result.at2 x) (Cert.Result.at2 agg) (Cert.Result.at2 W1) (Cert.Result.at1 b1) j := by
  rw [refMean_apply]
  unfold Cert.Spec.mean Cert.Spec.colSum
  exact congrArg (Ideal.div · Cert.Spec.nRows) (Finset.sum_congr rfl fun r _ => refH1_apply x agg W1 b1 r j)

/-- The column variances of the first affine layer are the specification's, in the reference's form. -/
theorem refVar_h1 (x agg : Vec Ideal S50000x256 .f32) (W1 : Vec Ideal S256x512 .f32) (b1 : Vec Ideal S512 .f32)
    (j : Fin 512) :
    refVar (refH1 x agg W1 b1) (ix1 j)
      = Cert.Spec.varR (Cert.Result.at2 x) (Cert.Result.at2 agg) (Cert.Result.at2 W1) (Cert.Result.at1 b1) j := by
  rw [refVar_apply, refMean_h1]
  unfold Cert.Spec.varR
  refine congrArg (Ideal.div · Cert.Spec.nRows) (Finset.sum_congr rfl fun r _ => ?_)
  rw [refH1_apply]

/-- The four stages composed, over any argument arrays, are the specification's result array. -/
theorem refStages_eq (x agg : Vec Ideal S50000x256 .f32) (W1 : Vec Ideal S256x512 .f32) (b1 gamma beta : Vec Ideal S512 .f32)
    (W2 : Vec Ideal S512x512 .f32) (b2 : Vec Ideal S512 .f32) :
    refTail (refH1 x agg W1 b1) (refMean (refH1 x agg W1 b1)) (refVar (refH1 x agg W1 b1)) gamma beta W2 b2
      = Cert.Result.resultArrR x agg W1 b1 gamma beta W2 b2 := by
  funext i
  obtain ⟨r, j, rfl⟩ : ∃ (r : Fin 50000) (j : Fin 512), i = ix2 r j := ⟨i 0, i 1, eq_ix2 i⟩
  rw [refTail_apply]
  unfold Cert.Result.resultArrR Cert.Spec.outWith Cert.Spec.act
  refine congrArg (· + b2 (ix1 j)) (Finset.sum_congr rfl fun k _ => ?_)
  rw [refH1_apply, refMean_h1, refVar_h1]

/-- The reference's composed result is the specification's result (reference form of the variance) of the arguments and agg. -/
theorem refOut_eq (m : (ℓ : Loc nD τ sig) → Buf (Elt Ideal) ℓ) (c : Dev nD) :
    refOut m c = Cert.Result.resultArrR (m ((c.tc : Thread nD τ).loc main_arg0)) (Cert.Result.aggTerm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  refStages_eq _ _ _ _ _ _ _ _

end Cert.ReferenceIdeal.Hand

end
-- ==== Proof.lean ====
/-
  The certificate for the graph-convolution layer: neighbour features scaled by edge weights and summed into each
  destination row (agg), then a two-layer perceptron with batch normalisation between its layers,
      out = relu(((h1 − mean) · rsqrt(var + ε)) · gamma + beta) · W2 + b2,   h1 = (1·x + agg) · W1 + b1,
  mean and var the batch statistics of h1 over its 50000 rows.
  Both programs form agg by the same host operations. The kernel computes h1 tile by tile (25 tiles of 2000 rows) in a
  first region that also carries the column sums of h1 and of h1² across the tiles, and closes with
  mean = S / n and var = Q / n − mean²; a second region normalises, clamps and applies the second layer tile by tile.
  The reference computes var as the mean of the squared deviations from the mean. Every other operation is the same
  on both sides at the exact instance: a change of float format is the identity, a matrix product into a zero
  accumulator is the sum over the contracted axis, a lane reduction and a host reduction are the same finite sum, and
  regrouping the 50000 rows into 25 tiles does not change a sum.
  The one law that needs the precondition is the variance identity Σ (h − μ)² / n = Q / n − μ² (μ = S / n): it is an
  identity of real numbers and fails at infinities, so it is used where h1 is real-valued, which the precondition
  gives: finite features and edge weights make every entry of agg a finite sum of products of reals, and finite
  weights and biases then make every entry of h1 real.
  The three frames: each program runs to the end, faults nowhere and writes none of its nine arguments; the
  idealization rewrote no operation, so the fourth conjunct is trivial.
-/
import proofs.«133134_j51762945852037_1_alg».proof.Defs
import proofs.«133134_j51762945852037_1_alg».proof.Proof.KernelClaims
import proofs.«133134_j51762945852037_1_alg».proof.Proof.RefRun
import proofs.«133134_j51762945852037_1_alg».proof.Proof.RefValue
import proofs.«133134_j51762945852037_1_alg».proof.Proof.Gen.Kernel
import proofs.«133134_j51762945852037_1_alg».proof.Proof.Gen.KernelIdeal
import proofs.«133134_j51762945852037_1_alg».proof.Proof.Gen.ReferenceIdeal
import proofs.«133134_j51762945852037_1_alg».proof.Proof.Gen.Pre_finite_inputs
import Idealize.ShloMosaic.Adequacy
import Idealize.ShloMosaic.Init

noncomputable section

namespace Cert.Proof

open Idealize.ShloMosaic Idealize.SL.Sem

/-- The reference runs to the end and leaves its arguments as launched: its run with the result dropped. -/
theorem frame_reference : Cert.frame_ReferenceIdeal := fun m ρ _ =>
  (θ_run (Cert.ReferenceIdeal.defs (F := Ideal)) _ _).mono (fun _ h c => (h c).2) (Cert.ReferenceIdeal.Hand.ref_run m ρ)

/-- The idealization rewrote nothing. -/
theorem preserves : Cert.preserves_Kernel_KernelIdeal := trivial

/-- From memories that agree on the arguments both idealized programs end with the same result array: the kernel's run ends
    at the specification's result; the reference's ends at the same with its own form of the variance, which is the
    kernel's because h1 is real-valued under the precondition; and the arguments the two read are the same arrays. -/
theorem algebraic : Cert.algebraic_KernelIdeal_ReferenceIdeal := by
  intro m ρ m' ρ' hpre hagree
  refine ⟨resultOf m, kernel_run m ρ, ?_⟩
  refine (θ_run (Cert.ReferenceIdeal.defs (F := Ideal)) _ _).mono (fun r h c => ⟨(h c).1.trans ?_, (h c).2⟩)
    (Cert.ReferenceIdeal.Hand.ref_run m' ρ')
  rw [Cert.ReferenceIdeal.Hand.refOut_eq m' c]
  obtain ⟨e0, e1, e2, e3, e4, e5, e6, e7, e8⟩ := hagree c
  rw [e0, e1, e2, e3, e4, e5, e6, e7, e8]
  exact Cert.Result.resultArrR_eq _ _ _ _ _ _ _ _ (h1_real_of_pre m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
